-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024x256 : Shape := ⟨3, ![128, 1024, 256]⟩
abbrev S128x1024x64 : Shape := ⟨3, ![128, 1024, 64]⟩
abbrev S128 : Shape := ⟨1, ![128]⟩
abbrev S1024x16384 : Shape := ⟨2, ![1024, 16384]⟩
abbrev S1024 : Shape := ⟨1, ![1024]⟩
abbrev S_ : Shape := ⟨0, ![]⟩

class Facts : Prop where
  bcast_S_S128x1024x256 : S_.BroadcastsInDim S128x1024x256 (![] : Fin 0 → Fin S128x1024x256.rank)
  reducesTo_S128x1024x256_S_d0_1_2 : S128x1024x256.ReducesTo [0, 1, 2] S_
  h_S_ : 0 < S_.numel
  bcast_S_S128x1024x64 : S_.BroadcastsInDim S128x1024x64 (![] : Fin 0 → Fin S128x1024x64.rank)
  reducesTo_S128x1024x64_S_d0_1_2 : S128x1024x64.ReducesTo [0, 1, 2] S_
  bcast_S_S1024x16384 : S_.BroadcastsInDim S1024x16384 (![] : Fin 0 → Fin S1024x16384.rank)
  reducesTo_S1024x16384_S_d0_1 : S1024x16384.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S128x1024x256 .f32) (main_arg1 : FVec F S128x1024x64 .f32) (main_arg2 : IVec S128 32) (main_arg3 : FVec F S1024x16384 .f32) (main_arg4 : FVec F S1024 .f32) : IVec S_ 1 :=
  let main_v0 : FVec F S128x1024x256 .f32 := Host.absf main_arg0
  let main_cst : FVec F S_ .f32 := constant S_ .f32 0x7F800000#32
  let main_v1 : FVec F S128x1024x256 .f32 := broadcastInDim S128x1024x256 ![] bcast_S_S128x1024x256 main_cst
  let main_v2 : IVec S128x1024x256 1 := cmpf .olt main_v0 main_v1
  let main_c : IVec S_ 1 := constantI S_ 1 1#1
  let main_v3 : IVec S_ 1 := (fun x v => Host.reduce IntOp.andi x v reducesTo_S128x1024x256_S_d0_1_2 h_S_) main_v2 main_c
  let main_v4 : FVec F S128x1024x64 .f32 := Host.absf main_arg1
  let main_cst_0 : FVec F S_ .f32 := constant S_ .f32 0x7F800000#32
  let main_v5 : FVec F S128x1024x64 .f32 := broadcastInDim S128x1024x64 ![] bcast_S_S128x1024x64 main_cst_0
  let main_v6 : IVec S128x1024x64 1 := cmpf .olt main_v4 main_v5
  let main_c_1 : IVec S_ 1 := constantI S_ 1 1#1
  let main_v7 : IVec S_ 1 := (fun x v => Host.reduce IntOp.andi x v reducesTo_S128x1024x64_S_d0_1_2 h_S_) main_v6 main_c_1
  let main_v8 : IVec S_ 1 := andi main_v3 main_v7
  let main_v9 : FVec F S1024x16384 .f32 := Host.absf main_arg3
  let main_cst_2 : FVec F S_ .f32 := constant S_ .f32 0x7F800000#32
  let main_v10 : FVec F S1024x16384 .f32 := broadcastInDim S1024x16384 ![] bcast_S_S1024x16384 main_cst_2
  let main_v11 : IVec S1024x16384 1 := cmpf .olt main_v9 main_v10
  let main_c_3 : IVec S_ 1 := constantI S_ 1 1#1
  let main_v12 : IVec S_ 1 := (fun x v => Host.reduce IntOp.andi x v reducesTo_S1024x16384_S_d0_1 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S128x1024x256 : Shape := ⟨3, ![128, 1024, 256]⟩
abbrev S128x1024x64 : Shape := ⟨3, ![128, 1024, 64]⟩
abbrev S128 : Shape := ⟨1, ![128]⟩
abbrev S1024x16384 : Shape := ⟨2, ![1024, 16384]⟩
abbrev S1024 : Shape := ⟨1, ![1024]⟩
abbrev S128x1 : Shape := ⟨2, ![128, 1]⟩
abbrev S128x256x64 : Shape := ⟨3, ![128, 256, 64]⟩
abbrev S64x128x256 : Shape := ⟨3, ![64, 128, 256]⟩
abbrev S64x128x64 : Shape := ⟨3, ![64, 128, 64]⟩
abbrev S64x1 : Shape := ⟨2, ![64, 1]⟩
abbrev S64x256x64 : Shape := ⟨3, ![64, 256, 64]⟩
abbrev S64x128 : Shape := ⟨2, ![64, 128]⟩
abbrev S64x128x1 : Shape := ⟨3, ![64, 128, 1]⟩
abbrev S128x16384 : Shape := ⟨2, ![128, 16384]⟩
abbrev S1x1024 : Shape := ⟨2, ![1, 1024]⟩
abbrev S128x1024 : Shape := ⟨2, ![128, 1024]⟩
abbrev S128x2048 : Shape := ⟨2, ![128, 2048]⟩
abbrev S512x2048 : Shape := ⟨2, ![512, 2048]⟩
abbrev S1x512 : Shape := ⟨2, ![1, 512]⟩
abbrev S128x512 : Shape := ⟨2, ![128, 512]⟩

abbrev nBuf : Space → Nat
  | .hbm => 10
  | .vmem => 18
  | .smem => 0
  | _ => 0

abbrev bufTy : (tb : Table) → Fin (tcTables nBuf tb) → BufTy
  | .hbm, ⟨0, _⟩ => ⟨S128x1024x256, .f32⟩
  | .hbm, ⟨1, _⟩ => ⟨S128x1024x64, .f32⟩
  | .hbm, ⟨2, _⟩ => ⟨S128, .i32⟩
  | .hbm, ⟨3, _⟩ => ⟨S1024x16384, .f32⟩
  | .hbm, ⟨4, _⟩ => ⟨S1024, .f32⟩
  | .hbm, ⟨5, _⟩ => ⟨S128x1, .i32⟩
  | .hbm, ⟨6, _⟩ => ⟨S128x256x64, .bf16⟩
  | .hbm, ⟨7, _⟩ => ⟨S128x16384, .bf16⟩
  | .hbm, ⟨8, _⟩ => ⟨S1x1024, .f32⟩
  | .hbm, ⟨9, _⟩ => ⟨S128x1024, .f32⟩
  | .local _ .vmem, ⟨0, _⟩ => ⟨S64x128x256, .f32⟩
  | .local _ .vmem, ⟨1, _⟩ => ⟨S64x128x256, .f32⟩
  | .local _ .vmem, ⟨2, _⟩ => ⟨S64x128x64, .f32⟩
  | .local _ .vmem, ⟨3, _⟩ => ⟨S64x128x64, .f32⟩
  | .local _ .vmem, ⟨4, _⟩ => ⟨S64x1, .i32⟩
  | .local _ .vmem, ⟨5, _⟩ => ⟨S64x1, .i32⟩
  | .local _ .vmem, ⟨6, _⟩ => ⟨S64x256x64, .bf16⟩
  | .local _ .vmem, ⟨7, _⟩ => ⟨S64x256x64, .bf16⟩
  | .local _ .vmem, ⟨8, _⟩ => ⟨S64x256x64, .f32⟩
  | .local _ .vmem, ⟨9, _⟩ => ⟨S128x2048, .bf16⟩
  | .local _ .vmem, ⟨10, _⟩ => ⟨S128x2048, .bf16⟩
  | .local _ .vmem, ⟨11, _⟩ => ⟨S512x2048, .f32⟩
  | .local _ .vmem, ⟨12, _⟩ => ⟨S512x2048, .f32⟩
  | .local _ .vmem, ⟨13, _⟩ => ⟨S1x512, .f32⟩
  | .local _ .vmem, ⟨14, _⟩ => ⟨S1x512, .f32⟩
  | .local _ .vmem, ⟨15, _⟩ => ⟨S128x512, .f32⟩
  | .local _ .vmem, ⟨16, _⟩ => ⟨S128x512, .f32⟩
  | .local _ .vmem, ⟨17, _⟩ => ⟨S128x512, .f32⟩
  | _, _ => ⟨S128x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v26 : BitVec 1 := Scalar.cmpi .eq arg1 c7_i32
  let v27 : BitVec 32 := Scalar.extui v26
  let c0_i32_14 : BitVec 32 := 0#32
  let v28 : BitVec 1 := Scalar.cmpi .ne v27 c0_i32_14
  v28

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S64x256x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 8], ![false, false]⟩

def k1_cond2 (i : grid1.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S128x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S128x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S128_S128x1 : S128.ShapeCasts S128x1
  inb_S64x256x64_S64x256x64_0_0_0 : ∀ a, (![0, 0, 0] : Fin 3 → Nat) a + S64x256x64.size a ≤ S64x256x64.size a
  h_S64x256x64 : 0 < S64x256x64.numel
  shapeCasts_S64x256x64_S64x256x64 : S64x256x64.ShapeCasts S64x256x64
  iota_S64x128_d1_w32 : S64x128.Iotas .tc 32 [1]
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x128 : S64x1.Broadcasts S64x128
  natLt_1_32 : 1 < 32
  inb_S64x128x256_S64x128x256_0_0_0 : ∀ a, (![0, 0, 0] : Fin 3 → Nat) a + S64x128x256.size a ≤ S64x128x256.size a
  h_S64x128x256 : 0 < S64x128x256.numel
  shapeCasts_S64x128_S64x128x1 : S64x128.ShapeCasts S64x128x1
  broadcasts_S64x128x1_S64x128x256 : S64x128x1.Broadcasts S64x128x256
  bitsLt_bf16_f32 : FTy.bits .bf16 < FTy.bits .f32
  inb_S64x128x64_S64x128x64_0_0_0 : ∀ a, (![0, 0, 0] : Fin 3 → Nat) a + S64x128x64.size a ≤ S64x128x64.size a
  h_S64x128x64 : 0 < S64x128x64.numel
  packedbf16_S64x256x64_S64x256x64_0_0_0 : (Rect.unit (s := S64x256x64) ![0, 0, 0] S64x256x64.size inb_S64x256x64_S64x256x64_0_0_0).PackedRows (EltTy.packing .bf16)
  shapeCasts_S128x256x64_S128x16384 : S128x256x64.ShapeCasts S128x16384
  shapeCasts_S1024_S1x1024 : S1024.ShapeCasts S1x1024
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S512x2048_S512x2048_0_0 : ∀ a, (![0, 0] : Fin 2 → Nat) a + S512x2048.size a ≤ S512x2048.size a
  h_S512x2048 : 0 < S512x2048.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  dot_S64x128x256_S64x128x64_S64x256x64_1_1_2_2_0_0_wf : DotDims.WF S64x128x256 S64x128x64 S64x256x64 [1] [1] [2] [2] [0] [0]
  dot_S128x2048_S512x2048_S128x512_1_1_0_0_n_n_wf : DotDims.WF S128x2048 S512x2048 S128x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128x256.size a ≤ S128x1024x256.size a
  hwx0_0 : ∀ i : grid0.Coords, EltTy.bits .f32 = 32 ∨ (Rect.block (s := S128x1024x256) S64x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128x64.size a ≤ S128x1024x64.size a
  hwx0_1 : ∀ i : grid0.Coords, EltTy.bits .f32 = 32 ∨ (Rect.block (s := S128x1024x64) S64x128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S128x1.size a
  hwx0_2 : ∀ i : grid0.Coords, EltTy.bits .i32 = 32 ∨ (Rect.block (s := S128x1) S64x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x256x64.size a ≤ S128x256x64.size a
  hwx0_3 : ∀ i : grid0.Coords, EltTy.bits .bf16 = 32 ∨ (Rect.block (s := S128x256x64) S64x256x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x2048.size a ≤ S128x16384.size a
  hwx1_0 : ∀ i : grid1.Coords, EltTy.bits .bf16 = 32 ∨ (Rect.block (s := S128x16384) S128x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S1024x16384.size a
  hwx1_1 : ∀ i : grid1.Coords, EltTy.bits .f32 = 32 ∨ (Rect.block (s := S1024x16384) S512x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x1024.size a
  hwx1_2 : ∀ i : grid1.Coords, EltTy.bits .f32 = 32 ∨ (Rect.block (s := S1x1024) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x512.size a ≤ S128x1024.size a
  hwx1_3 : ∀ i : grid1.Coords, EltTy.bits .f32 = 32 ∨ (Rect.block (s := S128x1024) S128x512.size (cc1_transform_3 i) (hinb1_3 i)).WholeWords (EltTy.packing .f32)

variable [Facts₀]

def dot_S64x128x256_S64x128x64_S64x256x64_1_1_2_2_0_0 : DotDims S64x128x256 S64x128x64 S64x256x64 where
  lhsContracting := [1]
  rhsContracting := [1]
  lhsNonContracting := [2]
  rhsNonContracting := [2]
  lhsBatch := [0]
  rhsBatch := [0]
  wf := dot_S64x128x256_S64x128x64_S64x256x64_1_1_2_2_0_0_wf
def dot_S128x2048_S512x2048_S128x512_1_1_0_0_n_n : DotDims S128x2048 S512x2048 S128x512 where
  lhsContracting := [1]
  rhsContracting := [1]
  lhsNonContracting := [0]
  rhsNonContracting := [0]
  lhsBatch := []
  rhsBatch := []
  wf := dot_S128x2048_S512x2048_S128x512_1_1_0_0_n_n_wf

abbrev win0_0 : Pipeline.Window sig grid0 :=
  Pipeline.Window.ofSpec (Memref.whole main_arg0) S64x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x256x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v2) S128x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S128x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S128x1024x256 : Shape := ⟨3, ![128, 1024, 256]⟩
abbrev S128x1024x64 : Shape := ⟨3, ![128, 1024, 64]⟩
abbrev S128 : Shape := ⟨1, ![128]⟩
abbrev S1024x16384 : Shape := ⟨2, ![1024, 16384]⟩
abbrev S1024 : Shape := ⟨1, ![1024]⟩
abbrev S1x1024 : Shape := ⟨2, ![1, 1024]⟩
abbrev S128x1 : Shape := ⟨2, ![128, 1]⟩
abbrev S128x1024 : Shape := ⟨2, ![128, 1024]⟩
abbrev S128x1024x1 : Shape := ⟨3, ![128, 1024, 1]⟩
abbrev S128x256x64 : Shape := ⟨3, ![128, 256, 64]⟩
abbrev S128x16384 : Shape := ⟨2, ![128, 16384]⟩
abbrev S16384x1024 : Shape := ⟨2, ![16384, 1024]⟩

abbrev nBuf : Space → Nat
  | .hbm => 22
  | .vmem => 0
  | .smem => 0
  | _ => 0

abbrev bufTy : (tb : Table) → Fin (tcTables nBuf tb) → BufTy
  | .hbm, ⟨0, _⟩ => ⟨S128x1024x256, .f32⟩
  | .hbm, ⟨1, _⟩ => ⟨S128x1024x64, .f32⟩
  | .hbm, ⟨2, _⟩ => ⟨S128, .i32⟩
  | .hbm, ⟨3, _⟩ => ⟨S1024x16384, .f32⟩
  | .hbm, ⟨4, _⟩ => ⟨S1024, .f32⟩
  | .hbm, ⟨5, _⟩ => ⟨S1024, .i32⟩
  | .hbm, ⟨6, _⟩ => ⟨S1x1024, .i32⟩
  | .hbm, ⟨7, _⟩ => ⟨S128x1, .i32⟩
  | .hbm, ⟨8, _⟩ => ⟨S128x1024, .i32⟩
  | .hbm, ⟨9, _⟩ => ⟨S128x1024, .i32⟩
  | .hbm, ⟨10, _⟩ => ⟨S128x1024, .i1⟩
  | .hbm, ⟨11, _⟩ => ⟨S128x1024, .f32⟩
  | .hbm, ⟨12, _⟩ => ⟨S128x1024x1, .f32⟩
  | .hbm, ⟨13, _⟩ => ⟨S128x1024x256, .f32⟩
  | .hbm, ⟨14, _⟩ => ⟨S128x1024x256, .f32⟩
  | .hbm, ⟨15, _⟩ => ⟨S128x256x64, .f32⟩
  | .hbm, ⟨16, _⟩ => ⟨S128x16384, .f32⟩
  | .hbm, ⟨17, _⟩ => ⟨S16384x1024, .f32⟩
  | .hbm, ⟨18, _⟩ => ⟨S128x1024, .f32⟩
  | .hbm, ⟨19, _⟩ => ⟨S1x1024, .f32⟩
  | .hbm, ⟨20, _⟩ => ⟨S128x1024, .f32⟩
  | .hbm, ⟨21, _⟩ => ⟨S128x1024, .f32⟩
  | _, _ => ⟨S128x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S128_S128x1_0 : S128.BroadcastsInDim S128x1 (![0] : Fin 1 → Fin S128x1.rank)
  bcast_S1x1024_S128x1024_0_1 : S1x1024.BroadcastsInDim S128x1024 (![0, 1] : Fin 2 → Fin S128x1024.rank)
  bcast_S128x1_S128x1024_0_1 : S128x1.BroadcastsInDim S128x1024 (![0, 1] : Fin 2 → Fin S128x1024.rank)
  bcast_S128x1024_S128x1024x1_0_1 : S128x1024.BroadcastsInDim S128x1024x1 (![0, 1] : Fin 2 → Fin S128x1024x1.rank)
  bcast_S128x1024x1_S128x1024x256_0_1_2 : S128x1024x1.BroadcastsInDim S128x1024x256 (![0, 1, 2] : Fin 3 → Fin S128x1024x256.rank)
  shapeCasts_S128x256x64_S128x16384 : S128x256x64.ShapeCasts S128x16384
  transposes_S1024x16384_S16384x1024_1_0 : S1024x16384.Transposes [1, 0] S16384x1024
  dot_S128x1024x256_S128x1024x64_S128x256x64_1_1_2_2_0_0_wf : DotDims.WF S128x1024x256 S128x1024x64 S128x256x64 [1] [1] [2] [2] [0] [0]
  dot_S128x16384_S16384x1024_S128x1024_1_0_0_1_n_n_wf : DotDims.WF S128x16384 S16384x1024 S128x1024 [1] [0] [0] [1] [] []

variable [Facts₀]

def dot_S128x1024x256_S128x1024x64_S128x256x64_1_1_2_2_0_0 : DotDims S128x1024x256 S128x1024x64 S128x256x64 where
  lhsContracting := [1]
  rhsContracting := [1]
  lhsNonContracting := [2]
  rhsNonContracting := [2]
  lhsBatch := [0]
  rhsBatch := [0]
  wf := dot_S128x1024x256_S128x1024x64_S128x256x64_1_1_2_2_0_0_wf
def dot_S128x16384_S16384x1024_S128x1024_1_0_0_1_n_n : DotDims S128x16384 S16384x1024 S128x1024 where
  lhsContracting := [1]
  rhsContracting := [0]
  lhsNonContracting := [0]
  rhsNonContracting := [1]
  lhsBatch := []
  rhsBatch := []
  wf := dot_S128x16384_S16384x1024_S128x1024_1_0_0_1_n_n_wf

class Facts : Prop extends Facts₀ where

variable [Facts]
-- ==== Proof.K.R0Runs.lean ====
/-
  The first pallas_call (the masked outer products summed over the sequence), what its three control cases share.
  The grid is 2 x 8: point t works on batch half t / 8 and sequence block t % 8. The accumulator scratch is reset at
  sequence block 0, added to at every block, and cast out into the output block at sequence block 7; so the output
  window is idle (nothing stored, nothing written back) at every other point.
-/
import proofs.«122444_j3367254360395_1_alg».proof.Proof.Gen.Kernel.Launch
import proofs.«122444_j3367254360395_1_alg».proof.Proof.Gen.Kernel.Skeleton
import proofs.«122444_j3367254360395_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the buffer contents the call is entered from
variable (V : (c : Dev nD) → (b : Ref sig .tc) → Buf (Elt F) ((c : Thread nD τ).loc b))

/-! ## The windows' blocks -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, the block
    index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's two branch conditions, decided over the grid -/

/-- "This is the first sequence block": the accumulator is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last sequence block": the accumulator is cast out into the output block. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Off the last sequence block nothing is stored into the output window and it is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The memrefs the body is called with -/

/-- One staging buffer of the output window, through which its contents are stated. -/
abbrev VO0_3 : View sig .tc .vmem S64x256x64 .bf16 := (Memref.whole cc0_stg3_0 : Memref sig .tc .vmem S64x256x64 .bf16).view
abbrev ms0_0 (t : Fin cfg0.N) : Memref sig .tc .vmem S64x128x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x128x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x256x64 .bf16 := win0_3.stage (cfg0.slots t 3)
abbrev hs0_3 (t : Fin cfg0.N) : (ms0_3 t).IsWhole := hstage0_3 ((cfg0.slots t 3).cast nbuf0_3)
/-- The accumulator scratch: a whole scoped buffer of the kernel's own. -/
abbrev scM0 : Memref sig .tc .vmem S64x256x64 .f32 := Memref.whole cc0_scratch0
abbrev VS0 : View sig .tc .vmem S64x256x64 .f32 := scM0.view

/-- The other pallas_call's scoped buffers, each whole at some contents: this call never touches them. -/
abbrev others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The scoped buffers no window of this call stages, with the accumulator scratch singled out as a memref owned at some
    contents, beside the generator register at some state. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA; rw [scopedRest0_eq]; simp only [scM0, owns_whole]; try rfl

end Cert.Kernel.Frm

end
-- ==== Proof.K.R0RunA.lean ====
/-
  The first pallas_call's body at a first sequence block: the accumulator is reset, then this block's products are
  added; nothing is stored into the output buffer, which is handed back as found.
-/
import proofs.«122444_j3367254360395_1_alg».proof.Proof.K.R0Runs

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the accumulator scratch, with the proof that the body runs to its end from the
    inputs' buffers at their contents, the output's at anything (handed back untouched) and the scratch at anything. -/
noncomputable def kernelRun0_A (c : Dev nD) (i : grid0.Coords) (arg2 : Memref sig .tc .vmem S64x128x256 .f32) (harg2 : arg2.IsWhole) (arg3 : Memref sig .tc .vmem S64x128x64 .f32) (harg3 : arg3.IsWhole) (arg4 : Memref sig .tc .vmem S64x1 .i32) (harg4 : arg4.IsWhole) (arg5 : Memref sig .tc .vmem S64x256x64 .bf16) (harg5 : arg5.IsWhole) (arg6 : Memref sig .tc .vmem S64x256x64 .f32) (harg6 : arg6.IsWhole) (hc0 : cond0_0 i) (hc1 : ¬cond0_1 i)
    (x0 : Vec F S64x128x256 .f32) (x1 : Vec F S64x128x64 .f32) (x2 : Vec F S64x1 .i32) :
    Σ' (L3 : List (View.Piece (Elt F) S64x256x64 .bf16)), { LS0 : List (View.Piece (Elt F) S64x256x64 .f32) //
      ∀ (xi3 : Vec F S64x256x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__outer_sum_kernel i arg2 harg2 arg3 harg3 arg4 harg4 arg5 harg5 arg6 harg6) K } := by
  refine ⟨[], ?_, fun xi3 E K => ?run⟩
  case run =>
    simp only [cc0__outer_sum_kernel_eq_skeleton]; unfold cc0__outer_sum_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Frm

end
-- ==== Proof.K.R0RunB.lean ====
/-
  The first pallas_call's body at a middle sequence block: this block's products are added to what the block before left
  in the accumulator; nothing is stored into the output buffer, which is handed back as found.
-/
import proofs.«122444_j3367254360395_1_alg».proof.Proof.K.R0RunA

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's store leaves in the accumulator scratch, with the proof that the body runs to its end from the
    inputs' buffers at their contents, the output's at anything (handed back untouched) and the scratch at `xs0`. -/
noncomputable def kernelRun0_B (c : Dev nD) (i : grid0.Coords) (arg2 : Memref sig .tc .vmem S64x128x256 .f32) (harg2 : arg2.IsWhole) (arg3 : Memref sig .tc .vmem S64x128x64 .f32) (harg3 : arg3.IsWhole) (arg4 : Memref sig .tc .vmem S64x1 .i32) (harg4 : arg4.IsWhole) (arg5 : Memref sig .tc .vmem S64x256x64 .bf16) (harg5 : arg5.IsWhole) (arg6 : Memref sig .tc .vmem S64x256x64 .f32) (harg6 : arg6.IsWhole) (hc0 : ¬cond0_0 i) (hc1 : ¬cond0_1 i)
    (x0 : Vec F S64x128x256 .f32) (x1 : Vec F S64x128x64 .f32) (x2 : Vec F S64x1 .i32) (xs0 : Vec F S64x256x64 .f32) :
    Σ' (L3 : List (View.Piece (Elt F) S64x256x64 .bf16)), { LS0 : List (View.Piece (Elt F) S64x256x64 .f32) //
      ∀ (xi3 : Vec F S64x256x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__outer_sum_kernel i arg2 harg2 arg3 harg3 arg4 harg4 arg5 harg5 arg6 harg6) K } := by
  refine ⟨[], ?_, fun xi3 E K => ?run⟩
  case run =>
    simp only [cc0__outer_sum_kernel_eq_skeleton]; unfold cc0__outer_sum_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Frm

end
-- ==== Proof.K.R0RunC.lean ====
/-
  The first pallas_call's body at a last sequence block: this block's products are added to what the block before left
  in the accumulator, and the accumulator is cast out into the output buffer.
-/
import proofs.«122444_j3367254360395_1_alg».proof.Proof.K.R0RunB

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output buffer and in the accumulator scratch, with the proof that the body
    runs to its end from the inputs' buffers at their contents, the output's at anything and the scratch at `xs0`. -/
noncomputable def kernelRun0_C (c : Dev nD) (i : grid0.Coords) (arg2 : Memref sig .tc .vmem S64x128x256 .f32) (harg2 : arg2.IsWhole) (arg3 : Memref sig .tc .vmem S64x128x64 .f32) (harg3 : arg3.IsWhole) (arg4 : Memref sig .tc .vmem S64x1 .i32) (harg4 : arg4.IsWhole) (arg5 : Memref sig .tc .vmem S64x256x64 .bf16) (harg5 : arg5.IsWhole) (arg6 : Memref sig .tc .vmem S64x256x64 .f32) (harg6 : arg6.IsWhole) (hc0 : ¬cond0_0 i) (hc1 : cond0_1 i)
    (x0 : Vec F S64x128x256 .f32) (x1 : Vec F S64x128x64 .f32) (x2 : Vec F S64x1 .i32) (xs0 : Vec F S64x256x64 .f32) :
    Σ' (L3 : List (View.Piece (Elt F) S64x256x64 .bf16)), { LS0 : List (View.Piece (Elt F) S64x256x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__outer_sum_kernel i arg2 harg2 arg3 harg3 arg4 harg4 arg5 harg5 arg6 harg6) K } := by
  refine ⟨?_, ?_, fun E K => ?run⟩
  case run =>
    simp only [cc0__outer_sum_kernel_eq_skeleton]; unfold cc0__outer_sum_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Frm

end
-- ==== Proof.K.R0Body.lean ====
/-
  The first pallas_call, point by point. After the body at point t the accumulator scratch holds what the case of t
  leaves in it — at a first sequence block the reset accumulator plus this block's products, at a later one what the
  point before left plus this block's products — and at a last sequence block the output buffer holds the accumulator
  cast out. The invariant carried from point to point names the scratch's contents, so that the next point finds them.
-/
import proofs.«122444_j3367254360395_1_alg».proof.Proof.K.R0RunC

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- A first or middle block stores nothing into the output buffer: a placeholder nothing consults. -/
def out0_A_3 (c : Dev nD) (i : grid0.Coords) (arg2 : Memref sig .tc .vmem S64x128x256 .f32) (harg2 : arg2.IsWhole) (arg3 : Memref sig .tc .vmem S64x128x64 .f32) (harg3 : arg3.IsWhole) (arg4 : Memref sig .tc .vmem S64x1 .i32) (harg4 : arg4.IsWhole) (arg5 : Memref sig .tc .vmem S64x256x64 .bf16) (harg5 : arg5.IsWhole) (arg6 : Memref sig .tc .vmem S64x256x64 .f32) (harg6 : arg6.IsWhole) (hc0 : cond0_0 i) (hc1 : ¬cond0_1 i)
    (x0 : Vec F S64x128x256 .f32) (x1 : Vec F S64x128x64 .f32) (x2 : Vec F S64x1 .i32) : Vec F S64x256x64 .bf16 :=
  VO0_3.read (Elt F) (VO0_3.writes (Elt F) VO0_3.junk (kernelRun0_A c i arg2 harg2 arg3 harg3 arg4 harg4 arg5 harg5 arg6 harg6 hc0 hc1 x0 x1 x2).1)

theorem scover0_A (c : Dev nD) (i : grid0.Coords) (arg2 : Memref sig .tc .vmem S64x128x256 .f32) (harg2 : arg2.IsWhole) (arg3 : Memref sig .tc .vmem S64x128x64 .f32) (harg3 : arg3.IsWhole) (arg4 : Memref sig .tc .vmem S64x1 .i32) (harg4 : arg4.IsWhole) (arg5 : Memref sig .tc .vmem S64x256x64 .bf16) (harg5 : arg5.IsWhole) (arg6 : Memref sig .tc .vmem S64x256x64 .f32) (harg6 : arg6.IsWhole) (hc0 : cond0_0 i) (hc1 : ¬cond0_1 i)
    (x0 : Vec F S64x128x256 .f32) (x1 : Vec F S64x128x64 .f32) (x2 : Vec F S64x1 .i32) (y : S64x256x64.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S64x256x64.size (by sl_kernel_rfl) y

/-- What a first block leaves in the accumulator: its pieces read back. -/
def sout0_A (c : Dev nD) (i : grid0.Coords) (arg2 : Memref sig .tc .vmem S64x128x256 .f32) (harg2 : arg2.IsWhole) (arg3 : Memref sig .tc .vmem S64x128x64 .f32) (harg3 : arg3.IsWhole) (arg4 : Memref sig .tc .vmem S64x1 .i32) (harg4 : arg4.IsWhole) (arg5 : Memref sig .tc .vmem S64x256x64 .bf16) (harg5 : arg5.IsWhole) (arg6 : Memref sig .tc .vmem S64x256x64 .f32) (harg6 : arg6.IsWhole) (hc0 : cond0_0 i) (hc1 : ¬cond0_1 i)
    (x0 : Vec F S64x128x256 .f32) (x1 : Vec F S64x128x64 .f32) (x2 : Vec F S64x1 .i32) : Vec F S64x256x64 .f32 :=
  VS0.read (Elt F) (VS0.writes (Elt F) VS0.junk (kernelRun0_A c i arg2 harg2 arg3 harg3 arg4 harg4 arg5 harg5 arg6 harg6 hc0 hc1 x0 x1 x2).2.1)

def out0_B_3 (c : Dev nD) (i : grid0.Coords) (arg2 : Memref sig .tc .vmem S64x128x256 .f32) (harg2 : arg2.IsWhole) (arg3 : Memref sig .tc .vmem S64x128x64 .f32) (harg3 : arg3.IsWhole) (arg4 : Memref sig .tc .vmem S64x1 .i32) (harg4 : arg4.IsWhole) (arg5 : Memref sig .tc .vmem S64x256x64 .bf16) (harg5 : arg5.IsWhole) (arg6 : Memref sig .tc .vmem S64x256x64 .f32) (harg6 : arg6.IsWhole) (hc0 : ¬cond0_0 i) (hc1 : ¬cond0_1 i)
    (x0 : Vec F S64x128x256 .f32) (x1 : Vec F S64x128x64 .f32) (x2 : Vec F S64x1 .i32) (xs0 : Vec F S64x256x64 .f32) : Vec F S64x256x64 .bf16 :=
  VO0_3.read (Elt F) (VO0_3.writes (Elt F) VO0_3.junk (kernelRun0_B c i arg2 harg2 arg3 harg3 arg4 harg4 arg5 harg5 arg6 harg6 hc0 hc1 x0 x1 x2 xs0).1)

theorem scover0_B (c : Dev nD) (i : grid0.Coords) (arg2 : Memref sig .tc .vmem S64x128x256 .f32) (harg2 : arg2.IsWhole) (arg3 : Memref sig .tc .vmem S64x128x64 .f32) (harg3 : arg3.IsWhole) (arg4 : Memref sig .tc .vmem S64x1 .i32) (harg4 : arg4.IsWhole) (arg5 : Memref sig .tc .vmem S64x256x64 .bf16) (harg5 : arg5.IsWhole) (arg6 : Memref sig .tc .vmem S64x256x64 .f32) (harg6 : arg6.IsWhole) (hc0 : ¬cond0_0 i) (hc1 : ¬cond0_1 i)
    (x0 : Vec F S64x128x256 .f32) (x1 : Vec F S64x128x64 .f32) (x2 : Vec F S64x1 .i32) (xs0 : Vec F S64x256x64 .f32) (y : S64x256x64.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S64x256x64.size (by sl_kernel_rfl) y

/-- What a middle block leaves in the accumulator. -/
def sout0_B (c : Dev nD) (i : grid0.Coords) (arg2 : Memref sig .tc .vmem S64x128x256 .f32) (harg2 : arg2.IsWhole) (arg3 : Memref sig .tc .vmem S64x128x64 .f32) (harg3 : arg3.IsWhole) (arg4 : Memref sig .tc .vmem S64x1 .i32) (harg4 : arg4.IsWhole) (arg5 : Memref sig .tc .vmem S64x256x64 .bf16) (harg5 : arg5.IsWhole) (arg6 : Memref sig .tc .vmem S64x256x64 .f32) (harg6 : arg6.IsWhole) (hc0 : ¬cond0_0 i) (hc1 : ¬cond0_1 i)
    (x0 : Vec F S64x128x256 .f32) (x1 : Vec F S64x128x64 .f32) (x2 : Vec F S64x1 .i32) (xs0 : Vec F S64x256x64 .f32) : Vec F S64x256x64 .f32 :=
  VS0.read (Elt F) (VS0.writes (Elt F) VS0.junk (kernelRun0_B c i arg2 harg2 arg3 harg3 arg4 harg4 arg5 harg5 arg6 harg6 hc0 hc1 x0 x1 x2 xs0).2.1)

theorem cover0_C_3 (c : Dev nD) (i : grid0.Coords) (arg2 : Memref sig .tc .vmem S64x128x256 .f32) (harg2 : arg2.IsWhole) (arg3 : Memref sig .tc .vmem S64x128x64 .f32) (harg3 : arg3.IsWhole) (arg4 : Memref sig .tc .vmem S64x1 .i32) (harg4 : arg4.IsWhole) (arg5 : Memref sig .tc .vmem S64x256x64 .bf16) (harg5 : arg5.IsWhole) (arg6 : Memref sig .tc .vmem S64x256x64 .f32) (harg6 : arg6.IsWhole) (hc0 : ¬cond0_0 i) (hc1 : cond0_1 i)
    (x0 : Vec F S64x128x256 .f32) (x1 : Vec F S64x128x64 .f32) (x2 : Vec F S64x1 .i32) (xs0 : Vec F S64x256x64 .f32) (y : S64x256x64.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S64x256x64.size (by sl_kernel_rfl) y

/-- What a last block leaves in the output buffer. -/
def out0_C_3 (c : Dev nD) (i : grid0.Coords) (arg2 : Memref sig .tc .vmem S64x128x256 .f32) (harg2 : arg2.IsWhole) (arg3 : Memref sig .tc .vmem S64x128x64 .f32) (harg3 : arg3.IsWhole) (arg4 : Memref sig .tc .vmem S64x1 .i32) (harg4 : arg4.IsWhole) (arg5 : Memref sig .tc .vmem S64x256x64 .bf16) (harg5 : arg5.IsWhole) (arg6 : Memref sig .tc .vmem S64x256x64 .f32) (harg6 : arg6.IsWhole) (hc0 : ¬cond0_0 i) (hc1 : cond0_1 i)
    (x0 : Vec F S64x128x256 .f32) (x1 : Vec F S64x128x64 .f32) (x2 : Vec F S64x1 .i32) (xs0 : Vec F S64x256x64 .f32) : Vec F S64x256x64 .bf16 :=
  VO0_3.read (Elt F) (VO0_3.writes (Elt F) VO0_3.junk (kernelRun0_C c i arg2 harg2 arg3 harg3 arg4 harg4 arg5 harg5 arg6 harg6 hc0 hc1 x0 x1 x2 xs0).1)

theorem scover0_C (c : Dev nD) (i : grid0.Coords) (arg2 : Memref sig .tc .vmem S64x128x256 .f32) (harg2 : arg2.IsWhole) (arg3 : Memref sig .tc .vmem S64x128x64 .f32) (harg3 : arg3.IsWhole) (arg4 : Memref sig .tc .vmem S64x1 .i32) (harg4 : arg4.IsWhole) (arg5 : Memref sig .tc .vmem S64x256x64 .bf16) (harg5 : arg5.IsWhole) (arg6 : Memref sig .tc .vmem S64x256x64 .f32) (harg6 : arg6.IsWhole) (hc0 : ¬cond0_0 i) (hc1 : cond0_1 i)
    (x0 : Vec F S64x128x256 .f32) (x1 : Vec F S64x128x64 .f32) (x2 : Vec F S64x1 .i32) (xs0 : Vec F S64x256x64 .f32) (y : S64x256x64.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S64x256x64.size (by sl_kernel_rfl) y

/-- What a last block leaves in the accumulator. -/
def sout0_C (c : Dev nD) (i : grid0.Coords) (arg2 : Memref sig .tc .vmem S64x128x256 .f32) (harg2 : arg2.IsWhole) (arg3 : Memref sig .tc .vmem S64x128x64 .f32) (harg3 : arg3.IsWhole) (arg4 : Memref sig .tc .vmem S64x1 .i32) (harg4 : arg4.IsWhole) (arg5 : Memref sig .tc .vmem S64x256x64 .bf16) (harg5 : arg5.IsWhole) (arg6 : Memref sig .tc .vmem S64x256x64 .f32) (harg6 : arg6.IsWhole) (hc0 : ¬cond0_0 i) (hc1 : cond0_1 i)
    (x0 : Vec F S64x128x256 .f32) (x1 : Vec F S64x128x64 .f32) (x2 : Vec F S64x1 .i32) (xs0 : Vec F S64x256x64 .f32) : Vec F S64x256x64 .f32 :=
  VS0.read (Elt F) (VS0.writes (Elt F) VS0.junk (kernelRun0_C c i arg2 harg2 arg3 harg3 arg4 harg4 arg5 harg5 arg6 harg6 hc0 hc1 x0 x1 x2 xs0).2.1)

section
variable (V : (c : Dev nD) → (b : Ref sig .tc) → Buf (Elt F) ((c : Thread nD τ).loc b))

/-! ## Point by point -/

/-- The output buffer and the accumulator after the body at position `n`: the case of `n` at the point's input
    blocks, a later block over the accumulator the point before left. -/
def outsAt0 (c : Dev nD) : (n : ℕ) → n < cfg0.N → Vec F S64x256x64 .bf16 × Vec F S64x256x64 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 8 = 0 then
      if h1 : (n + 1) % 8 = 7 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 8 = 7 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (out0_A_3 c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t), sout0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (out0_B_3 c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2, sout0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_3 c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point every scoped buffer at anything; afterwards the accumulator
    at what the point before left in it. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2) ∗ others0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ others0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem live0_0 (c : Dev nD) (t : Fin cfg0.N) : (dat0 V c).leavesExact 0 t = owns (c : Thread nD τ) (ms0_0 t) fullShare (iblk0 V c 0 t) := by
  unfold Dat.leavesExact; rw [liveAt0_0 t, after0_0]
theorem live0_1 (c : Dev nD) (t : Fin cfg0.N) : (dat0 V c).leavesExact 1 t = owns (c : Thread nD τ) (ms0_1 t) fullShare (iblk0 V c 1 t) := by
  unfold Dat.leavesExact; rw [liveAt0_1 t, after0_1]
theorem live0_2 (c : Dev nD) (t : Fin cfg0.N) : (dat0 V c).leavesExact 2 t = owns (c : Thread nD τ) (ms0_2 t) fullShare (iblk0 V c 2 t) := by
  unfold Dat.leavesExact; rw [liveAt0_2 t, after0_2]

set_option maxHeartbeats 4800000 in
/-- The body at any point: the inputs' buffers hold their blocks; the point's position in its row of sequence blocks
    says which case it is in; the invariant hands the body the accumulator at what the point before left (at anything
    before the first point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [live0_0, live0_1, live0_2]
  have hN : t.val < 16 := lt_of_lt_of_eq t.isLt (show cfg0.N = 16 from N_0)
  by_cases h0 : t.val % 8 = 0
  · have h1 : ¬t.val % 8 = 7 := by omega
    rw [Dat.leavesExact_idle (dat0 V c) 3 t (idleAt0_3 t (fun h => h1 ((hcond0_1 t).mp h))) (noFlush0_3 t (fun h => h1 ((hcond0_1 t).mp h)))]
    rw [outsAt0_A V c t h0 h1]
    unfold sout0_A; (try dsimp only)
    by_cases hz : t.val = 0
    · rw [PhiS0_castSucc V c t, PhiS0_zero V c _ _ hz, PhiA0_eq]
      iintro ⟨⟨⟨HS0, Hr⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C_3 sout0_C; (try dsimp only)
      rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_C c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B; (try dsimp only)
      rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_B c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

theorem body_obligation0 (c : Dev nD) : BodyObligation (dat0 (F := F) V c) (defs₀ (F := F)) Variants.none () Set.univ := fun t => by
  rw [bigSep_W0, bigSep_W0]
  exact sound_body0 V c t

/-! ## The invariant at the call's two ends -/

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives every scoped buffer back at some contents: the accumulator's are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 16 := N_0; omega), PhiA0_eq]
  iintro ⟨⟨HS0, Hr⟩, Hg⟩
  isplitl [HS0 Hr]
  · isplitl [HS0]
    · iexists _; iexact HS0
    iexact Hr
  iexact Hg

end

end Cert.Kernel.Frm

end
-- ==== Proof.K.R1Runs.lean ====
/-
  The second pallas_call (the flattened tensor against the transposed weights, plus the bias), what its three control
  cases share. The grid is 2 x 8: point t works on output-column half t / 8 and contraction block t % 8. The accumulator
  scratch is reset at contraction block 0, added to at every block, and goes out with the bias added at contraction
  block 7; so the output window is idle (nothing stored, nothing written back) at every other point.
-/
import proofs.«122444_j3367254360395_1_alg».proof.Proof.Gen.Kernel.Launch
import proofs.«122444_j3367254360395_1_alg».proof.Proof.Gen.Kernel.Skeleton
import proofs.«122444_j3367254360395_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the buffer contents the call is entered from
variable (V : (c : Dev nD) → (b : Ref sig .tc) → Buf (Elt F) ((c : Thread nD τ).loc b))

/-! ## The windows' blocks -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the block
    index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's two branch conditions, decided over the grid -/

/-- "This is the first block of the row": the accumulator is reset. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last block of the row": the accumulator goes out into the output block. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last block of a row nothing is stored into the output window and it is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

/-- One staging buffer of the output window, through which its contents are stated. -/
abbrev VO1_3 : View sig .tc .vmem S128x512 .f32 := (Memref.whole cc1_stg3_0 : Memref sig .tc .vmem S128x512 .f32).view
abbrev ms1_0 (t : Fin cfg1.N) : Memref sig .tc .vmem S128x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x512 .f32 := win1_3.stage (cfg1.slots t 3)
abbrev hs1_3 (t : Fin cfg1.N) : (ms1_3 t).IsWhole := hstage1_3 ((cfg1.slots t 3).cast nbuf1_3)
/-- The accumulator scratch: a whole scoped buffer of the kernel's own. -/
abbrev scM1 : Memref sig .tc .vmem S128x512 .f32 := Memref.whole cc1_scratch0
abbrev VS1 : View sig .tc .vmem S128x512 .f32 := scM1.view

/-- The scoped buffers no window of this call stages — the other pallas_call's, which this call never touches, and the
    accumulator scratch, singled out as a memref owned at some contents — beside the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ d, owns (c : Thread nD τ) scM1 fullShare d)) ∗ (∃ r, prngReg c r)) := by
  unfold Pipeline.ΦA; rw [scopedRest1_eq]; simp only [scM1, owns_whole]; try rfl

end Cert.Kernel.Frm

end
-- ==== Proof.K.R1RunA.lean ====
/-
  The second pallas_call's body at a first contraction block: the accumulator is reset, then this block's products are
  added; nothing is stored into the output buffer, which is handed back as found.
-/
import proofs.«122444_j3367254360395_1_alg».proof.Proof.K.R1Runs

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the accumulator scratch, with the proof that the body runs to its end from the
    inputs' buffers at their contents, the output's at anything (handed back untouched) and the scratch at anything. -/
noncomputable def kernelRun1_A (c : Dev nD) (i : grid1.Coords) (arg2 : Memref sig .tc .vmem S128x2048 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : cond1_0 i) (hc1 : ¬cond1_1 i)
    (x0 : Vec F S128x2048 .bf16) (x1 : Vec F S512x2048 .f32) (x2 : Vec F S1x512 .f32) :
    Σ' (L3 : List (View.Piece (Elt F) S128x512 .f32)), { LS0 : List (View.Piece (Elt F) S128x512 .f32) //
      ∀ (xi3 : Vec F S128x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__mm_kernel i arg2 harg2 arg3 harg3 arg4 harg4 arg5 harg5 arg6 harg6) K } := by
  refine ⟨[], ?_, fun xi3 E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Frm

end
-- ==== Proof.K.R1RunB.lean ====
/-
  The second pallas_call's body at a middle contraction block: this block's products are added to what the block before
  left in the accumulator; nothing is stored into the output buffer, which is handed back as found.
-/
import proofs.«122444_j3367254360395_1_alg».proof.Proof.K.R1RunA

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's store leaves in the accumulator scratch, with the proof that the body runs to its end from the
    inputs' buffers at their contents, the output's at anything (handed back untouched) and the scratch at `xs0`. -/
noncomputable def kernelRun1_B (c : Dev nD) (i : grid1.Coords) (arg2 : Memref sig .tc .vmem S128x2048 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : ¬cond1_0 i) (hc1 : ¬cond1_1 i)
    (x0 : Vec F S128x2048 .bf16) (x1 : Vec F S512x2048 .f32) (x2 : Vec F S1x512 .f32) (xs0 : Vec F S128x512 .f32) :
    Σ' (L3 : List (View.Piece (Elt F) S128x512 .f32)), { LS0 : List (View.Piece (Elt F) S128x512 .f32) //
      ∀ (xi3 : Vec F S128x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__mm_kernel i arg2 harg2 arg3 harg3 arg4 harg4 arg5 harg5 arg6 harg6) K } := by
  refine ⟨[], ?_, fun xi3 E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Frm

end
-- ==== Proof.K.R1RunC.lean ====
/-
  The second pallas_call's body at a last contraction block: this block's products are added to what the block before left
  in the accumulator, and the accumulator plus the bias row goes out into the output buffer.
-/
import proofs.«122444_j3367254360395_1_alg».proof.Proof.K.R1RunB

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output buffer and in the accumulator scratch, with the proof that the body
    runs to its end from the inputs' buffers at their contents, the output's at anything and the scratch at `xs0`. -/
noncomputable def kernelRun1_C (c : Dev nD) (i : grid1.Coords) (arg2 : Memref sig .tc .vmem S128x2048 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : ¬cond1_0 i) (hc1 : cond1_1 i)
    (x0 : Vec F S128x2048 .bf16) (x1 : Vec F S512x2048 .f32) (x2 : Vec F S1x512 .f32) (xs0 : Vec F S128x512 .f32) :
    Σ' (L3 : List (View.Piece (Elt F) S128x512 .f32)), { LS0 : List (View.Piece (Elt F) S128x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__mm_kernel i arg2 harg2 arg3 harg3 arg4 harg4 arg5 harg5 arg6 harg6) K } := by
  refine ⟨?_, ?_, fun E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Frm

end
-- ==== Proof.K.R1Body.lean ====
/-
  The second pallas_call, point by point. After the body at point t the accumulator scratch holds what the case of t
  leaves in it — at a first contraction block the reset accumulator plus this block's products, at a later one what the
  point before left plus this block's products — and at a last contraction block the output buffer holds the accumulator
  plus the bias row. The invariant carried from point to point names the scratch's contents, so that the next point
  finds them.
-/
import proofs.«122444_j3367254360395_1_alg».proof.Proof.K.R1RunC

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- A first or middle block stores nothing into the output buffer: a placeholder nothing consults. -/
def out1_A_3 (c : Dev nD) (i : grid1.Coords) (arg2 : Memref sig .tc .vmem S128x2048 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : cond1_0 i) (hc1 : ¬cond1_1 i)
    (x0 : Vec F S128x2048 .bf16) (x1 : Vec F S512x2048 .f32) (x2 : Vec F S1x512 .f32) : Vec F S128x512 .f32 :=
  VO1_3.read (Elt F) (VO1_3.writes (Elt F) VO1_3.junk (kernelRun1_A c i arg2 harg2 arg3 harg3 arg4 harg4 arg5 harg5 arg6 harg6 hc0 hc1 x0 x1 x2).1)

theorem scover1_A (c : Dev nD) (i : grid1.Coords) (arg2 : Memref sig .tc .vmem S128x2048 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : cond1_0 i) (hc1 : ¬cond1_1 i)
    (x0 : Vec F S128x2048 .bf16) (x1 : Vec F S512x2048 .f32) (x2 : Vec F S1x512 .f32) (y : S128x512.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S128x512.size (by sl_kernel_rfl) y

/-- What a first block leaves in the accumulator: its pieces read back. -/
def sout1_A (c : Dev nD) (i : grid1.Coords) (arg2 : Memref sig .tc .vmem S128x2048 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : cond1_0 i) (hc1 : ¬cond1_1 i)
    (x0 : Vec F S128x2048 .bf16) (x1 : Vec F S512x2048 .f32) (x2 : Vec F S1x512 .f32) : Vec F S128x512 .f32 :=
  VS1.read (Elt F) (VS1.writes (Elt F) VS1.junk (kernelRun1_A c i arg2 harg2 arg3 harg3 arg4 harg4 arg5 harg5 arg6 harg6 hc0 hc1 x0 x1 x2).2.1)

def out1_B_3 (c : Dev nD) (i : grid1.Coords) (arg2 : Memref sig .tc .vmem S128x2048 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : ¬cond1_0 i) (hc1 : ¬cond1_1 i)
    (x0 : Vec F S128x2048 .bf16) (x1 : Vec F S512x2048 .f32) (x2 : Vec F S1x512 .f32) (xs0 : Vec F S128x512 .f32) : Vec F S128x512 .f32 :=
  VO1_3.read (Elt F) (VO1_3.writes (Elt F) VO1_3.junk (kernelRun1_B c i arg2 harg2 arg3 harg3 arg4 harg4 arg5 harg5 arg6 harg6 hc0 hc1 x0 x1 x2 xs0).1)

theorem scover1_B (c : Dev nD) (i : grid1.Coords) (arg2 : Memref sig .tc .vmem S128x2048 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : ¬cond1_0 i) (hc1 : ¬cond1_1 i)
    (x0 : Vec F S128x2048 .bf16) (x1 : Vec F S512x2048 .f32) (x2 : Vec F S1x512 .f32) (xs0 : Vec F S128x512 .f32) (y : S128x512.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S128x512.size (by sl_kernel_rfl) y

/-- What a middle block leaves in the accumulator. -/
def sout1_B (c : Dev nD) (i : grid1.Coords) (arg2 : Memref sig .tc .vmem S128x2048 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : ¬cond1_0 i) (hc1 : ¬cond1_1 i)
    (x0 : Vec F S128x2048 .bf16) (x1 : Vec F S512x2048 .f32) (x2 : Vec F S1x512 .f32) (xs0 : Vec F S128x512 .f32) : Vec F S128x512 .f32 :=
  VS1.read (Elt F) (VS1.writes (Elt F) VS1.junk (kernelRun1_B c i arg2 harg2 arg3 harg3 arg4 harg4 arg5 harg5 arg6 harg6 hc0 hc1 x0 x1 x2 xs0).2.1)

theorem cover1_C_3 (c : Dev nD) (i : grid1.Coords) (arg2 : Memref sig .tc .vmem S128x2048 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : ¬cond1_0 i) (hc1 : cond1_1 i)
    (x0 : Vec F S128x2048 .bf16) (x1 : Vec F S512x2048 .f32) (x2 : Vec F S1x512 .f32) (xs0 : Vec F S128x512 .f32) (y : S128x512.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S128x512.size (by sl_kernel_rfl) y

/-- What a last block leaves in the output buffer. -/
def out1_C_3 (c : Dev nD) (i : grid1.Coords) (arg2 : Memref sig .tc .vmem S128x2048 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : ¬cond1_0 i) (hc1 : cond1_1 i)
    (x0 : Vec F S128x2048 .bf16) (x1 : Vec F S512x2048 .f32) (x2 : Vec F S1x512 .f32) (xs0 : Vec F S128x512 .f32) : Vec F S128x512 .f32 :=
  VO1_3.read (Elt F) (VO1_3.writes (Elt F) VO1_3.junk (kernelRun1_C c i arg2 harg2 arg3 harg3 arg4 harg4 arg5 harg5 arg6 harg6 hc0 hc1 x0 x1 x2 xs0).1)

theorem scover1_C (c : Dev nD) (i : grid1.Coords) (arg2 : Memref sig .tc .vmem S128x2048 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : ¬cond1_0 i) (hc1 : cond1_1 i)
    (x0 : Vec F S128x2048 .bf16) (x1 : Vec F S512x2048 .f32) (x2 : Vec F S1x512 .f32) (xs0 : Vec F S128x512 .f32) (y : S128x512.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S128x512.size (by sl_kernel_rfl) y

/-- What a last block leaves in the accumulator. -/
def sout1_C (c : Dev nD) (i : grid1.Coords) (arg2 : Memref sig .tc .vmem S128x2048 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : ¬cond1_0 i) (hc1 : cond1_1 i)
    (x0 : Vec F S128x2048 .bf16) (x1 : Vec F S512x2048 .f32) (x2 : Vec F S1x512 .f32) (xs0 : Vec F S128x512 .f32) : Vec F S128x512 .f32 :=
  VS1.read (Elt F) (VS1.writes (Elt F) VS1.junk (kernelRun1_C c i arg2 harg2 arg3 harg3 arg4 harg4 arg5 harg5 arg6 harg6 hc0 hc1 x0 x1 x2 xs0).2.1)

section
variable (V : (c : Dev nD) → (b : Ref sig .tc) → Buf (Elt F) ((c : Thread nD τ).loc b))

/-! ## Point by point -/

/-- The output buffer and the accumulator after the body at position `n`: the case of `n` at the point's input
    blocks, a later block over the accumulator the point before left. -/
def outsAt1 (c : Dev nD) : (n : ℕ) → n < cfg1.N → Vec F S128x512 .f32 × Vec F S128x512 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t), sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point every scoped buffer at anything; afterwards the accumulator
    at what the point before left in it. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ owns (c : Thread nD τ) scM1 fullShare ((outsAt1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ owns (c : Thread nD τ) scM1 fullShare ((outsAt1 V c (n - 1) (by omega)).2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem live1_0 (c : Dev nD) (t : Fin cfg1.N) : (dat1 V c).leavesExact 0 t = owns (c : Thread nD τ) (ms1_0 t) fullShare (iblk1 V c 0 t) := by
  unfold Dat.leavesExact; rw [liveAt1_0 t, after1_0]
theorem live1_1 (c : Dev nD) (t : Fin cfg1.N) : (dat1 V c).leavesExact 1 t = owns (c : Thread nD τ) (ms1_1 t) fullShare (iblk1 V c 1 t) := by
  unfold Dat.leavesExact; rw [liveAt1_1 t, after1_1]
theorem live1_2 (c : Dev nD) (t : Fin cfg1.N) : (dat1 V c).leavesExact 2 t = owns (c : Thread nD τ) (ms1_2 t) fullShare (iblk1 V c 2 t) := by
  unfold Dat.leavesExact; rw [liveAt1_2 t, after1_2]

set_option maxHeartbeats 4800000 in
/-- The body at any point: the inputs' buffers hold their blocks; the point's position in its row of blocks says which
    case it is in; the invariant hands the body the accumulator at what the point before left (at anything before the
    first point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [live1_0, live1_1, live1_2]
  have hN : t.val < 16 := lt_of_lt_of_eq t.isLt (show cfg1.N = 16 from N_1)
  by_cases h0 : t.val % 8 = 0
  · have h1 : ¬t.val % 8 = 7 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A; (try dsimp only)
    by_cases hz : t.val = 0
    · rw [PhiS1_castSucc V c t, PhiS1_zero V c _ _ hz, PhiA1_eq]
      iintro ⟨⟨⟨Hb0, Hb1, Hb2, Hb3, Hb4, Hb5, Hb6, Hb7, Hb8, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Hb0 Hb1 Hb2 Hb3 Hb4 Hb5 Hb6 Hb7 Hb8 HS0 Hg]
      · isplitl [Hb0 Hb1 Hb2 Hb3 Hb4 Hb5 Hb6 Hb7 Hb8 HS0]
        · isplitl [Hb0]; · iexact Hb0
          isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          isplitl [Hb8]; · iexact Hb8
          unfold owns; iexists _; isplitr
          swap; · iexact HS0
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨Hb0, Hb1, Hb2, Hb3, Hb4, Hb5, Hb6, Hb7, Hb8, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [Hb0 Hb1 Hb2 Hb3 Hb4 Hb5 Hb6 Hb7 Hb8 HS0 Hg]
      · isplitl [Hb0 Hb1 Hb2 Hb3 Hb4 Hb5 Hb6 Hb7 Hb8 HS0]
        · isplitl [Hb0]; · iexact Hb0
          isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          isplitl [Hb8]; · iexact Hb8
          unfold owns; iexists _; isplitr
          swap; · iexact HS0
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C; (try dsimp only)
      rw [PhiS1_castSucc V c t, PhiS1_pos V c _ _ hz]
      iintro ⟨⟨⟨Hb0, Hb1, Hb2, Hb3, Hb4, Hb5, Hb6, Hb7, Hb8, HS0⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [Hb0 Hb1 Hb2 Hb3 Hb4 Hb5 Hb6 Hb7 Hb8 HS0 Hg]
      · isplitl [Hb0 Hb1 Hb2 Hb3 Hb4 Hb5 Hb6 Hb7 Hb8 HS0]
        · isplitl [Hb0]; · iexact Hb0
          isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          isplitl [Hb8]; · iexact Hb8
          unfold owns; iexists _; isplitr
          swap; · iexact HS0
          ipureintro; exact View.read_writes_of_cover _ _ _ _ _ (scover1_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      rw [PhiS1_castSucc V c t, PhiS1_pos V c _ _ hz]
      iintro ⟨⟨⟨Hb0, Hb1, Hb2, Hb3, Hb4, Hb5, Hb6, Hb7, Hb8, HS0⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Hb0 Hb1 Hb2 Hb3 Hb4 Hb5 Hb6 Hb7 Hb8 HS0 Hg]
      · isplitl [Hb0 Hb1 Hb2 Hb3 Hb4 Hb5 Hb6 Hb7 Hb8 HS0]
        · isplitl [Hb0]; · iexact Hb0
          isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          isplitl [Hb8]; · iexact Hb8
          unfold owns; iexists _; isplitr
          swap; · iexact HS0
          ipureintro; exact View.read_writes_of_cover _ _ _ _ _ (scover1_B c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-! ## The invariant at the call's two ends -/

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives every scoped buffer back at some contents: the accumulator's are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 16 := N_1; omega), PhiA1_eq]
  iintro ⟨⟨Hb0, Hb1, Hb2, Hb3, Hb4, Hb5, Hb6, Hb7, Hb8, HS0⟩, Hg⟩
  isplitl [Hb0 Hb1 Hb2 Hb3 Hb4 Hb5 Hb6 Hb7 Hb8 HS0]
  · isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [Hb8]; · iexact Hb8
    iexists _; iexact HS0
  iexact Hg

end

end Cert.Kernel.Frm

end
-- ==== Proof.K.Run.lean ====
/-
  The whole program, from the launch to the return: the lengths reshaped to a column, the first pallas_call, its result
  flattened and the bias reshaped to a row, the second pallas_call. The buffer contents at each boundary are a fold from
  the launch memory: a host stretch applies its operations, a pallas_call leaves its arrays at what its write-backs
  leave and every other buffer alone. Every weakly fair execution terminates, and every final memory holds each unscoped
  buffer at the last boundary's contents: the arguments as launched, the result at what the second call's write-backs
  leave.
-/
import proofs.«122444_j3367254360395_1_alg».proof.Proof.K.R0Body
import proofs.«122444_j3367254360395_1_alg».proof.Proof.K.R1Body
import proofs.«122444_j3367254360395_1_alg».proof.Proof.Gen.Kernel.Regions

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the lengths are reshaped to a column (the first call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first call's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the first call's result is flattened and the bias reshaped to a row (the second call's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second call's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## A host stretch changes only what it writes -/

theorem W1_of (c : Dev nD) (r : Ref sig .tc) (h : r ∉ (hostOps0_W : List (Ref sig .tc))) :
    W1 m ρ c (Proc.devRef .tc r) = W0 m ρ c (Proc.devRef .tc r) :=
  StableHlo.after_of_writes_sub hostOps0 _ hostOps0_writes h
theorem W3_of (c : Dev nD) (r : Ref sig .tc) (h : r ∉ (hostOps1_W : List (Ref sig .tc))) :
    W3 m ρ c (Proc.devRef .tc r) = W2 m ρ c (Proc.devRef .tc r) :=
  StableHlo.after_of_writes_sub hostOps1 _ hostOps1_writes h

/-! ## The arguments end as launched, and the result is the second call's output array -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := W1_of m ρ c main_arg1 (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := (W4_arr m ρ c 1).trans (((dat1 (V3 m ρ) c).arrAt_in 1 rfl _).trans (A_eq1 (V3 m ρ) c 1))
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

theorem W4_main_v4 (c : Dev nD) : W4 m ρ c (Proc.devRef .tc main_v4) = (dat1 (V3 m ρ) c).arrAt 3 cfg1.N :=
  W4_arr m ρ c 3

/-! ## The proof data family and the thread state -/

abbrev adm : (p : Fin 2) → (pcfgs (F := F) p).Adm := fun p => (cfgs p).toPCfg_adm
/-- Every call's proof data, each at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The two calls as segments -/

set_option backward.isDefEq.respectTransparency.types false in
/-- Pallas_call 0 over the thread state: entered from every unscoped buffer at `W1`, left at `W2`. Its arrays are
    split out of the unscoped buffers and put back at what the pipeline leaves; the generator register goes into the
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 0).pre c (fun _ => fullShare) (adm (F := F) 0).1 ∗ Pipeline.scopedRest spec0 c) : sProp 𝕄)
        ⊢ Pipeline.ΦA spec0 c := by
      unfold Pipeline.ΦA
      iintro ⟨Hp, -, Hr⟩
      isplitl [Hr]; · iexact Hr
      iexact Hp
    exact h.trans (hin0 (V1 m ρ) c)
  hout c := by
    rw [Pipeline.ownSems0_none]
    have h : (Pipeline.ΦA spec0 c : sProp 𝕄) ⊢ iprop((∃ r, prngReg c r) ∗ emp ∗ Pipeline.scopedRest spec0 c) := by
      unfold Pipeline.ΦA
      iintro ⟨Hr, Hp⟩
      isplitl [Hp]; · iexact Hp
      isplitr; · iempintro
      iexact Hr
    exact (hout0 (V1 m ρ) c).trans h
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 1 over the thread state: entered from every unscoped buffer at `W3`, left at `W4`. Its arrays are
    split out of the unscoped buffers and put back at what the pipeline leaves; the generator register goes into the
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm (F := F) 1).1 ∗ Pipeline.scopedRest spec1 c) : sProp 𝕄)
        ⊢ Pipeline.ΦA spec1 c := by
      unfold Pipeline.ΦA
      iintro ⟨Hp, -, Hr⟩
      isplitl [Hr]; · iexact Hr
      iexact Hp
    exact h.trans (hin1 (V3 m ρ) c)
  hout c := by
    rw [Pipeline.ownSems0_none]
    have h : (Pipeline.ΦA spec1 c : sProp 𝕄) ⊢ iprop((∃ r, prngReg c r) ∗ emp ∗ Pipeline.scopedRest spec1 c) := by
      unfold Pipeline.ΦA
      iintro ⟨Hr, Hp⟩
      isplitl [Hp]; · iexact Hp
      isplitr; · iempintro
      iexact Hr
    exact (hout1 (V3 m ρ) c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and every
    final memory holds each unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run m ρ)

end Cert.Kernel.Frm

end
-- ==== Proof.KI.R0Runs.lean ====
/-
  The first pallas_call (the masked outer products summed over the sequence), what its three control cases share.
  The grid is 2 x 8: point t works on batch half t / 8 and sequence block t % 8. The accumulator scratch is reset at
  sequence block 0, added to at every block, and cast out into the output block at sequence block 7; so the output
  window is idle (nothing stored, nothing written back) at every other point.
-/
import proofs.«122444_j3367254360395_1_alg».proof.Proof.Gen.KernelIdeal.Launch
import proofs.«122444_j3367254360395_1_alg».proof.Proof.Gen.KernelIdeal.Skeleton
import proofs.«122444_j3367254360395_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the buffer contents the call is entered from
variable (V : (c : Dev nD) → (b : Ref sig .tc) → Buf (Elt F) ((c : Thread nD τ).loc b))

/-! ## The windows' blocks -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, the block
    index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's two branch conditions, decided over the grid -/

/-- "This is the first sequence block": the accumulator is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last sequence block": the accumulator is cast out into the output block. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Off the last sequence block nothing is stored into the output window and it is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The memrefs the body is called with -/

/-- One staging buffer of the output window, through which its contents are stated. -/
abbrev VO0_3 : View sig .tc .vmem S64x256x64 .bf16 := (Memref.whole cc0_stg3_0 : Memref sig .tc .vmem S64x256x64 .bf16).view
abbrev ms0_0 (t : Fin cfg0.N) : Memref sig .tc .vmem S64x128x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x128x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x256x64 .bf16 := win0_3.stage (cfg0.slots t 3)
abbrev hs0_3 (t : Fin cfg0.N) : (ms0_3 t).IsWhole := hstage0_3 ((cfg0.slots t 3).cast nbuf0_3)
/-- The accumulator scratch: a whole scoped buffer of the kernel's own. -/
abbrev scM0 : Memref sig .tc .vmem S64x256x64 .f32 := Memref.whole cc0_scratch0
abbrev VS0 : View sig .tc .vmem S64x256x64 .f32 := scM0.view

/-- The other pallas_call's scoped buffers, each whole at some contents: this call never touches them. -/
abbrev others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The scoped buffers no window of this call stages, with the accumulator scratch singled out as a memref owned at some
    contents, beside the generator register at some state. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA; rw [scopedRest0_eq]; simp only [scM0, owns_whole]; try rfl

end Cert.KernelIdeal.Frm

end
-- ==== Proof.KI.R0RunA.lean ====
/-
  The first pallas_call's body at a first sequence block: the accumulator is reset, then this block's products are
  added; nothing is stored into the output buffer, which is handed back as found.
-/
import proofs.«122444_j3367254360395_1_alg».proof.Proof.KI.R0Runs

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the accumulator scratch, with the proof that the body runs to its end from the
    inputs' buffers at their contents, the output's at anything (handed back untouched) and the scratch at anything. -/
noncomputable def kernelRun0_A (c : Dev nD) (i : grid0.Coords) (arg2 : Memref sig .tc .vmem S64x128x256 .f32) (harg2 : arg2.IsWhole) (arg3 : Memref sig .tc .vmem S64x128x64 .f32) (harg3 : arg3.IsWhole) (arg4 : Memref sig .tc .vmem S64x1 .i32) (harg4 : arg4.IsWhole) (arg5 : Memref sig .tc .vmem S64x256x64 .bf16) (harg5 : arg5.IsWhole) (arg6 : Memref sig .tc .vmem S64x256x64 .f32) (harg6 : arg6.IsWhole) (hc0 : cond0_0 i) (hc1 : ¬cond0_1 i)
    (x0 : Vec F S64x128x256 .f32) (x1 : Vec F S64x128x64 .f32) (x2 : Vec F S64x1 .i32) :
    Σ' (L3 : List (View.Piece (Elt F) S64x256x64 .bf16)), { LS0 : List (View.Piece (Elt F) S64x256x64 .f32) //
      ∀ (xi3 : Vec F S64x256x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__outer_sum_kernel i arg2 harg2 arg3 harg3 arg4 harg4 arg5 harg5 arg6 harg6) K } := by
  refine ⟨[], ?_, fun xi3 E K => ?run⟩
  case run =>
    simp only [cc0__outer_sum_kernel_eq_skeleton]; unfold cc0__outer_sum_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Frm

end
-- ==== Proof.KI.R0RunB.lean ====
/-
  The first pallas_call's body at a middle sequence block: this block's products are added to what the block before left
  in the accumulator; nothing is stored into the output buffer, which is handed back as found.
-/
import proofs.«122444_j3367254360395_1_alg».proof.Proof.KI.R0RunA

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's store leaves in the accumulator scratch, with the proof that the body runs to its end from the
    inputs' buffers at their contents, the output's at anything (handed back untouched) and the scratch at `xs0`. -/
noncomputable def kernelRun0_B (c : Dev nD) (i : grid0.Coords) (arg2 : Memref sig .tc .vmem S64x128x256 .f32) (harg2 : arg2.IsWhole) (arg3 : Memref sig .tc .vmem S64x128x64 .f32) (harg3 : arg3.IsWhole) (arg4 : Memref sig .tc .vmem S64x1 .i32) (harg4 : arg4.IsWhole) (arg5 : Memref sig .tc .vmem S64x256x64 .bf16) (harg5 : arg5.IsWhole) (arg6 : Memref sig .tc .vmem S64x256x64 .f32) (harg6 : arg6.IsWhole) (hc0 : ¬cond0_0 i) (hc1 : ¬cond0_1 i)
    (x0 : Vec F S64x128x256 .f32) (x1 : Vec F S64x128x64 .f32) (x2 : Vec F S64x1 .i32) (xs0 : Vec F S64x256x64 .f32) :
    Σ' (L3 : List (View.Piece (Elt F) S64x256x64 .bf16)), { LS0 : List (View.Piece (Elt F) S64x256x64 .f32) //
      ∀ (xi3 : Vec F S64x256x64 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__outer_sum_kernel i arg2 harg2 arg3 harg3 arg4 harg4 arg5 harg5 arg6 harg6) K } := by
  refine ⟨[], ?_, fun xi3 E K => ?run⟩
  case run =>
    simp only [cc0__outer_sum_kernel_eq_skeleton]; unfold cc0__outer_sum_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Frm

end
-- ==== Proof.KI.R0RunC.lean ====
/-
  The first pallas_call's body at a last sequence block: this block's products are added to what the block before left
  in the accumulator, and the accumulator is cast out into the output buffer.
-/
import proofs.«122444_j3367254360395_1_alg».proof.Proof.KI.R0RunB

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output buffer and in the accumulator scratch, with the proof that the body
    runs to its end from the inputs' buffers at their contents, the output's at anything and the scratch at `xs0`. -/
noncomputable def kernelRun0_C (c : Dev nD) (i : grid0.Coords) (arg2 : Memref sig .tc .vmem S64x128x256 .f32) (harg2 : arg2.IsWhole) (arg3 : Memref sig .tc .vmem S64x128x64 .f32) (harg3 : arg3.IsWhole) (arg4 : Memref sig .tc .vmem S64x1 .i32) (harg4 : arg4.IsWhole) (arg5 : Memref sig .tc .vmem S64x256x64 .bf16) (harg5 : arg5.IsWhole) (arg6 : Memref sig .tc .vmem S64x256x64 .f32) (harg6 : arg6.IsWhole) (hc0 : ¬cond0_0 i) (hc1 : cond0_1 i)
    (x0 : Vec F S64x128x256 .f32) (x1 : Vec F S64x128x64 .f32) (x2 : Vec F S64x1 .i32) (xs0 : Vec F S64x256x64 .f32) :
    Σ' (L3 : List (View.Piece (Elt F) S64x256x64 .bf16)), { LS0 : List (View.Piece (Elt F) S64x256x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__outer_sum_kernel i arg2 harg2 arg3 harg3 arg4 harg4 arg5 harg5 arg6 harg6) K } := by
  refine ⟨?_, ?_, fun E K => ?run⟩
  case run =>
    simp only [cc0__outer_sum_kernel_eq_skeleton]; unfold cc0__outer_sum_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Frm

end
-- ==== Proof.KI.R0Body.lean ====
/-
  The first pallas_call, point by point. After the body at point t the accumulator scratch holds what the case of t
  leaves in it — at a first sequence block the reset accumulator plus this block's products, at a later one what the
  point before left plus this block's products — and at a last sequence block the output buffer holds the accumulator
  cast out. The invariant carried from point to point names the scratch's contents, so that the next point finds them.
-/
import proofs.«122444_j3367254360395_1_alg».proof.Proof.KI.R0RunC

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- A first or middle block stores nothing into the output buffer: a placeholder nothing consults. -/
def out0_A_3 (c : Dev nD) (i : grid0.Coords) (arg2 : Memref sig .tc .vmem S64x128x256 .f32) (harg2 : arg2.IsWhole) (arg3 : Memref sig .tc .vmem S64x128x64 .f32) (harg3 : arg3.IsWhole) (arg4 : Memref sig .tc .vmem S64x1 .i32) (harg4 : arg4.IsWhole) (arg5 : Memref sig .tc .vmem S64x256x64 .bf16) (harg5 : arg5.IsWhole) (arg6 : Memref sig .tc .vmem S64x256x64 .f32) (harg6 : arg6.IsWhole) (hc0 : cond0_0 i) (hc1 : ¬cond0_1 i)
    (x0 : Vec F S64x128x256 .f32) (x1 : Vec F S64x128x64 .f32) (x2 : Vec F S64x1 .i32) : Vec F S64x256x64 .bf16 :=
  VO0_3.read (Elt F) (VO0_3.writes (Elt F) VO0_3.junk (kernelRun0_A c i arg2 harg2 arg3 harg3 arg4 harg4 arg5 harg5 arg6 harg6 hc0 hc1 x0 x1 x2).1)

theorem scover0_A (c : Dev nD) (i : grid0.Coords) (arg2 : Memref sig .tc .vmem S64x128x256 .f32) (harg2 : arg2.IsWhole) (arg3 : Memref sig .tc .vmem S64x128x64 .f32) (harg3 : arg3.IsWhole) (arg4 : Memref sig .tc .vmem S64x1 .i32) (harg4 : arg4.IsWhole) (arg5 : Memref sig .tc .vmem S64x256x64 .bf16) (harg5 : arg5.IsWhole) (arg6 : Memref sig .tc .vmem S64x256x64 .f32) (harg6 : arg6.IsWhole) (hc0 : cond0_0 i) (hc1 : ¬cond0_1 i)
    (x0 : Vec F S64x128x256 .f32) (x1 : Vec F S64x128x64 .f32) (x2 : Vec F S64x1 .i32) (y : S64x256x64.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S64x256x64.size (by sl_kernel_rfl) y

/-- What a first block leaves in the accumulator: its pieces read back. -/
def sout0_A (c : Dev nD) (i : grid0.Coords) (arg2 : Memref sig .tc .vmem S64x128x256 .f32) (harg2 : arg2.IsWhole) (arg3 : Memref sig .tc .vmem S64x128x64 .f32) (harg3 : arg3.IsWhole) (arg4 : Memref sig .tc .vmem S64x1 .i32) (harg4 : arg4.IsWhole) (arg5 : Memref sig .tc .vmem S64x256x64 .bf16) (harg5 : arg5.IsWhole) (arg6 : Memref sig .tc .vmem S64x256x64 .f32) (harg6 : arg6.IsWhole) (hc0 : cond0_0 i) (hc1 : ¬cond0_1 i)
    (x0 : Vec F S64x128x256 .f32) (x1 : Vec F S64x128x64 .f32) (x2 : Vec F S64x1 .i32) : Vec F S64x256x64 .f32 :=
  VS0.read (Elt F) (VS0.writes (Elt F) VS0.junk (kernelRun0_A c i arg2 harg2 arg3 harg3 arg4 harg4 arg5 harg5 arg6 harg6 hc0 hc1 x0 x1 x2).2.1)

def out0_B_3 (c : Dev nD) (i : grid0.Coords) (arg2 : Memref sig .tc .vmem S64x128x256 .f32) (harg2 : arg2.IsWhole) (arg3 : Memref sig .tc .vmem S64x128x64 .f32) (harg3 : arg3.IsWhole) (arg4 : Memref sig .tc .vmem S64x1 .i32) (harg4 : arg4.IsWhole) (arg5 : Memref sig .tc .vmem S64x256x64 .bf16) (harg5 : arg5.IsWhole) (arg6 : Memref sig .tc .vmem S64x256x64 .f32) (harg6 : arg6.IsWhole) (hc0 : ¬cond0_0 i) (hc1 : ¬cond0_1 i)
    (x0 : Vec F S64x128x256 .f32) (x1 : Vec F S64x128x64 .f32) (x2 : Vec F S64x1 .i32) (xs0 : Vec F S64x256x64 .f32) : Vec F S64x256x64 .bf16 :=
  VO0_3.read (Elt F) (VO0_3.writes (Elt F) VO0_3.junk (kernelRun0_B c i arg2 harg2 arg3 harg3 arg4 harg4 arg5 harg5 arg6 harg6 hc0 hc1 x0 x1 x2 xs0).1)

theorem scover0_B (c : Dev nD) (i : grid0.Coords) (arg2 : Memref sig .tc .vmem S64x128x256 .f32) (harg2 : arg2.IsWhole) (arg3 : Memref sig .tc .vmem S64x128x64 .f32) (harg3 : arg3.IsWhole) (arg4 : Memref sig .tc .vmem S64x1 .i32) (harg4 : arg4.IsWhole) (arg5 : Memref sig .tc .vmem S64x256x64 .bf16) (harg5 : arg5.IsWhole) (arg6 : Memref sig .tc .vmem S64x256x64 .f32) (harg6 : arg6.IsWhole) (hc0 : ¬cond0_0 i) (hc1 : ¬cond0_1 i)
    (x0 : Vec F S64x128x256 .f32) (x1 : Vec F S64x128x64 .f32) (x2 : Vec F S64x1 .i32) (xs0 : Vec F S64x256x64 .f32) (y : S64x256x64.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S64x256x64.size (by sl_kernel_rfl) y

/-- What a middle block leaves in the accumulator. -/
def sout0_B (c : Dev nD) (i : grid0.Coords) (arg2 : Memref sig .tc .vmem S64x128x256 .f32) (harg2 : arg2.IsWhole) (arg3 : Memref sig .tc .vmem S64x128x64 .f32) (harg3 : arg3.IsWhole) (arg4 : Memref sig .tc .vmem S64x1 .i32) (harg4 : arg4.IsWhole) (arg5 : Memref sig .tc .vmem S64x256x64 .bf16) (harg5 : arg5.IsWhole) (arg6 : Memref sig .tc .vmem S64x256x64 .f32) (harg6 : arg6.IsWhole) (hc0 : ¬cond0_0 i) (hc1 : ¬cond0_1 i)
    (x0 : Vec F S64x128x256 .f32) (x1 : Vec F S64x128x64 .f32) (x2 : Vec F S64x1 .i32) (xs0 : Vec F S64x256x64 .f32) : Vec F S64x256x64 .f32 :=
  VS0.read (Elt F) (VS0.writes (Elt F) VS0.junk (kernelRun0_B c i arg2 harg2 arg3 harg3 arg4 harg4 arg5 harg5 arg6 harg6 hc0 hc1 x0 x1 x2 xs0).2.1)

theorem cover0_C_3 (c : Dev nD) (i : grid0.Coords) (arg2 : Memref sig .tc .vmem S64x128x256 .f32) (harg2 : arg2.IsWhole) (arg3 : Memref sig .tc .vmem S64x128x64 .f32) (harg3 : arg3.IsWhole) (arg4 : Memref sig .tc .vmem S64x1 .i32) (harg4 : arg4.IsWhole) (arg5 : Memref sig .tc .vmem S64x256x64 .bf16) (harg5 : arg5.IsWhole) (arg6 : Memref sig .tc .vmem S64x256x64 .f32) (harg6 : arg6.IsWhole) (hc0 : ¬cond0_0 i) (hc1 : cond0_1 i)
    (x0 : Vec F S64x128x256 .f32) (x1 : Vec F S64x128x64 .f32) (x2 : Vec F S64x1 .i32) (xs0 : Vec F S64x256x64 .f32) (y : S64x256x64.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S64x256x64.size (by sl_kernel_rfl) y

/-- What a last block leaves in the output buffer. -/
def out0_C_3 (c : Dev nD) (i : grid0.Coords) (arg2 : Memref sig .tc .vmem S64x128x256 .f32) (harg2 : arg2.IsWhole) (arg3 : Memref sig .tc .vmem S64x128x64 .f32) (harg3 : arg3.IsWhole) (arg4 : Memref sig .tc .vmem S64x1 .i32) (harg4 : arg4.IsWhole) (arg5 : Memref sig .tc .vmem S64x256x64 .bf16) (harg5 : arg5.IsWhole) (arg6 : Memref sig .tc .vmem S64x256x64 .f32) (harg6 : arg6.IsWhole) (hc0 : ¬cond0_0 i) (hc1 : cond0_1 i)
    (x0 : Vec F S64x128x256 .f32) (x1 : Vec F S64x128x64 .f32) (x2 : Vec F S64x1 .i32) (xs0 : Vec F S64x256x64 .f32) : Vec F S64x256x64 .bf16 :=
  VO0_3.read (Elt F) (VO0_3.writes (Elt F) VO0_3.junk (kernelRun0_C c i arg2 harg2 arg3 harg3 arg4 harg4 arg5 harg5 arg6 harg6 hc0 hc1 x0 x1 x2 xs0).1)

theorem scover0_C (c : Dev nD) (i : grid0.Coords) (arg2 : Memref sig .tc .vmem S64x128x256 .f32) (harg2 : arg2.IsWhole) (arg3 : Memref sig .tc .vmem S64x128x64 .f32) (harg3 : arg3.IsWhole) (arg4 : Memref sig .tc .vmem S64x1 .i32) (harg4 : arg4.IsWhole) (arg5 : Memref sig .tc .vmem S64x256x64 .bf16) (harg5 : arg5.IsWhole) (arg6 : Memref sig .tc .vmem S64x256x64 .f32) (harg6 : arg6.IsWhole) (hc0 : ¬cond0_0 i) (hc1 : cond0_1 i)
    (x0 : Vec F S64x128x256 .f32) (x1 : Vec F S64x128x64 .f32) (x2 : Vec F S64x1 .i32) (xs0 : Vec F S64x256x64 .f32) (y : S64x256x64.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S64x256x64.size (by sl_kernel_rfl) y

/-- What a last block leaves in the accumulator. -/
def sout0_C (c : Dev nD) (i : grid0.Coords) (arg2 : Memref sig .tc .vmem S64x128x256 .f32) (harg2 : arg2.IsWhole) (arg3 : Memref sig .tc .vmem S64x128x64 .f32) (harg3 : arg3.IsWhole) (arg4 : Memref sig .tc .vmem S64x1 .i32) (harg4 : arg4.IsWhole) (arg5 : Memref sig .tc .vmem S64x256x64 .bf16) (harg5 : arg5.IsWhole) (arg6 : Memref sig .tc .vmem S64x256x64 .f32) (harg6 : arg6.IsWhole) (hc0 : ¬cond0_0 i) (hc1 : cond0_1 i)
    (x0 : Vec F S64x128x256 .f32) (x1 : Vec F S64x128x64 .f32) (x2 : Vec F S64x1 .i32) (xs0 : Vec F S64x256x64 .f32) : Vec F S64x256x64 .f32 :=
  VS0.read (Elt F) (VS0.writes (Elt F) VS0.junk (kernelRun0_C c i arg2 harg2 arg3 harg3 arg4 harg4 arg5 harg5 arg6 harg6 hc0 hc1 x0 x1 x2 xs0).2.1)

section
variable (V : (c : Dev nD) → (b : Ref sig .tc) → Buf (Elt F) ((c : Thread nD τ).loc b))

/-! ## Point by point -/

/-- The output buffer and the accumulator after the body at position `n`: the case of `n` at the point's input
    blocks, a later block over the accumulator the point before left. -/
def outsAt0 (c : Dev nD) : (n : ℕ) → n < cfg0.N → Vec F S64x256x64 .bf16 × Vec F S64x256x64 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 8 = 0 then
      if h1 : (n + 1) % 8 = 7 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 8 = 7 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (out0_A_3 c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t), sout0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (out0_B_3 c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2, sout0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_3 c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point every scoped buffer at anything; afterwards the accumulator
    at what the point before left in it. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2) ∗ others0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ others0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem live0_0 (c : Dev nD) (t : Fin cfg0.N) : (dat0 V c).leavesExact 0 t = owns (c : Thread nD τ) (ms0_0 t) fullShare (iblk0 V c 0 t) := by
  unfold Dat.leavesExact; rw [liveAt0_0 t, after0_0]
theorem live0_1 (c : Dev nD) (t : Fin cfg0.N) : (dat0 V c).leavesExact 1 t = owns (c : Thread nD τ) (ms0_1 t) fullShare (iblk0 V c 1 t) := by
  unfold Dat.leavesExact; rw [liveAt0_1 t, after0_1]
theorem live0_2 (c : Dev nD) (t : Fin cfg0.N) : (dat0 V c).leavesExact 2 t = owns (c : Thread nD τ) (ms0_2 t) fullShare (iblk0 V c 2 t) := by
  unfold Dat.leavesExact; rw [liveAt0_2 t, after0_2]

set_option maxHeartbeats 4800000 in
/-- The body at any point: the inputs' buffers hold their blocks; the point's position in its row of sequence blocks
    says which case it is in; the invariant hands the body the accumulator at what the point before left (at anything
    before the first point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [live0_0, live0_1, live0_2]
  have hN : t.val < 16 := lt_of_lt_of_eq t.isLt (show cfg0.N = 16 from N_0)
  by_cases h0 : t.val % 8 = 0
  · have h1 : ¬t.val % 8 = 7 := by omega
    rw [Dat.leavesExact_idle (dat0 V c) 3 t (idleAt0_3 t (fun h => h1 ((hcond0_1 t).mp h))) (noFlush0_3 t (fun h => h1 ((hcond0_1 t).mp h)))]
    rw [outsAt0_A V c t h0 h1]
    unfold sout0_A; (try dsimp only)
    by_cases hz : t.val = 0
    · rw [PhiS0_castSucc V c t, PhiS0_zero V c _ _ hz, PhiA0_eq]
      iintro ⟨⟨⟨HS0, Hr⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C_3 sout0_C; (try dsimp only)
      rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_C c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B; (try dsimp only)
      rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_B c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

theorem body_obligation0 (c : Dev nD) : BodyObligation (dat0 (F := F) V c) (defs₀ (F := F)) Variants.none () Set.univ := fun t => by
  rw [bigSep_W0, bigSep_W0]
  exact sound_body0 V c t

/-! ## The invariant at the call's two ends -/

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives every scoped buffer back at some contents: the accumulator's are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 16 := N_0; omega), PhiA0_eq]
  iintro ⟨⟨HS0, Hr⟩, Hg⟩
  isplitl [HS0 Hr]
  · isplitl [HS0]
    · iexists _; iexact HS0
    iexact Hr
  iexact Hg

end

end Cert.KernelIdeal.Frm

end
-- ==== Proof.KI.R1Runs.lean ====
/-
  The second pallas_call (the flattened tensor against the transposed weights, plus the bias), what its three control
  cases share. The grid is 2 x 8: point t works on output-column half t / 8 and contraction block t % 8. The accumulator
  scratch is reset at contraction block 0, added to at every block, and goes out with the bias added at contraction
  block 7; so the output window is idle (nothing stored, nothing written back) at every other point.
-/
import proofs.«122444_j3367254360395_1_alg».proof.Proof.Gen.KernelIdeal.Launch
import proofs.«122444_j3367254360395_1_alg».proof.Proof.Gen.KernelIdeal.Skeleton
import proofs.«122444_j3367254360395_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the buffer contents the call is entered from
variable (V : (c : Dev nD) → (b : Ref sig .tc) → Buf (Elt F) ((c : Thread nD τ).loc b))

/-! ## The windows' blocks -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the block
    index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's two branch conditions, decided over the grid -/

/-- "This is the first block of the row": the accumulator is reset. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last block of the row": the accumulator goes out into the output block. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last block of a row nothing is stored into the output window and it is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

/-- One staging buffer of the output window, through which its contents are stated. -/
abbrev VO1_3 : View sig .tc .vmem S128x512 .f32 := (Memref.whole cc1_stg3_0 : Memref sig .tc .vmem S128x512 .f32).view
abbrev ms1_0 (t : Fin cfg1.N) : Memref sig .tc .vmem S128x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x512 .f32 := win1_3.stage (cfg1.slots t 3)
abbrev hs1_3 (t : Fin cfg1.N) : (ms1_3 t).IsWhole := hstage1_3 ((cfg1.slots t 3).cast nbuf1_3)
/-- The accumulator scratch: a whole scoped buffer of the kernel's own. -/
abbrev scM1 : Memref sig .tc .vmem S128x512 .f32 := Memref.whole cc1_scratch0
abbrev VS1 : View sig .tc .vmem S128x512 .f32 := scM1.view

/-- The scoped buffers no window of this call stages — the other pallas_call's, which this call never touches, and the
    accumulator scratch, singled out as a memref owned at some contents — beside the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ d, owns (c : Thread nD τ) scM1 fullShare d)) ∗ (∃ r, prngReg c r)) := by
  unfold Pipeline.ΦA; rw [scopedRest1_eq]; simp only [scM1, owns_whole]; try rfl

end Cert.KernelIdeal.Frm

end
-- ==== Proof.KI.R1RunA.lean ====
/-
  The second pallas_call's body at a first contraction block: the accumulator is reset, then this block's products are
  added; nothing is stored into the output buffer, which is handed back as found.
-/
import proofs.«122444_j3367254360395_1_alg».proof.Proof.KI.R1Runs

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the accumulator scratch, with the proof that the body runs to its end from the
    inputs' buffers at their contents, the output's at anything (handed back untouched) and the scratch at anything. -/
noncomputable def kernelRun1_A (c : Dev nD) (i : grid1.Coords) (arg2 : Memref sig .tc .vmem S128x2048 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : cond1_0 i) (hc1 : ¬cond1_1 i)
    (x0 : Vec F S128x2048 .bf16) (x1 : Vec F S512x2048 .f32) (x2 : Vec F S1x512 .f32) :
    Σ' (L3 : List (View.Piece (Elt F) S128x512 .f32)), { LS0 : List (View.Piece (Elt F) S128x512 .f32) //
      ∀ (xi3 : Vec F S128x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__mm_kernel i arg2 harg2 arg3 harg3 arg4 harg4 arg5 harg5 arg6 harg6) K } := by
  refine ⟨[], ?_, fun xi3 E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Frm

end
-- ==== Proof.KI.R1RunB.lean ====
/-
  The second pallas_call's body at a middle contraction block: this block's products are added to what the block before
  left in the accumulator; nothing is stored into the output buffer, which is handed back as found.
-/
import proofs.«122444_j3367254360395_1_alg».proof.Proof.KI.R1RunA

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's store leaves in the accumulator scratch, with the proof that the body runs to its end from the
    inputs' buffers at their contents, the output's at anything (handed back untouched) and the scratch at `xs0`. -/
noncomputable def kernelRun1_B (c : Dev nD) (i : grid1.Coords) (arg2 : Memref sig .tc .vmem S128x2048 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : ¬cond1_0 i) (hc1 : ¬cond1_1 i)
    (x0 : Vec F S128x2048 .bf16) (x1 : Vec F S512x2048 .f32) (x2 : Vec F S1x512 .f32) (xs0 : Vec F S128x512 .f32) :
    Σ' (L3 : List (View.Piece (Elt F) S128x512 .f32)), { LS0 : List (View.Piece (Elt F) S128x512 .f32) //
      ∀ (xi3 : Vec F S128x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__mm_kernel i arg2 harg2 arg3 harg3 arg4 harg4 arg5 harg5 arg6 harg6) K } := by
  refine ⟨[], ?_, fun xi3 E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Frm

end
-- ==== Proof.KI.R1RunC.lean ====
/-
  The second pallas_call's body at a last contraction block: this block's products are added to what the block before left
  in the accumulator, and the accumulator plus the bias row goes out into the output buffer.
-/
import proofs.«122444_j3367254360395_1_alg».proof.Proof.KI.R1RunB

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output buffer and in the accumulator scratch, with the proof that the body
    runs to its end from the inputs' buffers at their contents, the output's at anything and the scratch at `xs0`. -/
noncomputable def kernelRun1_C (c : Dev nD) (i : grid1.Coords) (arg2 : Memref sig .tc .vmem S128x2048 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : ¬cond1_0 i) (hc1 : cond1_1 i)
    (x0 : Vec F S128x2048 .bf16) (x1 : Vec F S512x2048 .f32) (x2 : Vec F S1x512 .f32) (xs0 : Vec F S128x512 .f32) :
    Σ' (L3 : List (View.Piece (Elt F) S128x512 .f32)), { LS0 : List (View.Piece (Elt F) S128x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__mm_kernel i arg2 harg2 arg3 harg3 arg4 harg4 arg5 harg5 arg6 harg6) K } := by
  refine ⟨?_, ?_, fun E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Frm

end
-- ==== Proof.KI.R1Body.lean ====
/-
  The second pallas_call, point by point. After the body at point t the accumulator scratch holds what the case of t
  leaves in it — at a first contraction block the reset accumulator plus this block's products, at a later one what the
  point before left plus this block's products — and at a last contraction block the output buffer holds the accumulator
  plus the bias row. The invariant carried from point to point names the scratch's contents, so that the next point
  finds them.
-/
import proofs.«122444_j3367254360395_1_alg».proof.Proof.KI.R1RunC

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- A first or middle block stores nothing into the output buffer: a placeholder nothing consults. -/
def out1_A_3 (c : Dev nD) (i : grid1.Coords) (arg2 : Memref sig .tc .vmem S128x2048 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : cond1_0 i) (hc1 : ¬cond1_1 i)
    (x0 : Vec F S128x2048 .bf16) (x1 : Vec F S512x2048 .f32) (x2 : Vec F S1x512 .f32) : Vec F S128x512 .f32 :=
  VO1_3.read (Elt F) (VO1_3.writes (Elt F) VO1_3.junk (kernelRun1_A c i arg2 harg2 arg3 harg3 arg4 harg4 arg5 harg5 arg6 harg6 hc0 hc1 x0 x1 x2).1)

theorem scover1_A (c : Dev nD) (i : grid1.Coords) (arg2 : Memref sig .tc .vmem S128x2048 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : cond1_0 i) (hc1 : ¬cond1_1 i)
    (x0 : Vec F S128x2048 .bf16) (x1 : Vec F S512x2048 .f32) (x2 : Vec F S1x512 .f32) (y : S128x512.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S128x512.size (by sl_kernel_rfl) y

/-- What a first block leaves in the accumulator: its pieces read back. -/
def sout1_A (c : Dev nD) (i : grid1.Coords) (arg2 : Memref sig .tc .vmem S128x2048 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : cond1_0 i) (hc1 : ¬cond1_1 i)
    (x0 : Vec F S128x2048 .bf16) (x1 : Vec F S512x2048 .f32) (x2 : Vec F S1x512 .f32) : Vec F S128x512 .f32 :=
  VS1.read (Elt F) (VS1.writes (Elt F) VS1.junk (kernelRun1_A c i arg2 harg2 arg3 harg3 arg4 harg4 arg5 harg5 arg6 harg6 hc0 hc1 x0 x1 x2).2.1)

def out1_B_3 (c : Dev nD) (i : grid1.Coords) (arg2 : Memref sig .tc .vmem S128x2048 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : ¬cond1_0 i) (hc1 : ¬cond1_1 i)
    (x0 : Vec F S128x2048 .bf16) (x1 : Vec F S512x2048 .f32) (x2 : Vec F S1x512 .f32) (xs0 : Vec F S128x512 .f32) : Vec F S128x512 .f32 :=
  VO1_3.read (Elt F) (VO1_3.writes (Elt F) VO1_3.junk (kernelRun1_B c i arg2 harg2 arg3 harg3 arg4 harg4 arg5 harg5 arg6 harg6 hc0 hc1 x0 x1 x2 xs0).1)

theorem scover1_B (c : Dev nD) (i : grid1.Coords) (arg2 : Memref sig .tc .vmem S128x2048 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : ¬cond1_0 i) (hc1 : ¬cond1_1 i)
    (x0 : Vec F S128x2048 .bf16) (x1 : Vec F S512x2048 .f32) (x2 : Vec F S1x512 .f32) (xs0 : Vec F S128x512 .f32) (y : S128x512.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S128x512.size (by sl_kernel_rfl) y

/-- What a middle block leaves in the accumulator. -/
def sout1_B (c : Dev nD) (i : grid1.Coords) (arg2 : Memref sig .tc .vmem S128x2048 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : ¬cond1_0 i) (hc1 : ¬cond1_1 i)
    (x0 : Vec F S128x2048 .bf16) (x1 : Vec F S512x2048 .f32) (x2 : Vec F S1x512 .f32) (xs0 : Vec F S128x512 .f32) : Vec F S128x512 .f32 :=
  VS1.read (Elt F) (VS1.writes (Elt F) VS1.junk (kernelRun1_B c i arg2 harg2 arg3 harg3 arg4 harg4 arg5 harg5 arg6 harg6 hc0 hc1 x0 x1 x2 xs0).2.1)

theorem cover1_C_3 (c : Dev nD) (i : grid1.Coords) (arg2 : Memref sig .tc .vmem S128x2048 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : ¬cond1_0 i) (hc1 : cond1_1 i)
    (x0 : Vec F S128x2048 .bf16) (x1 : Vec F S512x2048 .f32) (x2 : Vec F S1x512 .f32) (xs0 : Vec F S128x512 .f32) (y : S128x512.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S128x512.size (by sl_kernel_rfl) y

/-- What a last block leaves in the output buffer. -/
def out1_C_3 (c : Dev nD) (i : grid1.Coords) (arg2 : Memref sig .tc .vmem S128x2048 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : ¬cond1_0 i) (hc1 : cond1_1 i)
    (x0 : Vec F S128x2048 .bf16) (x1 : Vec F S512x2048 .f32) (x2 : Vec F S1x512 .f32) (xs0 : Vec F S128x512 .f32) : Vec F S128x512 .f32 :=
  VO1_3.read (Elt F) (VO1_3.writes (Elt F) VO1_3.junk (kernelRun1_C c i arg2 harg2 arg3 harg3 arg4 harg4 arg5 harg5 arg6 harg6 hc0 hc1 x0 x1 x2 xs0).1)

theorem scover1_C (c : Dev nD) (i : grid1.Coords) (arg2 : Memref sig .tc .vmem S128x2048 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : ¬cond1_0 i) (hc1 : cond1_1 i)
    (x0 : Vec F S128x2048 .bf16) (x1 : Vec F S512x2048 .f32) (x2 : Vec F S1x512 .f32) (xs0 : Vec F S128x512 .f32) (y : S128x512.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S128x512.size (by sl_kernel_rfl) y

/-- What a last block leaves in the accumulator. -/
def sout1_C (c : Dev nD) (i : grid1.Coords) (arg2 : Memref sig .tc .vmem S128x2048 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : ¬cond1_0 i) (hc1 : cond1_1 i)
    (x0 : Vec F S128x2048 .bf16) (x1 : Vec F S512x2048 .f32) (x2 : Vec F S1x512 .f32) (xs0 : Vec F S128x512 .f32) : Vec F S128x512 .f32 :=
  VS1.read (Elt F) (VS1.writes (Elt F) VS1.junk (kernelRun1_C c i arg2 harg2 arg3 harg3 arg4 harg4 arg5 harg5 arg6 harg6 hc0 hc1 x0 x1 x2 xs0).2.1)

section
variable (V : (c : Dev nD) → (b : Ref sig .tc) → Buf (Elt F) ((c : Thread nD τ).loc b))

/-! ## Point by point -/

/-- The output buffer and the accumulator after the body at position `n`: the case of `n` at the point's input
    blocks, a later block over the accumulator the point before left. -/
def outsAt1 (c : Dev nD) : (n : ℕ) → n < cfg1.N → Vec F S128x512 .f32 × Vec F S128x512 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t), sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point every scoped buffer at anything; afterwards the accumulator
    at what the point before left in it. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ owns (c : Thread nD τ) scM1 fullShare ((outsAt1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ owns (c : Thread nD τ) scM1 fullShare ((outsAt1 V c (n - 1) (by omega)).2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem live1_0 (c : Dev nD) (t : Fin cfg1.N) : (dat1 V c).leavesExact 0 t = owns (c : Thread nD τ) (ms1_0 t) fullShare (iblk1 V c 0 t) := by
  unfold Dat.leavesExact; rw [liveAt1_0 t, after1_0]
theorem live1_1 (c : Dev nD) (t : Fin cfg1.N) : (dat1 V c).leavesExact 1 t = owns (c : Thread nD τ) (ms1_1 t) fullShare (iblk1 V c 1 t) := by
  unfold Dat.leavesExact; rw [liveAt1_1 t, after1_1]
theorem live1_2 (c : Dev nD) (t : Fin cfg1.N) : (dat1 V c).leavesExact 2 t = owns (c : Thread nD τ) (ms1_2 t) fullShare (iblk1 V c 2 t) := by
  unfold Dat.leavesExact; rw [liveAt1_2 t, after1_2]

set_option maxHeartbeats 4800000 in
/-- The body at any point: the inputs' buffers hold their blocks; the point's position in its row of blocks says which
    case it is in; the invariant hands the body the accumulator at what the point before left (at anything before the
    first point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [live1_0, live1_1, live1_2]
  have hN : t.val < 16 := lt_of_lt_of_eq t.isLt (show cfg1.N = 16 from N_1)
  by_cases h0 : t.val % 8 = 0
  · have h1 : ¬t.val % 8 = 7 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A; (try dsimp only)
    by_cases hz : t.val = 0
    · rw [PhiS1_castSucc V c t, PhiS1_zero V c _ _ hz, PhiA1_eq]
      iintro ⟨⟨⟨Hb0, Hb1, Hb2, Hb3, Hb4, Hb5, Hb6, Hb7, Hb8, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Hb0 Hb1 Hb2 Hb3 Hb4 Hb5 Hb6 Hb7 Hb8 HS0 Hg]
      · isplitl [Hb0 Hb1 Hb2 Hb3 Hb4 Hb5 Hb6 Hb7 Hb8 HS0]
        · isplitl [Hb0]; · iexact Hb0
          isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          isplitl [Hb8]; · iexact Hb8
          unfold owns; iexists _; isplitr
          swap; · iexact HS0
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨Hb0, Hb1, Hb2, Hb3, Hb4, Hb5, Hb6, Hb7, Hb8, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [Hb0 Hb1 Hb2 Hb3 Hb4 Hb5 Hb6 Hb7 Hb8 HS0 Hg]
      · isplitl [Hb0 Hb1 Hb2 Hb3 Hb4 Hb5 Hb6 Hb7 Hb8 HS0]
        · isplitl [Hb0]; · iexact Hb0
          isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          isplitl [Hb8]; · iexact Hb8
          unfold owns; iexists _; isplitr
          swap; · iexact HS0
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C; (try dsimp only)
      rw [PhiS1_castSucc V c t, PhiS1_pos V c _ _ hz]
      iintro ⟨⟨⟨Hb0, Hb1, Hb2, Hb3, Hb4, Hb5, Hb6, Hb7, Hb8, HS0⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [Hb0 Hb1 Hb2 Hb3 Hb4 Hb5 Hb6 Hb7 Hb8 HS0 Hg]
      · isplitl [Hb0 Hb1 Hb2 Hb3 Hb4 Hb5 Hb6 Hb7 Hb8 HS0]
        · isplitl [Hb0]; · iexact Hb0
          isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          isplitl [Hb8]; · iexact Hb8
          unfold owns; iexists _; isplitr
          swap; · iexact HS0
          ipureintro; exact View.read_writes_of_cover _ _ _ _ _ (scover1_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      rw [PhiS1_castSucc V c t, PhiS1_pos V c _ _ hz]
      iintro ⟨⟨⟨Hb0, Hb1, Hb2, Hb3, Hb4, Hb5, Hb6, Hb7, Hb8, HS0⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Hb0 Hb1 Hb2 Hb3 Hb4 Hb5 Hb6 Hb7 Hb8 HS0 Hg]
      · isplitl [Hb0 Hb1 Hb2 Hb3 Hb4 Hb5 Hb6 Hb7 Hb8 HS0]
        · isplitl [Hb0]; · iexact Hb0
          isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          isplitl [Hb7]; · iexact Hb7
          isplitl [Hb8]; · iexact Hb8
          unfold owns; iexists _; isplitr
          swap; · iexact HS0
          ipureintro; exact View.read_writes_of_cover _ _ _ _ _ (scover1_B c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-! ## The invariant at the call's two ends -/

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives every scoped buffer back at some contents: the accumulator's are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 16 := N_1; omega), PhiA1_eq]
  iintro ⟨⟨Hb0, Hb1, Hb2, Hb3, Hb4, Hb5, Hb6, Hb7, Hb8, HS0⟩, Hg⟩
  isplitl [Hb0 Hb1 Hb2 Hb3 Hb4 Hb5 Hb6 Hb7 Hb8 HS0]
  · isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [Hb8]; · iexact Hb8
    iexists _; iexact HS0
  iexact Hg

end

end Cert.KernelIdeal.Frm

end
-- ==== Proof.KI.Run.lean ====
/-
  The whole program, from the launch to the return: the lengths reshaped to a column, the first pallas_call, its result
  flattened and the bias reshaped to a row, the second pallas_call. The buffer contents at each boundary are a fold from
  the launch memory: a host stretch applies its operations, a pallas_call leaves its arrays at what its write-backs
  leave and every other buffer alone. Every weakly fair execution terminates, and every final memory holds each unscoped
  buffer at the last boundary's contents: the arguments as launched, the result at what the second call's write-backs
  leave.
-/
import proofs.«122444_j3367254360395_1_alg».proof.Proof.KI.R0Body
import proofs.«122444_j3367254360395_1_alg».proof.Proof.KI.R1Body
import proofs.«122444_j3367254360395_1_alg».proof.Proof.Gen.KernelIdeal.Regions

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the lengths are reshaped to a column (the first call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first call's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the first call's result is flattened and the bias reshaped to a row (the second call's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second call's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## A host stretch changes only what it writes -/

theorem W1_of (c : Dev nD) (r : Ref sig .tc) (h : r ∉ (hostOps0_W : List (Ref sig .tc))) :
    W1 m ρ c (Proc.devRef .tc r) = W0 m ρ c (Proc.devRef .tc r) :=
  StableHlo.after_of_writes_sub hostOps0 _ hostOps0_writes h
theorem W3_of (c : Dev nD) (r : Ref sig .tc) (h : r ∉ (hostOps1_W : List (Ref sig .tc))) :
    W3 m ρ c (Proc.devRef .tc r) = W2 m ρ c (Proc.devRef .tc r) :=
  StableHlo.after_of_writes_sub hostOps1 _ hostOps1_writes h

/-! ## The arguments end as launched, and the result is the second call's output array -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := W1_of m ρ c main_arg1 (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := (W4_arr m ρ c 1).trans (((dat1 (V3 m ρ) c).arrAt_in 1 rfl _).trans (A_eq1 (V3 m ρ) c 1))
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

theorem W4_main_v4 (c : Dev nD) : W4 m ρ c (Proc.devRef .tc main_v4) = (dat1 (V3 m ρ) c).arrAt 3 cfg1.N :=
  W4_arr m ρ c 3

/-! ## The proof data family and the thread state -/

abbrev adm : (p : Fin 2) → (pcfgs (F := F) p).Adm := fun p => (cfgs p).toPCfg_adm
/-- Every call's proof data, each at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The two calls as segments -/

set_option backward.isDefEq.respectTransparency.types false in
/-- Pallas_call 0 over the thread state: entered from every unscoped buffer at `W1`, left at `W2`. Its arrays are
    split out of the unscoped buffers and put back at what the pipeline leaves; the generator register goes into the
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 0).pre c (fun _ => fullShare) (adm (F := F) 0).1 ∗ Pipeline.scopedRest spec0 c) : sProp 𝕄)
        ⊢ Pipeline.ΦA spec0 c := by
      unfold Pipeline.ΦA
      iintro ⟨Hp, -, Hr⟩
      isplitl [Hr]; · iexact Hr
      iexact Hp
    exact h.trans (hin0 (V1 m ρ) c)
  hout c := by
    rw [Pipeline.ownSems0_none]
    have h : (Pipeline.ΦA spec0 c : sProp 𝕄) ⊢ iprop((∃ r, prngReg c r) ∗ emp ∗ Pipeline.scopedRest spec0 c) := by
      unfold Pipeline.ΦA
      iintro ⟨Hr, Hp⟩
      isplitl [Hp]; · iexact Hp
      isplitr; · iempintro
      iexact Hr
    exact (hout0 (V1 m ρ) c).trans h
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 1 over the thread state: entered from every unscoped buffer at `W3`, left at `W4`. Its arrays are
    split out of the unscoped buffers and put back at what the pipeline leaves; the generator register goes into the
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm (F := F) 1).1 ∗ Pipeline.scopedRest spec1 c) : sProp 𝕄)
        ⊢ Pipeline.ΦA spec1 c := by
      unfold Pipeline.ΦA
      iintro ⟨Hp, -, Hr⟩
      isplitl [Hr]; · iexact Hr
      iexact Hp
    exact h.trans (hin1 (V3 m ρ) c)
  hout c := by
    rw [Pipeline.ownSems0_none]
    have h : (Pipeline.ΦA spec1 c : sProp 𝕄) ⊢ iprop((∃ r, prngReg c r) ∗ emp ∗ Pipeline.scopedRest spec1 c) := by
      unfold Pipeline.ΦA
      iintro ⟨Hr, Hp⟩
      isplitl [Hp]; · iexact Hp
      isplitr; · iempintro
      iexact Hr
    exact (hout1 (V3 m ρ) c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and every
    final memory holds each unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run m ρ)

end Cert.KernelIdeal.Frm

end
-- ==== Proof.Spec.lean ====
/-
  What the program computes, as one function of its five argument arrays over the extended reals.

  With fillers x0[b, s, e], roles x1[b, s, r], lengths len[b], weights w[n, k] and bias[n]:
    mask(b, s)     = 1 if s < len[b] (the lengths compared as signed 32-bit integers), else 0
    tsum[b, e, r]  = sum over the 1024 sequence positions s of (x0[b, s, e] * mask(b, s)) * x1[b, s, r]
    out[b, n]      = (sum over the 16384 flat positions k = 64 e + r of tsum[b, e, r] * w[n, k]) + bias[n]
  Both programs compute exactly this; they differ only in how the two sums are cut into blocks.
-/
import Idealize.ShloMosaic.PureOps.Ideal
import Idealize.ShloMosaic.Lib.ValueIdx

noncomputable section

namespace Cert.Spec

open Idealize.ShloMosaic Idealize.ShloMosaic.ValueIdx

abbrev SX0 : Shape := ⟨3, ![128, 1024, 256]⟩
abbrev SX1 : Shape := ⟨3, ![128, 1024, 64]⟩
abbrev SLen : Shape := ⟨1, ![128]⟩
abbrev SW : Shape := ⟨2, ![1024, 16384]⟩
abbrev SBias : Shape := ⟨1, ![1024]⟩

/-- The mask entry for sequence position `s` against a length word: the comparison's bit, read as a number. -/
def msk (len : BitVec 32) (s : ℕ) : EReal :=
  FloatOps.uitofp (F := Ideal) .f32 (IntOp.cmpi .slt (BitVec.ofNat 32 s) len)

/-- The masked outer products summed over the sequence. -/
def tsum (x0 : (⟨SX0, .f32⟩ : BufTy).Contents (Elt Ideal)) (x1 : (⟨SX1, .f32⟩ : BufTy).Contents (Elt Ideal))
    (len : (⟨SLen, .i32⟩ : BufTy).Contents (Elt Ideal)) (b : Fin 128) (e : Fin 256) (r : Fin 64) : EReal :=
  ∑ s : Fin 1024, (x0 (ix3 b s e) * msk (len (ix1 b)) s.val) * x1 (ix3 b s r)

/-- Flat position `k` of a row of the flattened tensor is entry (k / 64, k % 64). -/
def flat (x0 : (⟨SX0, .f32⟩ : BufTy).Contents (Elt Ideal)) (x1 : (⟨SX1, .f32⟩ : BufTy).Contents (Elt Ideal))
    (len : (⟨SLen, .i32⟩ : BufTy).Contents (Elt Ideal)) (b : Fin 128) (k : Fin 16384) : EReal :=
  tsum x0 x1 len b ⟨k.val / 64, by have := k.isLt; omega⟩ ⟨k.val % 64, Nat.mod_lt _ (by decide)⟩

/-- The result: the flattened tensor against the transposed weights, plus the bias. -/
def out (x0 : (⟨SX0, .f32⟩ : BufTy).Contents (Elt Ideal)) (x1 : (⟨SX1, .f32⟩ : BufTy).Contents (Elt Ideal))
    (len : (⟨SLen, .i32⟩ : BufTy).Contents (Elt Ideal)) (w : (⟨SW, .f32⟩ : BufTy).Contents (Elt Ideal))
    (bias : (⟨SBias, .f32⟩ : BufTy).Contents (Elt Ideal)) (b : Fin 128) (n : Fin 1024) : EReal :=
  (∑ k : Fin 16384, flat x0 x1 len b k * w (ix2 n k)) + bias (ix1 n)

end Cert.Spec

end
-- ==== Proof.KI.Pay0.lean ====
/-
  The first pallas_call's arithmetic, read at one entry over the extended reals. One point's update adds, to the
  accumulator entry (b, e, r), the sum over the block's 128 sequence positions s of (fillers[b, s, e] * mask) * roles[b, s, r],
  the mask comparing the position's global number (128 * block + s) with row b's length; the reset value is zero, and the
  cast on the way out changes nothing.
-/
import proofs.«122444_j3367254360395_1_alg».proof.Proof.Gen.KernelIdeal.Skeleton
import proofs.«122444_j3367254360395_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Idealize.ShloMosaic Idealize.ShloMosaic.TcCoe Idealize.ShloMosaic.ValueIdx Idealize.SL.Sem

open Cert.KernelIdeal Cert.KernelIdeal.Gen

/-- The reset value: zero everywhere. -/
theorem pay1_0_apply (j : S64x256x64.Idx) : k0_pay1 (F := Ideal) j = 0 := by
  unfold k0_pay1
  refine (congrFun (shapeCast_self _ _) j).trans ?_
  exact Ideal.ofBits_zero_f32

/-! ## The pieces of one point's update, each read at an index -/

/-- The lengths column broadcast along the sequence axis reads row b's length. -/
private theorem lenCol_apply (x2 : Vec Ideal S64x1 .i32) (b : Fin 64) (s : Fin 128) :
    broadcastTo S64x128 (shapeCast S64x1 x2 shapeCasts_S64x1_S64x1) broadcasts_S64x1_S64x128 (ix2 b s) = x2 (ix2 b 0) := by
  rw [shapeCast_self]
  refine broadcastTo_apply x2 broadcasts_S64x1_S64x128 (ix2 b s) (ix2 b 0) fun a => ?_
  match a with
  | ⟨0, _⟩ => rfl
  | ⟨1, _⟩ => rfl

/-- The mask column broadcast along the filler axis reads the mask at (b, s). -/
private theorem maskCol_apply (m : S64x128.Idx → EReal) (b : Fin 64) (s : Fin 128) (e : Fin 256) :
    broadcastTo S64x128x256 (shapeCast S64x128x1 m shapeCasts_S64x128_S64x128x1) broadcasts_S64x128x1_S64x128x256 (ix3 b s e) = m (ix2 b s) := by
  refine (broadcastTo_apply _ broadcasts_S64x128x1_S64x128x256 (ix3 b s e) (ix3 b s (0 : Fin 1)) fun a => ?_).trans ?_
  · match a with
    | ⟨0, _⟩ => rfl
    | ⟨1, _⟩ => rfl
    | ⟨2, _⟩ => rfl
  · refine shapeCast_apply m shapeCasts_S64x128_S64x128x1 (ix3 b s (0 : Fin 1)) (ix2 b s) ?_
    rw [Shape.rowMajor_val_three, Shape.rowMajor_val_two]
    show b.val * 128 + s.val = (b.val * 128 + s.val) * 1 + 0
    omega

/-- The position's global number: block offset plus the position inside the block, as one word. -/
private theorem pos_word (n s : ℕ) :
    Scalar.muli (BitVec.ofNat 32 n) 128#32 + BitVec.ofNat 32 s = BitVec.ofNat 32 (n * 128 + s) := by
  show BitVec.ofNat 32 n * BitVec.ofNat 32 128 + BitVec.ofNat 32 s = _
  rw [← BitVec.ofNat_mul, ← BitVec.ofNat_add]

/-- A comparison bit widened by zeros reads the same number signed or unsigned. -/
private theorem sitofp_bit (c : BitVec 1) :
    FloatOps.sitofp (F := Ideal) .f32 (c.setWidth 32) = FloatOps.uitofp (F := Ideal) .f32 c := by
  show (((c.setWidth 32).toInt : ℝ) : EReal) = (((c.toNat : ℕ) : ℝ) : EReal)
  rcases BitVec.eq_zero_or_eq_one c with h | h <;> subst h
  · have h1 : ((0#1).setWidth 32).toInt = 0 := by decide
    have h2 : (0#1).toNat = 0 := by decide
    rw [h1, h2, Int.cast_zero, Nat.cast_zero]
  · have h1 : ((1#1).setWidth 32).toInt = 1 := by decide
    have h2 : (1#1).toNat = 1 := by decide
    rw [h1, h2, Int.cast_one, Nat.cast_one]

/-! The batched product's operand indices, axis by axis: batch axis 0 from the output's axis 0, the contracted axis 1
    from the contraction index, the free axis 2 from the output's axis 1 (left) or 2 (right). -/
private theorem lhs_dot_0 (i : S64x256x64.Idx) (q : dot_S64x128x256_S64x128x64_S64x256x64_1_1_2_2_0_0.contr.Idx) :
    (dot_S64x128x256_S64x128x64_S64x256x64_1_1_2_2_0_0.lhsIdx i q 0).val = (i 0).val := by
  unfold DotDims.lhsIdx
  rw [dif_pos (show (0 : Fin S64x128x256.rank) ∈ dot_S64x128x256_S64x128x64_S64x256x64_1_1_2_2_0_0.lhsBatch by decide)]
  rfl
private theorem lhs_dot_1 (i : S64x256x64.Idx) (q : dot_S64x128x256_S64x128x64_S64x256x64_1_1_2_2_0_0.contr.Idx) :
    (dot_S64x128x256_S64x128x64_S64x256x64_1_1_2_2_0_0.lhsIdx i q 1).val = (q ⟨0, by decide⟩).val :=
  dot_S64x128x256_S64x128x64_S64x256x64_1_1_2_2_0_0.lhsIdx_val_of_single rfl i q
private theorem lhs_dot_2 (i : S64x256x64.Idx) (q : dot_S64x128x256_S64x128x64_S64x256x64_1_1_2_2_0_0.contr.Idx) :
    (dot_S64x128x256_S64x128x64_S64x256x64_1_1_2_2_0_0.lhsIdx i q 2).val = (i 1).val := by
  unfold DotDims.lhsIdx
  rw [dif_neg (show ¬(2 : Fin S64x128x256.rank) ∈ dot_S64x128x256_S64x128x64_S64x256x64_1_1_2_2_0_0.lhsBatch by decide), dif_pos (show (2 : Fin S64x128x256.rank) ∈ dot_S64x128x256_S64x128x64_S64x256x64_1_1_2_2_0_0.lhsNonContracting by decide)]
  rfl
private theorem rhs_dot_0 (i : S64x256x64.Idx) (q : dot_S64x128x256_S64x128x64_S64x256x64_1_1_2_2_0_0.contr.Idx) :
    (dot_S64x128x256_S64x128x64_S64x256x64_1_1_2_2_0_0.rhsIdx i q 0).val = (i 0).val := by
  unfold DotDims.rhsIdx
  rw [dif_pos (show (0 : Fin S64x128x64.rank) ∈ dot_S64x128x256_S64x128x64_S64x256x64_1_1_2_2_0_0.rhsBatch by decide)]
  rfl
private theorem rhs_dot_1 (i : S64x256x64.Idx) (q : dot_S64x128x256_S64x128x64_S64x256x64_1_1_2_2_0_0.contr.Idx) :
    (dot_S64x128x256_S64x128x64_S64x256x64_1_1_2_2_0_0.rhsIdx i q 1).val = (q ⟨0, by decide⟩).val :=
  dot_S64x128x256_S64x128x64_S64x256x64_1_1_2_2_0_0.rhsIdx_val_of_single rfl i q
private theorem rhs_dot_2 (i : S64x256x64.Idx) (q : dot_S64x128x256_S64x128x64_S64x256x64_1_1_2_2_0_0.contr.Idx) :
    (dot_S64x128x256_S64x128x64_S64x256x64_1_1_2_2_0_0.rhsIdx i q 2).val = (i 2).val := by
  unfold DotDims.rhsIdx
  rw [dif_neg (show ¬(2 : Fin S64x128x64.rank) ∈ dot_S64x128x256_S64x128x64_S64x256x64_1_1_2_2_0_0.rhsBatch by decide), dif_pos (show (2 : Fin S64x128x64.rank) ∈ dot_S64x128x256_S64x128x64_S64x256x64_1_1_2_2_0_0.rhsNonContracting by decide)]
  rfl

/-- The batched product into the zero accumulator, read at (b, e, r): the sum over the 128 positions of the block. -/
private theorem dot_read (A : FVec Ideal S64x128x256 .bf16) (B : FVec Ideal S64x128x64 .bf16) (b : Fin 64) (e : Fin 256) (r : Fin 64) :
    matmul dot_S64x128x256_S64x128x64_S64x256x64_1_1_2_2_0_0 none A B (constant (F := Ideal) S64x256x64 .f32 0x00000000#32) (ix3 b e r)
      = ∑ s : Fin 128, A (ix3 b s e) * B (ix3 b s r) := by
  refine (Ideal.matmul_constant_zero_apply dot_S64x128x256_S64x128x64_S64x256x64_1_1_2_2_0_0 none A B (ix3 b e r)).trans ?_
  rw [← Equiv.sum_comp (ValueIdx.contrEquiv1 dot_S64x128x256_S64x128x64_S64x256x64_1_1_2_2_0_0 128 rfl rfl).symm]
  refine Finset.sum_congr rfl fun k _ => ?_
  have hk := ValueIdx.contrEquiv1_symm_val dot_S64x128x256_S64x128x64_S64x256x64_1_1_2_2_0_0 128 rfl rfl k
  have el : dot_S64x128x256_S64x128x64_S64x256x64_1_1_2_2_0_0.lhsIdx (ix3 b e r) ((ValueIdx.contrEquiv1 dot_S64x128x256_S64x128x64_S64x256x64_1_1_2_2_0_0 128 rfl rfl).symm k) = ix3 b k e := funext fun a => Fin.ext (by
    match a with
    | ⟨0, _⟩ => exact lhs_dot_0 _ _
    | ⟨1, _⟩ => exact (lhs_dot_1 _ _).trans hk
    | ⟨2, _⟩ => exact lhs_dot_2 _ _)
  have er : dot_S64x128x256_S64x128x64_S64x256x64_1_1_2_2_0_0.rhsIdx (ix3 b e r) ((ValueIdx.contrEquiv1 dot_S64x128x256_S64x128x64_S64x256x64_1_1_2_2_0_0 128 rfl rfl).symm k) = ix3 b k r := funext fun a => Fin.ext (by
    match a with
    | ⟨0, _⟩ => exact rhs_dot_0 _ _
    | ⟨1, _⟩ => exact (rhs_dot_1 _ _).trans hk
    | ⟨2, _⟩ => exact rhs_dot_2 _ _)
  rw [el, er]

/-- The position's global number at (b, s): the block's offset word plus the sequence coordinate. -/
private theorem pos_apply (n : ℕ) (b : Fin 64) (s : Fin 128) :
    addi (broadcast S64x128 (Scalar.muli (BitVec.ofNat 32 n) 128#32)) (iota .tc S64x128 32 [1] iota_S64x128_d1_w32) (ix2 b s)
      = BitVec.ofNat 32 (n * 128 + s.val) :=
  (congrArg (Scalar.muli (BitVec.ofNat 32 n) 128#32 + ·) (iota_single_apply .tc S64x128 32 1 iota_S64x128_d1_w32 (ix2 b s))).trans
    (pos_word n s.val)

/-- The mask at (b, s): the comparison of the position's global number with row b's length, read as a number. -/
private theorem mask_apply (n : ℕ) (x2 : Vec Ideal S64x1 .i32) (b : Fin 64) (s : Fin 128) :
    (sitofp .f32 (extui 32 (cmpi .slt
        (addi (broadcast S64x128 (Scalar.muli (BitVec.ofNat 32 n) 128#32)) (iota .tc S64x128 32 [1] iota_S64x128_d1_w32))
        (broadcastTo S64x128 (shapeCast S64x1 x2 shapeCasts_S64x1_S64x1) broadcasts_S64x1_S64x128)) natLt_1_32)
      : FVec Ideal S64x128 .f32) (ix2 b s)
      = Cert.Spec.msk (x2 (ix2 b 0)) (n * 128 + s.val) := by
  refine (sitofp_bit _).trans ?_
  unfold Cert.Spec.msk
  exact congrArg (FloatOps.uitofp (F := Ideal) .f32) (congrArg₂ (IntOp.cmpi .slt) (pos_apply n b s) (lenCol_apply x2 b s))

/-- One point's update at entry (b, e, r). -/
theorem pay2_0_apply (i : grid0.Coords) (x2 : Vec Ideal S64x1 .i32) (x0 : Vec Ideal S64x128x256 .f32) (x1 : Vec Ideal S64x128x64 .f32)
    (xs : Vec Ideal S64x256x64 .f32) (b : Fin 64) (e : Fin 256) (r : Fin 64) :
    k0_pay2 (F := Ideal) i x2 x0 x1 xs (ix3 b e r)
      = xs (ix3 b e r) + ∑ s : Fin 128, (x0 (ix3 b s e) * Cert.Spec.msk (x2 (ix2 b 0)) ((i 1).val * 128 + s.val)) * x1 (ix3 b s r) := by
  unfold k0_pay2
  refine (congrFun (shapeCast_self _ _) (ix3 b e r)).trans ?_
  refine (addf_apply _ _ _).trans ?_
  refine congrArg (xs (ix3 b e r) + ·) ?_
  refine (dot_read _ _ b e r).trans ?_
  refine Finset.sum_congr rfl fun s _ => ?_
  refine congrArg (fun m : EReal => x0 (ix3 b s e) * m * x1 (ix3 b s r)) ?_
  exact (maskCol_apply _ b s e).trans (mask_apply (i 1).val x2 b s)

/-- The cast on the way out is the identity. -/
theorem pay3_0_apply (v : Vec Ideal S64x256x64 .f32) (j : S64x256x64.Idx) : k0_pay3 (F := Ideal) v j = v j := rfl

end Cert.KernelIdeal.Val

end
-- ==== Proof.KI.Arr0.lean ====
/-
  The first pallas_call's output array after the call, as one function of the contents the call is entered from: entry
  (b, e, r) is the sum over all 1024 sequence positions s of (fillers[b, s, e] * mask(b, s)) * roles[b, s, r] — the eight
  blocks' partial sums of a row, added in block order from zero, are the whole sum.
-/
import proofs.«122444_j3367254360395_1_alg».proof.Proof.KI.R0Body
import proofs.«122444_j3367254360395_1_alg».proof.Proof.KI.Pay0
import Idealize.ShloMosaic.Lib.Pipeline.Value
import Idealize.ShloMosaic.Lib.ValueIdx
import Idealize.ShloMosaic.Lib.Tactic
import Mathlib.Algebra.BigOperators.Fin
import Mathlib.Algebra.BigOperators.Group.Finset.Basic
import Mathlib.Tactic.FinCases

noncomputable section

namespace Cert.KernelIdeal.Val

open Idealize.ShloMosaic Idealize.ShloMosaic.TcCoe Idealize.ShloMosaic.ValueIdx Idealize.SL.Sem

open Cert.KernelIdeal Cert.KernelIdeal.Gen Cert.KernelIdeal.Frm
open Idealize.ShloMosaic.Pipeline (Dat)

/-! ## What each case's stores leave, as the payloads -/

section pieces
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A first block leaves the update of the reset accumulator: the update's load of the scratch reads the reset back. -/
theorem sout_A_eq (c : Dev nD) (i : grid0.Coords) (a2 : Memref sig .tc .vmem S64x128x256 .f32) (h2 : a2.IsWhole) (a3 : Memref sig .tc .vmem S64x128x64 .f32) (h3 : a3.IsWhole) (a4 : Memref sig .tc .vmem S64x1 .i32) (h4 : a4.IsWhole) (a5 : Memref sig .tc .vmem S64x256x64 .bf16) (h5 : a5.IsWhole) (a6 : Memref sig .tc .vmem S64x256x64 .f32) (h6 : a6.IsWhole) (hc0 : cond0_0 i) (hc1 : ¬cond0_1 i)
    (x0 : Vec F S64x128x256 .f32) (x1 : Vec F S64x128x64 .f32) (x2 : Vec F S64x1 .i32) :
    sout0_A c i a2 h2 a3 h3 a4 h4 a5 h5 a6 h6 hc0 hc1 x0 x1 x2 = k0_pay2 i x2 x0 x1 k0_pay1 := by
  unfold sout0_A
  rw [View.read_writes_eq_canon _ _ _ (scover0_A c i a2 h2 a3 h3 a4 h4 a5 h5 a6 h6 hc0 hc1 x0 x1 x2)]
  unfold kernelRun0_A
  dsimp only
  sl_unfold_words
  rw [View.canon_cons_unit_zero (S := S64x256x64) hz3, View.readCov_unit_zero (S := S64x256x64) _ hz3]
  simp only [View.readAt_eq_ld, h2.read_unread, h3.read_unread, h4.read_unread, View.ld_unit_zero (S := S64x128x256) hz3,
    View.ld_unit_zero (S := S64x128x64) hz3, View.ld_unit_zero (S := S64x1) hz2]

/-- A middle block leaves the update of the accumulator it finds. -/
theorem sout_B_eq (c : Dev nD) (i : grid0.Coords) (a2 : Memref sig .tc .vmem S64x128x256 .f32) (h2 : a2.IsWhole) (a3 : Memref sig .tc .vmem S64x128x64 .f32) (h3 : a3.IsWhole) (a4 : Memref sig .tc .vmem S64x1 .i32) (h4 : a4.IsWhole) (a5 : Memref sig .tc .vmem S64x256x64 .bf16) (h5 : a5.IsWhole) (a6 : Memref sig .tc .vmem S64x256x64 .f32) (h6 : a6.IsWhole) (hc0 : ¬cond0_0 i) (hc1 : ¬cond0_1 i)
    (x0 : Vec F S64x128x256 .f32) (x1 : Vec F S64x128x64 .f32) (x2 : Vec F S64x1 .i32) (xs0 : Vec F S64x256x64 .f32) :
    sout0_B c i a2 h2 a3 h3 a4 h4 a5 h5 a6 h6 hc0 hc1 x0 x1 x2 xs0 = k0_pay2 i x2 x0 x1 xs0 := by
  unfold sout0_B
  rw [View.read_writes_eq_canon _ _ _ (scover0_B c i a2 h2 a3 h3 a4 h4 a5 h5 a6 h6 hc0 hc1 x0 x1 x2 xs0)]
  unfold kernelRun0_B
  dsimp only
  sl_unfold_words
  rw [View.canon_unit_zero (S := S64x256x64) hz3]
  simp only [View.readAt_eq_ld, h2.read_unread, h3.read_unread, h4.read_unread, h6.read_unread, View.ld_unit_zero (S := S64x128x256) hz3,
    View.ld_unit_zero (S := S64x128x64) hz3, View.ld_unit_zero (S := S64x1) hz2, View.ld_unit_zero (S := S64x256x64) hz3]

/-- A last block leaves the same update in the accumulator, -/
theorem sout_C_eq (c : Dev nD) (i : grid0.Coords) (a2 : Memref sig .tc .vmem S64x128x256 .f32) (h2 : a2.IsWhole) (a3 : Memref sig .tc .vmem S64x128x64 .f32) (h3 : a3.IsWhole) (a4 : Memref sig .tc .vmem S64x1 .i32) (h4 : a4.IsWhole) (a5 : Memref sig .tc .vmem S64x256x64 .bf16) (h5 : a5.IsWhole) (a6 : Memref sig .tc .vmem S64x256x64 .f32) (h6 : a6.IsWhole) (hc0 : ¬cond0_0 i) (hc1 : cond0_1 i)
    (x0 : Vec F S64x128x256 .f32) (x1 : Vec F S64x128x64 .f32) (x2 : Vec F S64x1 .i32) (xs0 : Vec F S64x256x64 .f32) :
    sout0_C c i a2 h2 a3 h3 a4 h4 a5 h5 a6 h6 hc0 hc1 x0 x1 x2 xs0 = k0_pay2 i x2 x0 x1 xs0 := by
  unfold sout0_C
  rw [View.read_writes_eq_canon _ _ _ (scover0_C c i a2 h2 a3 h3 a4 h4 a5 h5 a6 h6 hc0 hc1 x0 x1 x2 xs0)]
  unfold kernelRun0_C
  dsimp only
  sl_unfold_words
  rw [View.canon_unit_zero (S := S64x256x64) hz3]
  simp only [View.readAt_eq_ld, h2.read_unread, h3.read_unread, h4.read_unread, h6.read_unread, View.ld_unit_zero (S := S64x128x256) hz3,
    View.ld_unit_zero (S := S64x128x64) hz3, View.ld_unit_zero (S := S64x1) hz2, View.ld_unit_zero (S := S64x256x64) hz3]

/-- and in the output block that update, read back from the accumulator and cast out. -/
theorem out_C_eq (c : Dev nD) (i : grid0.Coords) (a2 : Memref sig .tc .vmem S64x128x256 .f32) (h2 : a2.IsWhole) (a3 : Memref sig .tc .vmem S64x128x64 .f32) (h3 : a3.IsWhole) (a4 : Memref sig .tc .vmem S64x1 .i32) (h4 : a4.IsWhole) (a5 : Memref sig .tc .vmem S64x256x64 .bf16) (h5 : a5.IsWhole) (a6 : Memref sig .tc .vmem S64x256x64 .f32) (h6 : a6.IsWhole) (hc0 : ¬cond0_0 i) (hc1 : cond0_1 i)
    (x0 : Vec F S64x128x256 .f32) (x1 : Vec F S64x128x64 .f32) (x2 : Vec F S64x1 .i32) (xs0 : Vec F S64x256x64 .f32) :
    out0_C_3 c i a2 h2 a3 h3 a4 h4 a5 h5 a6 h6 hc0 hc1 x0 x1 x2 xs0 = k0_pay3 (k0_pay2 i x2 x0 x1 xs0) := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero (S := S64x256x64) hz3, View.readCov_unit_zero (S := S64x256x64) _ hz3]
  simp only [View.readAt_eq_ld, h2.read_unread, h3.read_unread, h4.read_unread, h6.read_unread, View.ld_unit_zero (S := S64x128x256) hz3,
    View.ld_unit_zero (S := S64x128x64) hz3, View.ld_unit_zero (S := S64x1) hz2, View.ld_unit_zero (S := S64x256x64) hz3]

end pieces

variable (V : (c : Dev nD) → (b : Ref sig .tc) → Buf (Elt Ideal) ((c : Thread nD τ).loc b))

/-- The arrays the call finds, named at their literal types. -/
abbrev fillersAt (c : Dev nD) : Vec Ideal S128x1024x256 .f32 := V c main_arg0
abbrev rolesAt (c : Dev nD) : Vec Ideal S128x1024x64 .f32 := V c main_arg1
abbrev lengthsAt (c : Dev nD) : Vec Ideal S128x1 .i32 := V c main_v0

/-- The masked outer products summed over the sequence, of the arrays the call finds. -/
def T0 (c : Dev nD) : Vec Ideal S128x256x64 .bf16 :=
  fun j => ∑ s : Fin 1024, (fillersAt V c (ix3 (j 0) s (j 1)) * Cert.Spec.msk (lengthsAt V c (ix2 (j 0) 0)) s.val) * rolesAt V c (ix3 (j 0) s (j 2))

/-! ## A window's block is its array at the shifted entry -/

/-- The blocks the body finds at point `t`, named at their literal types. -/
abbrev fblk (c : Dev nD) (t : Fin cfg0.N) : Vec Ideal S64x128x256 .f32 := iblk0 V c 0 t
abbrev rblk (c : Dev nD) (t : Fin cfg0.N) : Vec Ideal S64x128x64 .f32 := iblk0 V c 1 t
abbrev lblk (c : Dev nD) (t : Fin cfg0.N) : Vec Ideal S64x1 .i32 := iblk0 V c 2 t

/-- The printed index maps, decided once over the grid: point `t` is batch half `t / 8` and sequence block `t % 8`. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = t.val % 8 ∧ win0_1.index t (2 : Fin 3) = 0
    ∧ win0_2.index t (0 : Fin 2) = t.val / 8 ∧ win0_2.index t (1 : Fin 2) = 0
    ∧ win0_3.index t (0 : Fin 3) = t.val / 8 ∧ win0_3.index t (1 : Fin 3) = 0 ∧ win0_3.index t (2 : Fin 3) = 0
    ∧ ((grid0.coords t) 1).val = t.val % 8 :=
  (by decide +kernel : ∀ t : Fin grid0.N, _)

theorem lt16 (t : Fin cfg0.N) : t.val < 16 := lt_of_lt_of_eq t.isLt N_0

/-- The batch row that row `b` of point `t`'s blocks is, and the sequence position that position `s` of them is. -/
def rowOf (t : Fin cfg0.N) (b : Fin 64) : Fin 128 := ⟨64 * (t.val / 8) + b.val, by have := lt16 t; have := b.isLt; omega⟩
def seqOf (t : Fin cfg0.N) (s : Fin 128) : Fin 1024 := ⟨128 * (t.val % 8) + s.val, by have := s.isLt; omega⟩

theorem fblk_apply (c : Dev nD) (t : Fin cfg0.N) (b : Fin 64) (s : Fin 128) (e : Fin 256) :
    fblk V c t (ix3 b s e) = fillersAt V c (ix3 (rowOf t b) (seqOf t s) e) := by
  obtain ⟨e0, e1, e2, -⟩ := idx_facts t
  show V c main_arg0 (((cfg0.win 0).blk t).view.emb (ix3 b s e)) = V c main_arg0 (ix3 (rowOf t b) (seqOf t s) e)
  congr 1
  funext a; apply Fin.ext
  match a with
  | ⟨0, _⟩ => show win0_0.index t (0 : Fin 3) * 64 + 1 * b.val = 64 * (t.val / 8) + b.val; omega
  | ⟨1, _⟩ => show win0_0.index t (1 : Fin 3) * 128 + 1 * s.val = 128 * (t.val % 8) + s.val; omega
  | ⟨2, _⟩ => show win0_0.index t (2 : Fin 3) * 256 + 1 * e.val = e.val; omega

theorem rblk_apply (c : Dev nD) (t : Fin cfg0.N) (b : Fin 64) (s : Fin 128) (r : Fin 64) :
    rblk V c t (ix3 b s r) = rolesAt V c (ix3 (rowOf t b) (seqOf t s) r) := by
  obtain ⟨-, -, -, e0, e1, e2, -⟩ := idx_facts t
  show V c main_arg1 (((cfg0.win 1).blk t).view.emb (ix3 b s r)) = V c main_arg1 (ix3 (rowOf t b) (seqOf t s) r)
  congr 1
  funext a; apply Fin.ext
  match a with
  | ⟨0, _⟩ => show win0_1.index t (0 : Fin 3) * 64 + 1 * b.val = 64 * (t.val / 8) + b.val; omega
  | ⟨1, _⟩ => show win0_1.index t (1 : Fin 3) * 128 + 1 * s.val = 128 * (t.val % 8) + s.val; omega
  | ⟨2, _⟩ => show win0_1.index t (2 : Fin 3) * 64 + 1 * r.val = r.val; omega

theorem lblk_apply (c : Dev nD) (t : Fin cfg0.N) (b : Fin 64) :
    lblk V c t (ix2 b 0) = lengthsAt V c (ix2 (rowOf t b) 0) := by
  obtain ⟨-, -, -, -, -, -, e0, e1, -⟩ := idx_facts t
  show V c main_v0 (((cfg0.win 2).blk t).view.emb (ix2 b 0)) = V c main_v0 (ix2 (rowOf t b) 0)
  congr 1
  funext a; apply Fin.ext
  match a with
  | ⟨0, _⟩ => show win0_2.index t (0 : Fin 2) * 64 + 1 * b.val = 64 * (t.val / 8) + b.val; omega
  | ⟨1, _⟩ => show win0_2.index t (1 : Fin 2) * 1 + 1 * 0 = 0; omega

/-! ## The accumulator after each point -/

/-- One sequence position's term of batch row `row`'s sum at (e, r); zero past the end of the sequence. -/
def term (c : Dev nD) (row : Fin 128) (e : Fin 256) (r : Fin 64) (s : ℕ) : EReal :=
  if h : s < 1024 then (fillersAt V c (ix3 row ⟨s, h⟩ e) * Cert.Spec.msk (lengthsAt V c (ix2 row 0)) s) * rolesAt V c (ix3 row ⟨s, h⟩ r) else 0

/-- What point `t` adds at (b, e, r): the 128 terms of its sequence block, of its batch row. -/
theorem upd_eq (c : Dev nD) (t : Fin cfg0.N) (b : Fin 64) (e : Fin 256) (r : Fin 64) :
    (∑ s : Fin 128, (fblk V c t (ix3 b s e) * Cert.Spec.msk (lblk V c t (ix2 b 0)) (((grid0.coords t) 1).val * 128 + s.val)) * rblk V c t (ix3 b s r))
      = ∑ s ∈ Finset.range 128, term V c (rowOf t b) e r (128 * (t.val % 8) + s) := by
  obtain ⟨-, -, -, -, -, -, -, -, -, -, -, ec⟩ := idx_facts t
  rw [Finset.sum_range]
  refine Finset.sum_congr rfl fun s _ => ?_
  have hs : 128 * (t.val % 8) + s.val < 1024 := by have := s.isLt; omega
  rw [fblk_apply, rblk_apply, lblk_apply, ec, Nat.mul_comm (t.val % 8) 128]
  unfold term
  rw [dif_pos hs]
  rfl

/-- After point `n` the accumulator holds, at (b, e, r), the terms of the point's batch row over the sequence positions
    of the blocks up to the point's own. -/
theorem acc_eq (c : Dev nD) (n : ℕ) : ∀ (hn : n < cfg0.N) (b : Fin 64) (e : Fin 256) (r : Fin 64),
    (outsAt0 V c n hn).2 (ix3 b e r) = ∑ s ∈ Finset.range (128 * (n % 8 + 1)), term V c (rowOf ⟨n, hn⟩ b) e r s := by
  induction n using Nat.strong_induction_on with
  | _ n ih =>
    intro hn b e r
    have hN : cfg0.N = 16 := N_0
    by_cases h0 : n % 8 = 0
    · have h1 : ¬n % 8 = 7 := by omega
      rw [outsAt0_A V c ⟨n, hn⟩ h0 h1]
      dsimp only
      refine (congrFun (sout_A_eq (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0 (Memref.isWhole_whole _) ((hcond0_0 ⟨n, hn⟩).mpr h0) (fun h => h1 ((hcond0_1 ⟨n, hn⟩).mp h)) (fblk V c ⟨n, hn⟩) (rblk V c ⟨n, hn⟩) (lblk V c ⟨n, hn⟩)) (ix3 b e r)).trans ?_
      rw [pay2_0_apply, pay1_0_apply, zero_add, upd_eq V c ⟨n, hn⟩ b e r]
      dsimp only
      rw [h0]
      simp only [Nat.mul_zero, Nat.zero_add, Nat.mul_one]
    · have hpos : 0 < n := Nat.pos_of_ne_zero (fun hz => h0 (by rw [hz]))
      have hn' : n - 1 < cfg0.N := by omega
      have ihp := ih (n - 1) (by omega) hn' b e r
      have hrow : rowOf ⟨n - 1, hn'⟩ b = rowOf ⟨n, hn⟩ b := Fin.ext (by show 64 * ((n - 1) / 8) + b.val = 64 * (n / 8) + b.val; omega)
      have hk : 128 * ((n - 1) % 8 + 1) = 128 * (n % 8) := by omega
      have hk2 : 128 * (n % 8 + 1) = 128 * (n % 8) + 128 := by omega
      by_cases h1 : n % 8 = 7
      · rw [outsAt0_C V c ⟨n, hn⟩ h0 h1]
        dsimp only
        refine (congrFun (sout_C_eq (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0 (Memref.isWhole_whole _) (fun h => h0 ((hcond0_0 ⟨n, hn⟩).mp h)) ((hcond0_1 ⟨n, hn⟩).mpr h1) (fblk V c ⟨n, hn⟩) (rblk V c ⟨n, hn⟩) (lblk V c ⟨n, hn⟩) (outsAt0 V c (n - 1) hn').2) (ix3 b e r)).trans ?_
        rw [pay2_0_apply, ihp, upd_eq V c ⟨n, hn⟩ b e r]
        dsimp only
        rw [hrow, hk, hk2, Finset.sum_range_add]
      · rw [outsAt0_B V c ⟨n, hn⟩ h0 h1]
        dsimp only
        refine (congrFun (sout_B_eq (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0 (Memref.isWhole_whole _) (fun h => h0 ((hcond0_0 ⟨n, hn⟩).mp h)) (fun h => h1 ((hcond0_1 ⟨n, hn⟩).mp h)) (fblk V c ⟨n, hn⟩) (rblk V c ⟨n, hn⟩) (lblk V c ⟨n, hn⟩) (outsAt0 V c (n - 1) hn').2) (ix3 b e r)).trans ?_
        rw [pay2_0_apply, ihp, upd_eq V c ⟨n, hn⟩ b e r]
        dsimp only
        rw [hrow, hk, hk2, Finset.sum_range_add]

/-! ## What is written back, and the whole array -/

/-- The specification's entry is the sum of the row's 1024 terms. -/
theorem T0_apply (c : Dev nD) (row : Fin 128) (e : Fin 256) (r : Fin 64) :
    T0 V c (ix3 row e r) = ∑ s ∈ Finset.range 1024, term V c row e r s := by
  rw [Finset.sum_range]
  unfold T0
  refine Finset.sum_congr rfl fun s _ => ?_
  unfold term
  rw [dif_pos s.isLt]

/-- At a last sequence block the output block holds the accumulator cast out: the whole row's sum. -/
theorem out_last (c : Dev nD) (t : Fin cfg0.N) (h7 : t.val % 8 = 7) (b : Fin 64) (e : Fin 256) (r : Fin 64) :
    (outsAt0 V c t.val t.isLt).1 (ix3 b e r) = ∑ s ∈ Finset.range 1024, term V c (rowOf t b) e r s := by
  have h0 : ¬t.val % 8 = 0 := by omega
  have hacc := acc_eq V c t.val t.isLt b e r
  rw [outsAt0_C V c t h0 h7] at hacc
  rw [outsAt0_C V c t h0 h7]
  dsimp only at hacc
  dsimp only
  refine (congrFun (out_C_eq (F := Ideal) c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h7) (fblk V c t) (rblk V c t) (lblk V c t) (outsAt0 V c (t.val - 1) (Nat.lt_of_le_of_lt (Nat.sub_le _ _) t.isLt)).2) (ix3 b e r)).trans ?_
  rw [pay3_0_apply]
  refine (congrFun (sout_C_eq (F := Ideal) c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h7) (fblk V c t) (rblk V c t) (lblk V c t) (outsAt0 V c (t.val - 1) (Nat.lt_of_le_of_lt (Nat.sub_le _ _) t.isLt)).2) (ix3 b e r)).symm.trans ?_
  rw [hacc, h7]

/-- What a writing-back point writes is the specification read through the point's block. -/
theorem flushed_eq (c : Dev nD) (t : Fin cfg0.N) (hf : (cfg0.win 3).flush t = true) :
    (dat0 (F := Ideal) V c).flushed 3 t = ((cfg0.win 3).blk t).view.read (Elt Ideal) (T0 V c) := by
  have h7 : t.val % 8 = 7 := (flush0_3 t).mp hf
  obtain ⟨-, -, -, -, -, -, -, -, e0, e1, e2, -⟩ := idx_facts t
  show (cfg0.win 3).cut (grid0.coords t) ((dat0 (F := Ideal) V c).after 3 t) = _
  rw [after0_3]
  refine funext fun (j : S64x256x64.Idx) => ?_
  obtain ⟨b, e, r, rfl⟩ : ∃ b e r, j = ix3 b e r := ⟨j 0, j 1, j 2, eq_ix3 j⟩
  show (outsAt0 V c t.val t.isLt).1 (ix3 b e r) = T0 V c (((cfg0.win 3).blk t).view.emb (ix3 b e r))
  have hemb : ((cfg0.win 3).blk t).view.emb (ix3 b e r) = ix3 (rowOf t b) e r := by
    funext a; apply Fin.ext
    match a with
    | ⟨0, _⟩ => show win0_3.index t (0 : Fin 3) * 64 + 1 * b.val = 64 * (t.val / 8) + b.val; omega
    | ⟨1, _⟩ => show win0_3.index t (1 : Fin 3) * 256 + 1 * e.val = e.val; omega
    | ⟨2, _⟩ => show win0_3.index t (2 : Fin 3) * 64 + 1 * r.val = r.val; omega
  rw [hemb, T0_apply, out_last V c t h7 b e r]

/-- An index of the array is in point `t`'s block iff each coordinate is in the block's range on its axis. -/
theorem mem_blk (t : Fin cfg0.N) (i : S128x256x64.Idx) :
    i ∈ ((cfg0.win 3).blk t).view.set ↔ ∀ a : Fin 3, win0_3.index t a * S64x256x64.size a ≤ (i a).val ∧ (i a).val < win0_3.index t a * S64x256x64.size a + S64x256x64.size a := by
  show i ∈ ((View.whole main_v1).slice (win0_3.rect t)).set ↔ _
  rw [View.set_slice_whole, Rect.mem_set_unit]
  exact Iff.rfl

/-- The two writing-back points cover the array: the last block of batch half `q` writes rows `64 q .. 64 q + 63`. -/
theorem cover (i : S128x256x64.Idx) : ∃ t : Fin cfg0.N, (cfg0.win 3).flush t = true ∧ i ∈ ((cfg0.win 3).blk t).view.set := by
  have hi0 : (i 0).val < 128 := (i 0).isLt
  have hi1 : (i 1).val < 256 := (i 1).isLt
  have hi2 : (i 2).val < 64 := (i 2).isLt
  have hN : cfg0.N = 16 := N_0
  let t : Fin cfg0.N := ⟨8 * ((i 0).val / 64) + 7, by omega⟩
  have ht : t.val = 8 * ((i 0).val / 64) + 7 := rfl
  obtain ⟨-, -, -, -, -, -, -, -, e0, e1, e2, -⟩ := idx_facts t
  refine ⟨t, (flush0_3 t).mpr (by omega), ?_⟩
  rw [mem_blk]
  intro a
  match a with
  | ⟨0, _⟩ => show win0_3.index t (0 : Fin 3) * 64 ≤ (i 0).val ∧ (i 0).val < win0_3.index t (0 : Fin 3) * 64 + 64; omega
  | ⟨1, _⟩ => show win0_3.index t (1 : Fin 3) * 256 ≤ (i 1).val ∧ (i 1).val < win0_3.index t (1 : Fin 3) * 256 + 256; omega
  | ⟨2, _⟩ => show win0_3.index t (2 : Fin 3) * 64 ≤ (i 2).val ∧ (i 2).val < win0_3.index t (2 : Fin 3) * 64 + 64; omega

theorem arr0 (c : Dev nD) : (dat0 (F := Ideal) V c).arrAt 3 cfg0.N = T0 V c := by
  exact (dat0 (F := Ideal) V c).arrAt_eq_of_cover 3 (T0 V c) (flushed_eq V c) (fun i => cover i)

end Cert.KernelIdeal.Val

end
-- ==== Proof.KI.Pay1.lean ====
/-
  The second pallas_call's arithmetic, read at one entry over the extended reals. One point's update adds, to the
  accumulator entry (b, n), the sum over the block's 2048 flat positions k of tensor[b, k] * weights[n, k]; the reset value
  is zero; what goes out is the accumulator plus the bias row.
-/
import proofs.«122444_j3367254360395_1_alg».proof.Proof.Gen.KernelIdeal.Skeleton
import proofs.«122444_j3367254360395_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Idealize.ShloMosaic Idealize.ShloMosaic.TcCoe Idealize.ShloMosaic.ValueIdx Idealize.SL.Sem

open Cert.KernelIdeal Cert.KernelIdeal.Gen

/-- The reset value: zero everywhere. -/
theorem pay1_1_apply (j : S128x512.Idx) : k1_pay1 (F := Ideal) j = 0 := by
  unfold k1_pay1
  rw [shapeCast_self]
  exact Ideal.ofBits_zero_f32

/-! The contraction's operand indices, one axis at a time. The left operand [128, 2048] is read at (row of the output,
    contraction position); the right operand [512, 2048] is contracted on its axis 1 too, so its axis 0 is the free one
    and reads the output's column. -/

private theorem lhs_mm_0 (i : S128x512.Idx) (q : dot_S128x2048_S512x2048_S128x512_1_1_0_0_n_n.contr.Idx) :
    (dot_S128x2048_S512x2048_S128x512_1_1_0_0_n_n.lhsIdx i q 0).val = (i 0).val := by
  unfold DotDims.lhsIdx
  rw [dif_neg (show ¬(0 : Fin S128x2048.rank) ∈ dot_S128x2048_S512x2048_S128x512_1_1_0_0_n_n.lhsBatch by decide), dif_pos (show (0 : Fin S128x2048.rank) ∈ dot_S128x2048_S512x2048_S128x512_1_1_0_0_n_n.lhsNonContracting by decide)]
  rfl

private theorem lhs_mm_1 (i : S128x512.Idx) (q : dot_S128x2048_S512x2048_S128x512_1_1_0_0_n_n.contr.Idx) :
    (dot_S128x2048_S512x2048_S128x512_1_1_0_0_n_n.lhsIdx i q 1).val = (q ⟨0, by decide⟩).val :=
  dot_S128x2048_S512x2048_S128x512_1_1_0_0_n_n.lhsIdx_val_of_single rfl i q

private theorem rhs_mm_0 (i : S128x512.Idx) (q : dot_S128x2048_S512x2048_S128x512_1_1_0_0_n_n.contr.Idx) :
    (dot_S128x2048_S512x2048_S128x512_1_1_0_0_n_n.rhsIdx i q 0).val = (i 1).val := by
  unfold DotDims.rhsIdx
  rw [dif_neg (show ¬(0 : Fin S512x2048.rank) ∈ dot_S128x2048_S512x2048_S128x512_1_1_0_0_n_n.rhsBatch by decide), dif_pos (show (0 : Fin S512x2048.rank) ∈ dot_S128x2048_S512x2048_S128x512_1_1_0_0_n_n.rhsNonContracting by decide)]
  rfl

private theorem rhs_mm_1 (i : S128x512.Idx) (q : dot_S128x2048_S512x2048_S128x512_1_1_0_0_n_n.contr.Idx) :
    (dot_S128x2048_S512x2048_S128x512_1_1_0_0_n_n.rhsIdx i q 1).val = (q ⟨0, by decide⟩).val :=
  dot_S128x2048_S512x2048_S128x512_1_1_0_0_n_n.rhsIdx_val_of_single rfl i q

/-- The product into the zero accumulator, at entry (b, n): the sum over the 2048 contraction positions of the left
    operand's row b times the right operand's row n. -/
private theorem mm_apply (l : FVec Ideal S128x2048 .bf16) (r : FVec Ideal S512x2048 .bf16) (b : Fin 128) (n : Fin 512) :
    matmul dot_S128x2048_S512x2048_S128x512_1_1_0_0_n_n none l r (constant (F := Ideal) S128x512 .f32 0x00000000#32) (ix2 b n)
      = ∑ k : Fin 2048, l (ix2 b k) * r (ix2 n k) := by
  refine (Ideal.matmul_constant_zero_apply dot_S128x2048_S512x2048_S128x512_1_1_0_0_n_n none l r (ix2 b n)).trans ?_
  rw [← Equiv.sum_comp (ValueIdx.contrEquiv1 dot_S128x2048_S512x2048_S128x512_1_1_0_0_n_n 2048 rfl rfl).symm]
  refine Finset.sum_congr rfl fun k _ => ?_
  have hk := ValueIdx.contrEquiv1_symm_val dot_S128x2048_S512x2048_S128x512_1_1_0_0_n_n 2048 rfl rfl k
  have el : dot_S128x2048_S512x2048_S128x512_1_1_0_0_n_n.lhsIdx (ix2 b n) ((ValueIdx.contrEquiv1 dot_S128x2048_S512x2048_S128x512_1_1_0_0_n_n 2048 rfl rfl).symm k) = ix2 b k := funext fun a => Fin.ext (by
    match a with
    | ⟨0, _⟩ => exact lhs_mm_0 _ _
    | ⟨1, _⟩ => exact (lhs_mm_1 _ _).trans hk)
  have er : dot_S128x2048_S512x2048_S128x512_1_1_0_0_n_n.rhsIdx (ix2 b n) ((ValueIdx.contrEquiv1 dot_S128x2048_S512x2048_S128x512_1_1_0_0_n_n 2048 rfl rfl).symm k) = ix2 n k := funext fun a => Fin.ext (by
    match a with
    | ⟨0, _⟩ => exact rhs_mm_0 _ _
    | ⟨1, _⟩ => exact (rhs_mm_1 _ _).trans hk)
  rw [el, er]

/-- One point's update at entry (b, n). -/
theorem pay2_1_apply (x0 : Vec Ideal S128x2048 .bf16) (x1 : Vec Ideal S512x2048 .f32) (xs : Vec Ideal S128x512 .f32) (b : Fin 128) (n : Fin 512) :
    k1_pay2 (F := Ideal) x0 x1 xs (ix2 b n) = xs (ix2 b n) + ∑ k : Fin 2048, x0 (ix2 b k) * x1 (ix2 n k) := by
  unfold k1_pay2
  rw [shapeCast_self, shapeCast_self]
  refine (addf_apply _ _ _).trans ?_
  refine congrArg (xs (ix2 b n) + ·) ?_
  exact mm_apply x0 (truncf .bf16 x1 bitsLt_bf16_f32) b n

/-- What goes out at entry (b, n): the accumulator plus the bias row's entry n. -/
theorem pay3_1_apply (v : Vec Ideal S128x512 .f32) (bias : Vec Ideal S1x512 .f32) (b : Fin 128) (n : Fin 512) :
    k1_pay3 (F := Ideal) v bias (ix2 b n) = v (ix2 b n) + bias (ix2 0 n) := by
  unfold k1_pay3
  rw [shapeCast_self]
  refine (addf_apply _ _ _).trans ?_
  refine congrArg (v (ix2 b n) + ·) ?_
  exact broadcastTo_apply bias broadcasts_S1x512_S128x512 (ix2 b n) (ix2 0 n) (fun a => match a with
    | ⟨0, _⟩ => by show (0 : Nat) = if (1 : Nat) = 1 then 0 else b.val; rw [if_pos rfl]
    | ⟨1, _⟩ => by show n.val = if (512 : Nat) = 1 then 0 else n.val; rw [if_neg (by decide)])

end Cert.KernelIdeal.Val

end
-- ==== Proof.KI.Arr1.lean ====
/-
  The second pallas_call's output array after the call, as one function of the contents the call is entered from: entry
  (b, n) is the sum over all 16384 flat positions k of tensor[b, k] * weights[n, k], plus bias[n] — the eight blocks'
  partial sums of a row, added in block order from zero, are the whole sum.
-/
import proofs.«122444_j3367254360395_1_alg».proof.Proof.KI.R1Body
import proofs.«122444_j3367254360395_1_alg».proof.Proof.KI.Pay1
import Idealize.ShloMosaic.Lib.Pipeline.Value
import Idealize.ShloMosaic.Lib.Tactic
import Mathlib.Algebra.BigOperators.Group.Finset.Basic
import Mathlib.Data.Fintype.BigOperators

set_option maxRecDepth 16384

noncomputable section

namespace Cert.KernelIdeal.Val

open Idealize.ShloMosaic Idealize.ShloMosaic.TcCoe Idealize.ShloMosaic.ValueIdx Idealize.SL.Sem

open Cert.KernelIdeal Cert.KernelIdeal.Gen Cert.KernelIdeal.Frm
open Idealize.ShloMosaic.Pipeline (Dat)
open Idealize.ShloMosaic.Tactic

variable (V : (c : Dev nD) → (b : Ref sig .tc) → Buf (Elt Ideal) ((c : Thread nD τ).loc b))

/-- The arrays the call finds, named at their literal types. -/
abbrev tensorAt (c : Dev nD) : Vec Ideal S128x16384 .bf16 := V c main_v2
abbrev weightsAt (c : Dev nD) : Vec Ideal S1024x16384 .f32 := V c main_arg3
abbrev biasAt (c : Dev nD) : Vec Ideal S1x1024 .f32 := V c main_v3

/-- The flattened tensor against the transposed weights, plus the bias, of the arrays the call finds. -/
def T1 (c : Dev nD) : Vec Ideal S128x1024 .f32 :=
  fun j => (∑ k : Fin 16384, tensorAt V c (ix2 (j 0) k) * weightsAt V c (ix2 (j 1) k)) + biasAt V c (ix2 0 (j 1))

namespace R1

/-! ## What each case's stores leave, read back -/

section
variable {F : FTy → Type} [FloatOps F]

theorem hz : (![0, 0] : Fin 2 → Nat) = fun _ => 0 := funext fun a => by fin_cases a <;> rfl

/-- A first block leaves, in the accumulator, the update of the reset value: the reset is stored, read back, and this
    block's products are added to it. -/
theorem sout1_A_eq (c : Dev nD) (i : grid1.Coords) (arg2 : Memref sig .tc .vmem S128x2048 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : cond1_0 i) (hc1 : ¬cond1_1 i)
    (x0 : Vec F S128x2048 .bf16) (x1 : Vec F S512x2048 .f32) (x2 : Vec F S1x512 .f32) :
    sout1_A c i arg2 harg2 arg3 harg3 arg4 harg4 arg5 harg5 arg6 harg6 hc0 hc1 x0 x1 x2 = k1_pay2 x0 x1 (k1_pay1 (F := F)) := by
  unfold sout1_A
  rw [View.read_writes_eq_canon _ _ _ (scover1_A c i arg2 harg2 arg3 harg3 arg4 harg4 arg5 harg5 arg6 harg6 hc0 hc1 x0 x1 x2)]
  unfold kernelRun1_A
  dsimp only
  sl_unfold_words
  rw [View.canon_cons_unit_zero (S := S128x512) hz, View.readCov_unit_zero (S := S128x512) _ hz]
  simp only [View.readAt_eq_ld, harg2.read_unread, harg3.read_unread, View.ld_unit_zero (S := S128x2048) hz, View.ld_unit_zero (S := S512x2048) hz, shapeCast_self]

/-- A middle block leaves, in the accumulator, the update of what it found there. -/
theorem sout1_B_eq (c : Dev nD) (i : grid1.Coords) (arg2 : Memref sig .tc .vmem S128x2048 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : ¬cond1_0 i) (hc1 : ¬cond1_1 i)
    (x0 : Vec F S128x2048 .bf16) (x1 : Vec F S512x2048 .f32) (x2 : Vec F S1x512 .f32) (xs0 : Vec F S128x512 .f32) :
    sout1_B c i arg2 harg2 arg3 harg3 arg4 harg4 arg5 harg5 arg6 harg6 hc0 hc1 x0 x1 x2 xs0 = k1_pay2 x0 x1 xs0 := by
  unfold sout1_B
  rw [View.read_writes_eq_canon _ _ _ (scover1_B c i arg2 harg2 arg3 harg3 arg4 harg4 arg5 harg5 arg6 harg6 hc0 hc1 x0 x1 x2 xs0)]
  unfold kernelRun1_B
  dsimp only
  sl_unfold_words
  rw [View.canon_unit_zero (S := S128x512) hz]
  simp only [View.readAt_eq_ld, harg2.read_unread, harg3.read_unread, harg6.read_unread, View.ld_unit_zero (S := S128x2048) hz, View.ld_unit_zero (S := S512x2048) hz, View.ld_unit_zero (S := S128x512) hz, shapeCast_self]

/-- A last block leaves the same in the accumulator, -/
theorem sout1_C_eq (c : Dev nD) (i : grid1.Coords) (arg2 : Memref sig .tc .vmem S128x2048 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : ¬cond1_0 i) (hc1 : cond1_1 i)
    (x0 : Vec F S128x2048 .bf16) (x1 : Vec F S512x2048 .f32) (x2 : Vec F S1x512 .f32) (xs0 : Vec F S128x512 .f32) :
    sout1_C c i arg2 harg2 arg3 harg3 arg4 harg4 arg5 harg5 arg6 harg6 hc0 hc1 x0 x1 x2 xs0 = k1_pay2 x0 x1 xs0 := by
  unfold sout1_C
  rw [View.read_writes_eq_canon _ _ _ (scover1_C c i arg2 harg2 arg3 harg3 arg4 harg4 arg5 harg5 arg6 harg6 hc0 hc1 x0 x1 x2 xs0)]
  unfold kernelRun1_C
  dsimp only
  sl_unfold_words
  rw [View.canon_unit_zero (S := S128x512) hz]
  simp only [View.readAt_eq_ld, harg2.read_unread, harg3.read_unread, harg6.read_unread, View.ld_unit_zero (S := S128x2048) hz, View.ld_unit_zero (S := S512x2048) hz, View.ld_unit_zero (S := S128x512) hz, shapeCast_self]

/-- and, in the output buffer, that accumulator read back plus the bias row. -/
theorem out1_C_3_eq (c : Dev nD) (i : grid1.Coords) (arg2 : Memref sig .tc .vmem S128x2048 .bf16) (harg2 : arg2.IsWhole) (arg3 : Memref sig .tc .vmem S512x2048 .f32) (harg3 : arg3.IsWhole) (arg4 : Memref sig .tc .vmem S1x512 .f32) (harg4 : arg4.IsWhole) (arg5 : Memref sig .tc .vmem S128x512 .f32) (harg5 : arg5.IsWhole) (arg6 : Memref sig .tc .vmem S128x512 .f32) (harg6 : arg6.IsWhole) (hc0 : ¬cond1_0 i) (hc1 : cond1_1 i)
    (x0 : Vec F S128x2048 .bf16) (x1 : Vec F S512x2048 .f32) (x2 : Vec F S1x512 .f32) (xs0 : Vec F S128x512 .f32) :
    out1_C_3 c i arg2 harg2 arg3 harg3 arg4 harg4 arg5 harg5 arg6 harg6 hc0 hc1 x0 x1 x2 xs0 = k1_pay3 (k1_pay2 x0 x1 xs0) x2 := by
  unfold out1_C_3
  rw [View.read_writes_eq_canon _ _ _ (cover1_C_3 c i arg2 harg2 arg3 harg3 arg4 harg4 arg5 harg5 arg6 harg6 hc0 hc1 x0 x1 x2 xs0)]
  unfold kernelRun1_C
  dsimp only
  sl_unfold_words
  rw [View.canon_unit_zero (S := S128x512) hz]
  simp only [View.readAt_eq_ld, harg2.read_unread, harg3.read_unread, harg4.read_unread, harg6.read_unread, View.readCov_unit_zero (S := S128x512) _ hz, View.ld_unit_zero (S := S128x2048) hz, View.ld_unit_zero (S := S512x2048) hz, View.ld_unit_zero (S := S128x512) hz, View.ld_unit_zero (S := S1x512) hz, shapeCast_self]
end

/-! ## A window's block at an entry is its array at the shifted entry -/

/-- The blocks a point works on, named at their literal types. -/
abbrev tblk (c : Dev nD) (t : Fin cfg1.N) : Vec Ideal S128x2048 .bf16 := iblk1 V c 0 t
abbrev wblk (c : Dev nD) (t : Fin cfg1.N) : Vec Ideal S512x2048 .f32 := iblk1 V c 1 t
abbrev bblk (c : Dev nD) (t : Fin cfg1.N) : Vec Ideal S1x512 .f32 := iblk1 V c 2 t

/-- The printed index maps, decided once over the grid: point t is at column half t / 8 and contraction block t % 8. -/
theorem idx1 : ∀ t : Fin cfg1.N,
    win1_0.index t (0 : Fin 2) = 0 ∧ win1_0.index t (1 : Fin 2) = t.val % 8
    ∧ win1_1.index t (0 : Fin 2) = t.val / 8 ∧ win1_1.index t (1 : Fin 2) = t.val % 8
    ∧ win1_2.index t (0 : Fin 2) = 0 ∧ win1_2.index t (1 : Fin 2) = t.val / 8
    ∧ win1_3.index t (0 : Fin 2) = 0 ∧ win1_3.index t (1 : Fin 2) = t.val / 8 :=
  (by decide +kernel : ∀ t : Fin grid1.N, _)

/-- The arrays' entries as functions of every pair of naturals (zero off the array: those values are never read), so
    that sums over a range of flat positions can be split and joined. -/
def tRow (c : Dev nD) (r k : ℕ) : EReal := if h : r < 128 ∧ k < 16384 then tensorAt V c (ix2 ⟨r, h.1⟩ ⟨k, h.2⟩) else 0
def wRow (c : Dev nD) (r k : ℕ) : EReal := if h : r < 1024 ∧ k < 16384 then weightsAt V c (ix2 ⟨r, h.1⟩ ⟨k, h.2⟩) else 0
def bRow (c : Dev nD) (r : ℕ) : EReal := if h : r < 1024 then biasAt V c (ix2 0 ⟨r, h⟩) else 0

theorem tblk_apply (c : Dev nD) (t : Fin cfg1.N) (b : Fin 128) (k : Fin 2048) :
    tblk V c t (ix2 b k) = tRow V c b.val (2048 * (t.val % 8) + k.val) := by
  have hb := b.isLt
  have hk := k.isLt
  have h : b.val < 128 ∧ 2048 * (t.val % 8) + k.val < 16384 := by omega
  unfold tRow
  rw [dif_pos h]
  show V c main_v2 (((cfg1.win 0).blk t).view.emb (ix2 b k)) = V c main_v2 (ix2 ⟨b.val, h.1⟩ ⟨2048 * (t.val % 8) + k.val, h.2⟩)
  refine congrArg (V c main_v2) (funext fun a => Fin.ext ?_)
  obtain ⟨e0, e1, -⟩ := idx1 t
  match a with
  | ⟨0, _⟩ => show win1_0.index t (0 : Fin 2) * 128 + 1 * b.val = b.val; rw [e0]; omega
  | ⟨1, _⟩ => show win1_0.index t (1 : Fin 2) * 2048 + 1 * k.val = 2048 * (t.val % 8) + k.val; rw [e1]; omega

theorem wblk_apply (c : Dev nD) (t : Fin cfg1.N) (n : Fin 512) (k : Fin 2048) :
    wblk V c t (ix2 n k) = wRow V c (512 * (t.val / 8) + n.val) (2048 * (t.val % 8) + k.val) := by
  have hn := n.isLt
  have hk := k.isLt
  have ht : t.val < 16 := lt_of_lt_of_eq t.isLt (show cfg1.N = 16 from N_1)
  have h : 512 * (t.val / 8) + n.val < 1024 ∧ 2048 * (t.val % 8) + k.val < 16384 := by omega
  unfold wRow
  rw [dif_pos h]
  show V c main_arg3 (((cfg1.win 1).blk t).view.emb (ix2 n k)) = V c main_arg3 (ix2 ⟨512 * (t.val / 8) + n.val, h.1⟩ ⟨2048 * (t.val % 8) + k.val, h.2⟩)
  refine congrArg (V c main_arg3) (funext fun a => Fin.ext ?_)
  obtain ⟨-, -, e0, e1, -⟩ := idx1 t
  match a with
  | ⟨0, _⟩ => show win1_1.index t (0 : Fin 2) * 512 + 1 * n.val = 512 * (t.val / 8) + n.val; rw [e0]; omega
  | ⟨1, _⟩ => show win1_1.index t (1 : Fin 2) * 2048 + 1 * k.val = 2048 * (t.val % 8) + k.val; rw [e1]; omega

theorem bblk_apply (c : Dev nD) (t : Fin cfg1.N) (n : Fin 512) :
    bblk V c t (ix2 0 n) = bRow V c (512 * (t.val / 8) + n.val) := by
  have hn := n.isLt
  have ht : t.val < 16 := lt_of_lt_of_eq t.isLt (show cfg1.N = 16 from N_1)
  have h : 512 * (t.val / 8) + n.val < 1024 := by omega
  unfold bRow
  rw [dif_pos h]
  show V c main_v3 (((cfg1.win 2).blk t).view.emb (ix2 0 n)) = V c main_v3 (ix2 0 ⟨512 * (t.val / 8) + n.val, h⟩)
  refine congrArg (V c main_v3) (funext fun a => Fin.ext ?_)
  obtain ⟨-, -, -, -, e0, e1, -⟩ := idx1 t
  match a with
  | ⟨0, _⟩ => show win1_2.index t (0 : Fin 2) * 1 + 1 * 0 = 0; rw [e0]
  | ⟨1, _⟩ => show win1_2.index t (1 : Fin 2) * 512 + 1 * n.val = 512 * (t.val / 8) + n.val; rw [e1]; omega

/-! ## The accumulator point by point -/

/-- At a first contraction block the accumulator is left at the update of the reset value, -/
theorem acc_first (c : Dev nD) (t : Fin cfg1.N) (h0 : t.val % 8 = 0) :
    (outsAt1 V c t.val t.isLt).2 = k1_pay2 (tblk V c t) (wblk V c t) (k1_pay1 (F := Ideal)) := by
  have h1 : ¬t.val % 8 = 7 := by omega
  rw [outsAt1_A V c t h0 h1]
  dsimp only
  exact sout1_A_eq (F := Ideal) c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)

/-- at a later one at the update of what the point before left. -/
theorem acc_later (c : Dev nD) (t : Fin cfg1.N) (h0 : ¬t.val % 8 = 0) :
    (outsAt1 V c t.val t.isLt).2 = k1_pay2 (tblk V c t) (wblk V c t) (outsAt1 V c (t.val - 1) (Nat.lt_of_le_of_lt (Nat.sub_le _ _) t.isLt)).2 := by
  by_cases h1 : t.val % 8 = 7
  · rw [outsAt1_C V c t h0 h1]
    dsimp only
    exact sout1_C_eq (F := Ideal) c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2
  · rw [outsAt1_B V c t h0 h1]
    dsimp only
    exact sout1_B_eq (F := Ideal) c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2

/-- At a last contraction block the output buffer is left at the accumulator plus the bias row. -/
theorem out_last (c : Dev nD) (t : Fin cfg1.N) (h1 : t.val % 8 = 7) :
    (outsAt1 V c t.val t.isLt).1 = k1_pay3 (outsAt1 V c t.val t.isLt).2 (bblk V c t) := by
  have h0 : ¬t.val % 8 = 0 := by omega
  rw [outsAt1_C V c t h0 h1]
  dsimp only
  rw [out1_C_3_eq (F := Ideal) c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
    sout1_C_eq (F := Ideal) c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2]

/-- One block's products at an entry, as a sum over that block's flat positions. -/
theorem blk_sum (c : Dev nD) (t : Fin cfg1.N) (b : Fin 128) (j : Fin 512) :
    ∑ k : Fin 2048, tblk V c t (ix2 b k) * wblk V c t (ix2 j k)
      = ∑ k ∈ Finset.range 2048, tRow V c b.val (2048 * (t.val % 8) + k) * wRow V c (512 * (t.val / 8) + j.val) (2048 * (t.val % 8) + k) := by
  rw [← Fin.sum_univ_eq_sum_range (fun k => tRow V c b.val (2048 * (t.val % 8) + k) * wRow V c (512 * (t.val / 8) + j.val) (2048 * (t.val % 8) + k)) 2048]
  refine Finset.sum_congr rfl fun k _ => ?_
  rw [tblk_apply, wblk_apply]

/-- After point n the accumulator's entry (b, j) is the sum, over the flat positions of contraction blocks 0 … n % 8, of
    tensor[b, ·] * weights[512 * (n / 8) + j, ·]: by induction on the point. -/
theorem acc_apply (c : Dev nD) : ∀ (n : ℕ) (hn : n < cfg1.N) (b : Fin 128) (j : Fin 512),
    (outsAt1 V c n hn).2 (ix2 b j)
      = ∑ k ∈ Finset.range (2048 * (n % 8 + 1)), tRow V c b.val k * wRow V c (512 * (n / 8) + j.val) k
  | 0, hn, b, j => by
    refine (congrFun (acc_first V c ⟨0, hn⟩ (Nat.zero_mod _)) (ix2 b j)).trans ?_
    rw [pay2_1_apply, pay1_1_apply, blk_sum, zero_add]
    refine Finset.sum_congr rfl fun k _ => ?_
    show tRow V c b.val (2048 * (0 % 8) + k) * wRow V c (512 * (0 / 8) + j.val) (2048 * (0 % 8) + k) = _
    rw [Nat.zero_mod, Nat.mul_zero, Nat.zero_add]
  | n + 1, hn, b, j => by
    have hsplit : 2048 * ((n + 1) % 8 + 1) = 2048 * ((n + 1) % 8) + 2048 := by omega
    rw [hsplit, Finset.sum_range_add]
    by_cases h0 : (n + 1) % 8 = 0
    · refine (congrFun (acc_first V c ⟨n + 1, hn⟩ h0) (ix2 b j)).trans ?_
      rw [pay2_1_apply, pay1_1_apply, blk_sum, zero_add, h0, Nat.mul_zero, Finset.range_zero, Finset.sum_empty, zero_add]
    · refine (congrFun (acc_later V c ⟨n + 1, hn⟩ h0) (ix2 b j)).trans ?_
      rw [pay2_1_apply, blk_sum]
      have ih := acc_apply c n (Nat.lt_of_succ_lt hn) b j
      have e1 : n % 8 + 1 = (n + 1) % 8 := by omega
      have e2 : n / 8 = (n + 1) / 8 := by omega
      rw [e1, e2] at ih
      show (outsAt1 V c n (Nat.lt_of_succ_lt hn)).2 (ix2 b j) + _ = _
      rw [ih]

/-! ## What is written back, and the whole array -/

/-- The specification's entry over the same natural-indexed entries. -/
theorem T1_apply (c : Dev nD) (i : S128x1024.Idx) :
    T1 V c i = (∑ k ∈ Finset.range 16384, tRow V c (i 0).val k * wRow V c (i 1).val k) + bRow V c (i 1).val := by
  have h0 : (i 0).val < 128 := (i 0).isLt
  have h1 : (i 1).val < 1024 := (i 1).isLt
  unfold T1
  rw [← Fin.sum_univ_eq_sum_range (fun k => tRow V c (i 0).val k * wRow V c (i 1).val k) 16384]
  unfold bRow
  rw [dif_pos h1]
  refine congrArg₂ (· + ·) (Finset.sum_congr rfl fun k _ => ?_) rfl
  unfold tRow wRow
  rw [dif_pos ⟨h0, k.isLt⟩, dif_pos ⟨h1, k.isLt⟩]
  rfl

/-- At a last contraction block the output buffer's entry (b, j) is the whole sum of row b against weights row
    512 * (t / 8) + j, plus that row's bias. -/
theorem out_apply (c : Dev nD) (t : Fin cfg1.N) (h7 : t.val % 8 = 7) (b : Fin 128) (j : Fin 512) :
    (outsAt1 V c t.val t.isLt).1 (ix2 b j)
      = (∑ k ∈ Finset.range 16384, tRow V c b.val k * wRow V c (512 * (t.val / 8) + j.val) k) + bRow V c (512 * (t.val / 8) + j.val) := by
  refine (congrFun (out_last V c t h7) (ix2 b j)).trans ?_
  rw [pay3_1_apply, acc_apply V c t.val t.isLt b j, bblk_apply, h7]

/-- What a writing-back point writes back is its block of the specification. -/
theorem flushed_eq (c : Dev nD) (t : Fin cfg1.N) (hf : (cfg1.win 3).flush t = true) :
    (dat1 (F := Ideal) V c).flushed 3 t = ((cfg1.win 3).blk t).view.read (Elt Ideal) (T1 V c) := by
  have h7 : t.val % 8 = 7 := (flush1_3 t).mp hf
  show (cfg1.win 3).cut (grid1.coords t) ((dat1 (F := Ideal) V c).after 3 t) = _
  rw [after1_3]
  funext y
  have hb : (y 0).val < 128 := (y 0).isLt
  have hj : (y 1).val < 512 := (y 1).isLt
  have e : win1_3.xinj (grid1.coords t) y = ix2 (⟨(y 0).val, hb⟩ : Fin 128) (⟨(y 1).val, hj⟩ : Fin 512) :=
    funext fun a => match a with | ⟨0, _⟩ => rfl | ⟨1, _⟩ => rfl
  show (outsAt1 V c t.val t.isLt).1 (win1_3.xinj (grid1.coords t) y) = T1 V c ((win1_3.blk t).view.emb y)
  rw [e, out_apply V c t h7, T1_apply]
  obtain ⟨-, -, -, -, -, -, e0, e1⟩ := idx1 t
  have i0 : (((win1_3.blk t).view.emb y) 0).val = (y 0).val := by
    show win1_3.index t (0 : Fin 2) * 128 + 1 * (y 0).val = (y 0).val; rw [e0]; omega
  have i1 : (((win1_3.blk t).view.emb y) 1).val = 512 * (t.val / 8) + (y 1).val := by
    show win1_3.index t (1 : Fin 2) * 512 + 1 * (y 1).val = 512 * (t.val / 8) + (y 1).val; rw [e1]; omega
  rw [i0, i1]

/-- The two write-backs cover the array: columns 0 … 511 at point 7, columns 512 … 1023 at point 15. -/
theorem cover (c : Dev nD) (i : S128x1024.Idx) :
    ∃ t : Fin cfg1.N, (cfg1.win 3).flush t = true ∧ i ∈ ((cfg1.win 3).blk t).view.set := by
  have hi0 : (i 0).val < 128 := (i 0).isLt
  have hi1 : (i 1).val < 1024 := (i 1).isLt
  have hN : cfg1.N = 16 := N_1
  have ht : 8 * ((i 1).val / 512) + 7 < cfg1.N := by omega
  refine ⟨⟨8 * ((i 1).val / 512) + 7, ht⟩, (flush1_3 _).mpr (by show (8 * ((i 1).val / 512) + 7) % 8 = 7; omega), ?_⟩
  show i ∈ ((View.whole main_v4).slice (win1_3.rect ⟨8 * ((i 1).val / 512) + 7, ht⟩)).set
  rw [View.set_slice_whole, Rect.mem_set_unit]
  obtain ⟨-, -, -, -, -, -, e0, e1⟩ := idx1 ⟨8 * ((i 1).val / 512) + 7, ht⟩
  have e1' : win1_3.index ⟨8 * ((i 1).val / 512) + 7, ht⟩ (1 : Fin 2) = (8 * ((i 1).val / 512) + 7) / 8 := e1
  intro a
  match a with
  | ⟨0, _⟩ =>
    show win1_3.index ⟨8 * ((i 1).val / 512) + 7, ht⟩ (0 : Fin 2) * 128 ≤ (i 0).val ∧ (i 0).val < win1_3.index ⟨8 * ((i 1).val / 512) + 7, ht⟩ (0 : Fin 2) * 128 + 128
    rw [e0]; omega
  | ⟨1, _⟩ =>
    show win1_3.index ⟨8 * ((i 1).val / 512) + 7, ht⟩ (1 : Fin 2) * 512 ≤ (i 1).val ∧ (i 1).val < win1_3.index ⟨8 * ((i 1).val / 512) + 7, ht⟩ (1 : Fin 2) * 512 + 512
    rw [e1']; omega

end R1

theorem arr1 (c : Dev nD) : (dat1 (F := Ideal) V c).arrAt 3 cfg1.N = T1 V c := by
  exact (dat1 (F := Ideal) V c).arrAt_eq_of_cover 3 (T1 V c) (R1.flushed_eq V c) (R1.cover c)

end Cert.KernelIdeal.Val

end
-- ==== Proof.KI.Bridge.lean ====
/-
  The idealized kernel's result is the specification's. The second call's output array is its entry contents' product
  plus bias; its tensor operand is the first call's output array flattened (flat position k read at (k / 64, k % 64)),
  its weights are the launch's, its bias row is the launch's bias; the first call's output array is the masked sum of
  its entry contents, which are the launch's fillers and roles and the lengths as a column. Unwinding these gives the
  specification entry by entry.
-/
import proofs.«122444_j3367254360395_1_alg».proof.Proof.KI.Run
import proofs.«122444_j3367254360395_1_alg».proof.Proof.KI.Arr0
import proofs.«122444_j3367254360395_1_alg».proof.Proof.KI.Arr1
import proofs.«122444_j3367254360395_1_alg».proof.Proof.Spec
import Idealize.ShloMosaic.Lib.StableHlo.Run
import Idealize.ShloMosaic.Lib.Pipeline.Value

noncomputable section

namespace Cert.KernelIdeal.Val

open Idealize.ShloMosaic Idealize.ShloMosaic.TcCoe Idealize.ShloMosaic.ValueIdx Idealize.SL.Sem

open Cert.KernelIdeal Cert.KernelIdeal.Gen Cert.KernelIdeal.Frm
open Idealize.ShloMosaic.Pipeline (Dat)

/-! ## The three reshapes, read at an entry -/

/-- The lengths as a column: entry (b, 0) is length b. -/
theorem column_apply (x : Vec Ideal S128 .i32) (b : Fin 128) :
    shapeCast S128x1 x shapeCasts_S128_S128x1 (ix2 b 0) = x (ix1 b) :=
  shapeCast_apply x shapeCasts_S128_S128x1 (ix2 b 0) (ix1 b)
    (by rewrite [Shape.rowMajor_val_one, Shape.rowMajor_val_two]; show b.val = b.val * 1 + 0; omega)

/-- The bias as a row: entry (0, n) is bias n. -/
theorem row_apply (x : Vec Ideal S1024 .f32) (n : Fin 1024) :
    shapeCast S1x1024 x shapeCasts_S1024_S1x1024 (ix2 0 n) = x (ix1 n) :=
  shapeCast_apply x shapeCasts_S1024_S1x1024 (ix2 0 n) (ix1 n)
    (by rewrite [Shape.rowMajor_val_one, Shape.rowMajor_val_two]; show n.val = 0 * 1024 + n.val; omega)

/-- The flattened tensor: flat position k of row b is entry (b, k / 64, k % 64). -/
theorem flatten_apply (y : Vec Ideal S128x256x64 .bf16) (b : Fin 128) (k : Fin 16384) :
    shapeCast S128x16384 y shapeCasts_S128x256x64_S128x16384 (ix2 b k)
      = y (ix3 b ⟨k.val / 64, by have := k.isLt; omega⟩ ⟨k.val % 64, Nat.mod_lt _ (by decide)⟩) :=
  shapeCast_apply y shapeCasts_S128x256x64_S128x16384 (ix2 b k) _
    (by rewrite [Shape.rowMajor_val_three, Shape.rowMajor_val_two]
        have hk : k.val < 16384 := k.isLt
        show (b.val * 256 + k.val / 64) * 64 + k.val % 64 = b.val * 16384 + k.val
        omega)

variable (m : (ℓ : Loc nD τ sig) → Buf (Elt Ideal) ℓ) (ρ : Dev nD → PrngReg)

/-! ## The contents each call is entered from, back to the launch memory -/

theorem V1_arg0 (c : Dev nD) : V1 m ρ c main_arg0 = m ((c : Thread nD τ).loc main_arg0) := W1_of m ρ c main_arg0 (by decide)
theorem V1_arg1 (c : Dev nD) : V1 m ρ c main_arg1 = m ((c : Thread nD τ).loc main_arg1) := W1_of m ρ c main_arg1 (by decide)
theorem V1_v0 (c : Dev nD) : V1 m ρ c main_v0 = shapeCast S128x1 (m ((c : Thread nD τ).loc main_arg2)) shapeCasts_S128_S128x1 := by
  show StableHlo.after hostOps0 _ (Proc.devRef .tc main_v0) = _
  after_results
  rfl
theorem W2_arg3 (c : Dev nD) : W2 m ρ c (Proc.devRef .tc main_arg3) = m ((c : Thread nD τ).loc main_arg3) :=
  (W2_of_ne m ρ c main_arg3 (by decide)).trans (W1_of m ρ c main_arg3 (by decide))
theorem W2_arg4 (c : Dev nD) : W2 m ρ c (Proc.devRef .tc main_arg4) = m ((c : Thread nD τ).loc main_arg4) :=
  (W2_of_ne m ρ c main_arg4 (by decide)).trans (W1_of m ρ c main_arg4 (by decide))
theorem V3_arg3 (c : Dev nD) : V3 m ρ c main_arg3 = m ((c : Thread nD τ).loc main_arg3) :=
  (W3_of m ρ c main_arg3 (by decide)).trans (W2_arg3 m ρ c)
theorem V3_v2 (c : Dev nD) : V3 m ρ c main_v2 = shapeCast S128x16384 (W2 m ρ c (Proc.devRef .tc main_v1)) shapeCasts_S128x256x64_S128x16384 := by
  show StableHlo.after hostOps1 _ (Proc.devRef .tc main_v2) = _
  after_results
  rfl
theorem V3_v3 (c : Dev nD) : V3 m ρ c main_v3 = shapeCast S1x1024 (W2 m ρ c (Proc.devRef .tc main_arg4)) shapeCasts_S1024_S1x1024 := by
  show StableHlo.after hostOps1 _ (Proc.devRef .tc main_v3) = _
  after_results
  rfl
/-- The first call's output array after the call is the masked sum of its entry contents. -/
theorem W2_v1 (c : Dev nD) : W2 m ρ c (Proc.devRef .tc main_v1) = T0 (V1 m ρ) c :=
  (W2_arr m ρ c 3).trans (arr0 (V1 m ρ) c)

/-! ## Entry by entry -/

/-- The first call's output array is the specification's masked sum of the launch arrays. -/
theorem T0_eq (c : Dev nD) (b : Fin 128) (e : Fin 256) (r : Fin 64) :
    T0 (V1 m ρ) c (ix3 b e r) = Cert.Spec.tsum (m ((c : Thread nD τ).loc main_arg0)) (m ((c : Thread nD τ).loc main_arg1)) (m ((c : Thread nD τ).loc main_arg2)) b e r := by
  unfold T0 Cert.Spec.tsum
  refine Finset.sum_congr rfl fun s _ => ?_
  have e0 : fillersAt (V1 m ρ) c (ix3 b s e) = m ((c : Thread nD τ).loc main_arg0) (ix3 b s e) := congrFun (V1_arg0 m ρ c) _
  have e1 : rolesAt (V1 m ρ) c (ix3 b s r) = m ((c : Thread nD τ).loc main_arg1) (ix3 b s r) := congrFun (V1_arg1 m ρ c) _
  have eL : lengthsAt (V1 m ρ) c (ix2 b 0) = m ((c : Thread nD τ).loc main_arg2) (ix1 b) :=
    (congrFun (V1_v0 m ρ c) _).trans (column_apply _ b)
  show (fillersAt (V1 m ρ) c (ix3 b s e) * Cert.Spec.msk (lengthsAt (V1 m ρ) c (ix2 b 0)) s.val) * rolesAt (V1 m ρ) c (ix3 b s r) = _
  rw [e0, e1, eL]

/-- The second call's tensor operand at (b, k) is the specification's flattened tensor. -/
theorem tensor_eq (c : Dev nD) (b : Fin 128) (k : Fin 16384) :
    tensorAt (V3 m ρ) c (ix2 b k) = Cert.Spec.flat (m ((c : Thread nD τ).loc main_arg0)) (m ((c : Thread nD τ).loc main_arg1)) (m ((c : Thread nD τ).loc main_arg2)) b k :=
  (congrFun (V3_v2 m ρ c) (ix2 b k)).trans <| (flatten_apply _ b k).trans <|
    (congrFun (W2_v1 m ρ c) _).trans (T0_eq m ρ c b _ _)

theorem weights_eq (c : Dev nD) (n : Fin 1024) (k : Fin 16384) :
    weightsAt (V3 m ρ) c (ix2 n k) = m ((c : Thread nD τ).loc main_arg3) (ix2 n k) := congrFun (V3_arg3 m ρ c) _

theorem bias_eq (c : Dev nD) (n : Fin 1024) :
    biasAt (V3 m ρ) c (ix2 0 n) = m ((c : Thread nD τ).loc main_arg4) (ix1 n) :=
  (congrFun (V3_v3 m ρ c) _).trans <| (row_apply _ n).trans (congrFun (W2_arg4 m ρ c) _)

/-- The specification's result of the launch arrays, as the result buffer's contents. -/
def result (c : Dev nD) : Buf (Elt Ideal) ((c : Thread nD τ).loc main_v4) :=
  fun (j : S128x1024.Idx) => Cert.Spec.out (m ((c : Thread nD τ).loc main_arg0)) (m ((c : Thread nD τ).loc main_arg1)) (m ((c : Thread nD τ).loc main_arg2)) (m ((c : Thread nD τ).loc main_arg3)) (m ((c : Thread nD τ).loc main_arg4)) (j 0) (j 1)

/-- After the run the result buffer holds the specification's result. -/
theorem W4_result (c : Dev nD) : W4 m ρ c (Proc.devRef .tc main_v4) = result m c := by
  refine ((W4_main_v4 m ρ c).trans (arr1 (V3 m ρ) c)).trans ?_
  funext j
  obtain ⟨b, n, rfl⟩ : ∃ (b : Fin 128) (n : Fin 1024), j = ix2 b n := ⟨j 0, j 1, eq_ix2 j⟩
  show (∑ k : Fin 16384, tensorAt (V3 m ρ) c (ix2 b k) * weightsAt (V3 m ρ) c (ix2 n k)) + biasAt (V3 m ρ) c (ix2 0 n)
    = Cert.Spec.out (m ((c : Thread nD τ).loc main_arg0)) (m ((c : Thread nD τ).loc main_arg1)) (m ((c : Thread nD τ).loc main_arg2)) (m ((c : Thread nD τ).loc main_arg3)) (m ((c : Thread nD τ).loc main_arg4)) b n
  have hsum : (∑ k : Fin 16384, tensorAt (V3 m ρ) c (ix2 b k) * weightsAt (V3 m ρ) c (ix2 n k))
      = ∑ k : Fin 16384, Cert.Spec.flat (m ((c : Thread nD τ).loc main_arg0)) (m ((c : Thread nD τ).loc main_arg1)) (m ((c : Thread nD τ).loc main_arg2)) b k * m ((c : Thread nD τ).loc main_arg3) (ix2 n k) :=
    Finset.sum_congr rfl fun k _ => by rw [tensor_eq m ρ c b k, weights_eq m ρ c n k]
  rw [hsum, bias_eq m ρ c n]
  rfl

/-- The run, read: the result at the specification's, every argument as launched. -/
theorem run_value : θ_run defs (onTc (τ := τ) (main (F := Ideal))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v4 (by decide))).trans (W4_result m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run (F := Ideal) m ρ)

end Cert.KernelIdeal.Val

end
-- ==== Proof.RefSpec.lean ====
/-
  The reference program's result, read at entry (b, n), is the specification's: the mask is the comparison of the
  position with the row's length, the einsum is the sum over the sequence, the reshape reads flat position k at
  (k / 64, k % 64), and the transposed weights at (k, n) are the weights at (n, k).
-/
import proofs.«122444_j3367254360395_1_alg».proof.Proof.Gen.ReferenceIdeal.Read
import proofs.«122444_j3367254360395_1_alg».proof.Proof.Spec

noncomputable section

namespace Cert.ReferenceIdeal.RefSpec

open Idealize.ShloMosaic Idealize.ShloMosaic.TcCoe Idealize.ShloMosaic.ValueIdx Idealize.SL.Sem

open Cert.ReferenceIdeal Cert.ReferenceIdeal.Read

/-- The broadcast mask at (b, s, e) does not depend on e: it is the comparison of position s with row b's length. -/
private theorem mask_at (x2 : (⟨S128, .i32⟩ : BufTy).Contents (Elt Ideal)) (b : Fin 128) (s : Fin 1024) (e : Fin 256) :
    val_main_v8 (F := Ideal) x2 (ix3 b s e) = Cert.Spec.msk (x2 (ix1 b)) s.val := by
  have hlen : idx_main_v2 (idx_main_v4 (idx_main_v7 (idx_main_v8 (ix3 b s e)))) = ix1 b :=
    funext fun a => Fin.ext (by match a with | ⟨0, _⟩ => rfl)
  rw [val_main_v8_apply, val_main_v7_apply, val_main_v6_apply, val_main_v5_apply, val_main_v3_apply, val_main_v1_apply,
    val_main_v0_apply, val_main_v4_apply, val_main_v2_apply, hlen]
  rfl

/-- The first contraction at (b, e, r) is the masked sum over the sequence. -/
private theorem tsum_at (x0 : (⟨S128x1024x256, .f32⟩ : BufTy).Contents (Elt Ideal)) (x1 : (⟨S128x1024x64, .f32⟩ : BufTy).Contents (Elt Ideal))
    (x2 : (⟨S128, .i32⟩ : BufTy).Contents (Elt Ideal)) (b : Fin 128) (e : Fin 256) (r : Fin 64) :
    val_main_v10 (F := Ideal) x0 x1 x2 (ix3 b e r) = Cert.Spec.tsum x0 x1 x2 b e r := by
  rw [val_main_v10_apply]
  unfold Cert.Spec.tsum
  refine Finset.sum_congr rfl fun s _ => ?_
  have hl : lidx_main_v10 (ix3 b e r) s = ix3 b s e :=
    funext fun a => Fin.ext (by match a with | ⟨0, _⟩ => rfl | ⟨1, _⟩ => rfl | ⟨2, _⟩ => rfl)
  have hr : ridx_main_v10 (ix3 b e r) s = ix3 b s r :=
    funext fun a => Fin.ext (by match a with | ⟨0, _⟩ => rfl | ⟨1, _⟩ => rfl | ⟨2, _⟩ => rfl)
  rw [hl, hr, val_main_v9_apply, mask_at, Ideal.mulf_def]

/-- The reshaped tensor at (b, k) is the first contraction at (b, k / 64, k % 64). -/
private theorem flat_at (x0 : (⟨S128x1024x256, .f32⟩ : BufTy).Contents (Elt Ideal)) (x1 : (⟨S128x1024x64, .f32⟩ : BufTy).Contents (Elt Ideal))
    (x2 : (⟨S128, .i32⟩ : BufTy).Contents (Elt Ideal)) (b : Fin 128) (k : Fin 16384) :
    val_main_v11 (F := Ideal) x0 x1 x2 (ix2 b k) = Cert.Spec.flat x0 x1 x2 b k := by
  have hb : b.val < 128 := b.isLt
  have hk : k.val < 16384 := k.isLt
  have hi : idx_main_v11 (ix2 b k)
      = ix3 b (⟨k.val / 64, by omega⟩ : Fin 256) (⟨k.val % 64, Nat.mod_lt _ (by decide)⟩ : Fin 64) :=
    funext fun a => Fin.ext (by
      match a with
      | ⟨0, _⟩ => show (b.val * 16384 + k.val) / 16384 = b.val; omega
      | ⟨1, _⟩ => show (b.val * 16384 + k.val) / 64 % 256 = k.val / 64; omega
      | ⟨2, _⟩ => show (b.val * 16384 + k.val) % 64 = k.val % 64; omega)
  unfold Cert.Spec.flat
  rw [val_main_v11_apply, hi, tsum_at]

theorem ref_is_spec (x0 : (⟨S128x1024x256, .f32⟩ : BufTy).Contents (Elt Ideal)) (x1 : (⟨S128x1024x64, .f32⟩ : BufTy).Contents (Elt Ideal))
    (x2 : (⟨S128, .i32⟩ : BufTy).Contents (Elt Ideal)) (x3 : (⟨S1024x16384, .f32⟩ : BufTy).Contents (Elt Ideal))
    (x4 : (⟨S1024, .f32⟩ : BufTy).Contents (Elt Ideal)) (b : Fin 128) (n : Fin 1024) :
    val_main_v16 (F := Ideal) x0 x1 x2 x3 x4 (ix2 b n) = Cert.Spec.out x0 x1 x2 x3 x4 b n := by
  have hbias : idx_main_v14 (idx_main_v15 (ix2 b n)) = ix1 n :=
    funext fun a => Fin.ext (by match a with | ⟨0, _⟩ => rfl)
  rw [val_main_v16_apply, val_main_v13_apply, val_main_v15_apply, val_main_v14_apply, hbias, Ideal.addf_def]
  unfold Cert.Spec.out
  refine congrArg (· + x4 (ix1 n)) (Finset.sum_congr rfl fun k _ => ?_)
  have hl : lidx_main_v13 (ix2 b n) k = ix2 b k :=
    funext fun a => Fin.ext (by match a with | ⟨0, _⟩ => rfl | ⟨1, _⟩ => rfl)
  have hw : idx_main_v12 (ridx_main_v13 (ix2 b n) k) = ix2 n k :=
    funext fun a => Fin.ext (by match a with | ⟨0, _⟩ => rfl | ⟨1, _⟩ => rfl)
  rw [hl, flat_at, val_main_v12_apply, hw]

end Cert.ReferenceIdeal.RefSpec

end
-- ==== Proof.lean ====
/-
  The certificate of the masked tensor-product layer: with fillers x0[b, s, e], roles x1[b, s, r], lengths len[b],
  weights w[n, k] and bias[n], both programs compute
      out[b, n] = (sum over k = 64 e + r of tsum[b, e, r] * w[n, k]) + bias[n],
      tsum[b, e, r] = sum over s of (x0[b, s, e] * [s < len[b]]) * x1[b, s, r]
  over the extended reals. The kernel cuts the sum over s into eight blocks of 128 and the sum over k into eight blocks
  of 2048, each accumulated in block order from zero in a scratch that is carried from grid point to grid point; the
  reference takes each sum whole. Regrouping a finite sum of extended reals and adding it to zero change nothing, and
  every change of float format is the identity, so no finiteness of the inputs is needed.

  The three frames: each kernel program runs to its end, faults nowhere and leaves its arguments as launched because each
  pallas_call's body does so at every grid point from what the point before left (the accumulator's contents are part
  of the invariant carried between points), and the host reshapes write only their own results; the reference is a
  straight line of host operations. The idealization rewrote nothing. The two idealized programs' results are both the
  specification's function of the arguments.
-/
import proofs.«122444_j3367254360395_1_alg».proof.Defs
import proofs.«122444_j3367254360395_1_alg».proof.Proof.Gen.Kernel
import proofs.«122444_j3367254360395_1_alg».proof.Proof.Gen.KernelIdeal
import proofs.«122444_j3367254360395_1_alg».proof.Proof.Gen.ReferenceIdeal
import proofs.«122444_j3367254360395_1_alg».proof.Proof.Gen.Pre_finite_inputs
import proofs.«122444_j3367254360395_1_alg».proof.Proof.Gen.ReferenceIdeal.Run
import proofs.«122444_j3367254360395_1_alg».proof.Proof.Gen.ReferenceIdeal.Read
import proofs.«122444_j3367254360395_1_alg».proof.Proof.K.Run
import proofs.«122444_j3367254360395_1_alg».proof.Proof.KI.Bridge
import proofs.«122444_j3367254360395_1_alg».proof.Proof.RefSpec

noncomputable section

namespace Cert.Proof

open Idealize.ShloMosaic Idealize.ShloMosaic.TcCoe Idealize.ShloMosaic.ValueIdx Idealize.SL.Sem

theorem frame_k : Cert.frame_Kernel := fun m ρ _ => Cert.Kernel.Frm.frame (F := Bits) m ρ

theorem frame_ki : Cert.frame_KernelIdeal := fun m ρ _ => Cert.KernelIdeal.Frm.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the specification's result of the arguments they agree on. -/
theorem algebraic : Cert.algebraic_KernelIdeal_ReferenceIdeal := by
  intro m ρ m' ρ' _ hagree
  refine ⟨fun c => Cert.KernelIdeal.Val.result m c, Cert.KernelIdeal.Val.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, (hagree c).1, (hagree c).2.1, (hagree c).2.2.1, (hagree c).2.2.2.1, (hagree c).2.2.2.2]
  funext j
  obtain ⟨b, n, rfl⟩ : ∃ (b : Fin 128) (n : Fin 1024), j = ix2 b n := ⟨j 0, j 1, eq_ix2 j⟩
  exact Cert.ReferenceIdeal.RefSpec.ref_is_spec _ _ _ _ _ b n

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
